-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64x1024 : Shape := ⟨2, ![64, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  reducesTo_S_S_d : S_.ReducesTo [] S_

variable [Facts]

def fn {F : FTy → Type} [FloatOps F] (main_arg0 : FVec F S64x1024x1024 .f32) (main_arg1 : IVec S64x1024 32) (main_arg2 : FVec F S64x1024x1024 .f32) (main_arg3 : IVec S64x1024 32) (main_arg4 : IVec S64x1024 1) (main_arg5 : FVec F S_ .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x1024x1024 .f32 := Host.absf main_arg2
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S_ .f32 := Host.absf main_arg5
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S64x1024x1024 : Shape := ⟨3, ![64, 1024, 1024]⟩
abbrev S64x1024 : Shape := ⟨2, ![64, 1024]⟩
abbrev S_ : Shape := ⟨0, ![]⟩
abbrev S1x1 : Shape := ⟨2, ![1, 1]⟩
abbrev S8x128x1024 : Shape := ⟨3, ![8, 128, 1024]⟩
abbrev S8x128 : Shape := ⟨2, ![8, 128]⟩
abbrev S1x128 : Shape := ⟨2, ![1, 128]⟩
abbrev S1x1x1024 : Shape := ⟨3, ![1, 1, 1024]⟩
abbrev S1x128x1 : Shape := ⟨3, ![1, 128, 1]⟩
abbrev S1x128x1024 : Shape := ⟨3, ![1, 128, 1024]⟩
abbrev S8x128x1 : Shape := ⟨3, ![8, 128, 1]⟩
abbrev S8 : Shape := ⟨1, ![8]⟩
abbrev S8x1 : Shape := ⟨2, ![8, 1]⟩
abbrev S1 : Shape := ⟨1, ![1]⟩

abbrev nBuf : Space → Nat
  | .hbm => 22
  | .vmem => 14
  | .smem => 0
  | _ => 0

abbrev bufTy : (tb : Table) → Fin (tcTables nBuf tb) → BufTy
  | .hbm, ⟨0, _⟩ => ⟨S64x1024x1024, .f32⟩
  | .hbm, ⟨1, _⟩ => ⟨S64x1024, .i32⟩
  | .hbm, ⟨2, _⟩ => ⟨S64x1024x1024, .f32⟩
  | .hbm, ⟨3, _⟩ => ⟨S64x1024, .i32⟩
  | .hbm, ⟨4, _⟩ => ⟨S64x1024, .i1⟩
  | .hbm, ⟨5, _⟩ => ⟨S_, .f32⟩
  | .hbm, ⟨6, _⟩ => ⟨S64x1024, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64x1024, .i32⟩
  | .hbm, ⟨20, _⟩ => ⟨S_, .i32⟩
  | .hbm, ⟨21, _⟩ => ⟨S_, .i32⟩
  | .local _ .vmem, ⟨0, _⟩ => ⟨S8x128x1024, .f32⟩
  | .local _ .vmem, ⟨1, _⟩ => ⟨S8x128x1024, .f32⟩
  | .local _ .vmem, ⟨2, _⟩ => ⟨S8x128, .i32⟩
  | .local _ .vmem, ⟨3, _⟩ => ⟨S8x128, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | .local _ .vmem, ⟨7, _⟩ => ⟨S8x128x1024, .f32⟩
  | .local _ .vmem, ⟨8, _⟩ => ⟨S8x128x1024, .f32⟩
  | .local _ .vmem, ⟨9, _⟩ => ⟨S8x128, .i32⟩
  | .local _ .vmem, ⟨10, _⟩ => ⟨S8x128, .i32⟩
  | .local _ .vmem, ⟨11, _⟩ => ⟨S8x128, .f32⟩
  | .local _ .vmem, ⟨12, _⟩ => ⟨S8x128, .f32⟩
  | .local _ .vmem, ⟨13, _⟩ => ⟨S1x1, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  inb_S1x1_S1x1_0_0 : ∀ a, (![0, 0] : Fin 2 → Nat) a + S1x1.size a ≤ S1x1.size a
  h_S1x1 : 0 < S1x1.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x1024_S8x128x1024_0_0_0 : ∀ a, (![0, 0, 0] : Fin 3 → Nat) a + S8x128x1024.size a ≤ S8x128x1024.size a
  h_S8x128x1024 : 0 < S8x128x1024.numel
  iota_S1x128_d1_w32 : S1x128.Iotas .tc 32 [1]
  shapeCasts_S1x128_S1x128 : S1x128.ShapeCasts S1x128
  broadcasts_S1x128_S8x128 : S1x128.Broadcasts S8x128
  reduces_S8x128x1024_S8x128 : S8x128x1024.Reduces [2] S8x128
  iota_S1x1x1024_d2_w32 : S1x1x1024.Iotas .tc 32 [2]
  iota_S1x128x1_d1_w32 : S1x128x1.Iotas .tc 32 [1]
  broadcasts_S1x1x1024_S1x128x1024 : S1x1x1024.Broadcasts S1x128x1024
  broadcasts_S1x128x1_S1x128x1024 : S1x128x1.Broadcasts S1x128x1024
  natLt_1_32 : 1 < 32
  shapeCasts_S8x128_S8x128x1 : S8x128.ShapeCasts S8x128x1
  broadcasts_S8x128x1_S8x128x1024 : S8x128x1.Broadcasts S8x128x1024
  broadcasts_S1x128x1024_S8x128x1024 : S1x128x1024.Broadcasts S8x128x1024
  shapeCasts_S8x128x1_S8x128x1 : S8x128x1.ShapeCasts S8x128x1
  broadcasts_S1x1x1024_S8x128x1024 : S1x1x1024.Broadcasts S8x128x1024
  reduces_S8x128_S8 : S8x128.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  reducesTo_S64x1024_S_d0_1 : S64x1024.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S64x1024x1024.size a
  hwx0_0 : ∀ i : grid0.Coords, EltTy.bits .f32 = 32 ∨ (Rect.block (s := S64x1024x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x1024.size a
  hwx0_1 : ∀ i : grid0.Coords, EltTy.bits .i32 = 32 ∨ (Rect.block (s := S64x1024) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x1024.size a
  hwx0_2 : ∀ i : grid0.Coords, EltTy.bits .f32 = 32 ∨ (Rect.block (s := S64x1024) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S64x1024x1024.size a
  hwx1_0 : ∀ i : grid1.Coords, EltTy.bits .f32 = 32 ∨ (Rect.block (s := S64x1024x1024) S8x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S64x1024.size a
  hwx1_1 : ∀ i : grid1.Coords, EltTy.bits .i32 = 32 ∨ (Rect.block (s := S64x1024) S8x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S64x1024.size a
  hwx1_2 : ∀ i : grid1.Coords, EltTy.bits .f32 = 32 ∨ (Rect.block (s := S64x1024) S8x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x1024x1024 : Shape := ⟨3, ![64, 1024, 1024]⟩
abbrev S64x1024 : Shape := ⟨2, ![64, 1024]⟩
abbrev S_ : Shape := ⟨0, ![]⟩
abbrev S1024 : Shape := ⟨1, ![1024]⟩
abbrev S1x1024 : Shape := ⟨2, ![1, 1024]⟩
abbrev S1024x1024 : Shape := ⟨2, ![1024, 1024]⟩
abbrev S64x1024x1 : Shape := ⟨3, ![64, 1024, 1]⟩
abbrev S1x1024x1024 : Shape := ⟨3, ![1, 1024, 1024]⟩
abbrev S64x1024x1x1 : Shape := ⟨4, ![64, 1024, 1, 1]⟩
abbrev S1 : Shape := ⟨1, ![1]⟩
abbrev S1x1x1x1 : Shape := ⟨4, ![1, 1, 1, 1]⟩

abbrev nBuf : Space → Nat
  | .hbm => 179
  | .vmem => 0
  | .smem => 0
  | _ => 0

abbrev hbmTy0_0 (i : Nat) : BufTy := match i % 128 with
  | 0 => ⟨S64x1024x1024, .f32⟩
  | 1 => ⟨S64x1024, .i32⟩
  | 2 => ⟨S64x1024x1024, .f32⟩
  | 3 => ⟨S64x1024, .i32⟩
  | 4 => ⟨S64x1024, .i1⟩
  | 5 => ⟨S_, .f32⟩
  | 6 => ⟨S_, .i32⟩
  | 7 => ⟨S64x1024, .i32⟩
  | 8 => ⟨S64x1024, .i1⟩
  | 9 => ⟨S1024, .i32⟩
  | 10 => ⟨S1x1024, .i32⟩
  | 11 => ⟨S64x1024, .i32⟩
  | 12 => ⟨S64x1024, .i32⟩
  | 13 => ⟨S_, .f32⟩
  | 14 => ⟨S64x1024, .f32⟩
  | 15 => ⟨S64x1024, .i1⟩
  | 16 => ⟨S1024x1024, .i32⟩
  | 17 => ⟨S1024x1024, .i32⟩
  | 18 => ⟨S_, .i32⟩
  | 19 => ⟨S1024x1024, .i32⟩
  | 20 => ⟨S1024x1024, .i32⟩
  | 21 => ⟨S1024x1024, .i1⟩
  | 22 => ⟨S64x1024x1, .i1⟩
  | 23 => ⟨S1x1024x1024, .i1⟩
  | 24 => ⟨S64x1024x1024, .i1⟩
  | 25 => ⟨S64x1024x1024, .i1⟩
  | 26 => ⟨S64x1024x1024, .i1⟩
  | 27 => ⟨S_, .f32⟩
  | 28 => ⟨S64x1024, .f32⟩
  | 29 => ⟨S64x1024, .f32⟩
  | 30 => ⟨S64x1024x1, .f32⟩
  | 31 => ⟨S64x1024x1024, .f32⟩
  | 32 => ⟨S64x1024x1024, .f32⟩
  | 33 => ⟨S_, .f32⟩
  | 34 => ⟨S64x1024, .f32⟩
  | 35 => ⟨S_, .f32⟩
  | 36 => ⟨S64x1024, .f32⟩
  | 37 => ⟨S64x1024, .f32⟩
  | 38 => ⟨S64x1024x1, .f32⟩
  | 39 => ⟨S64x1024x1024, .f32⟩
  | 40 => ⟨S64x1024x1024, .f32⟩
  | 41 => ⟨S64x1024x1024, .f32⟩
  | 42 => ⟨S_, .f32⟩
  | 43 => ⟨S64x1024, .f32⟩
  | 44 => ⟨S64x1024x1, .f32⟩
  | 45 => ⟨S64x1024x1, .f32⟩
  | 46 => ⟨S64x1024x1024, .f32⟩
  | 47 => ⟨S64x1024x1024, .f32⟩
  | 48 => ⟨S_, .i32⟩
  | 49 => ⟨S_, .i32⟩
  | 50 => ⟨S_, .i32⟩
  | 51 => ⟨S64x1024, .i32⟩
  | 52 => ⟨S64x1024, .i32⟩
  | 53 => ⟨S_, .i32⟩
  | 54 => ⟨S64x1024, .i32⟩
  | 55 => ⟨S64x1024, .i32⟩
  | 56 => ⟨S64x1024x1, .i32⟩
  | 57 => ⟨S_, .i32⟩
  | 58 => ⟨S64x1024x1, .i32⟩
  | 59 => ⟨S64x1024x1, .i1⟩
  | 60 => ⟨S_, .i32⟩
  | 61 => ⟨S64x1024x1, .i32⟩
  | 62 => ⟨S64x1024x1, .i32⟩
  | 63 => ⟨S64x1024x1, .i32⟩
  | 64 => ⟨S64x1024x1x1, .i32⟩
  | 65 => ⟨S1, .i32⟩
  | 66 => ⟨S_, .i32⟩
  | 67 => ⟨S64x1024x1x1, .i32⟩
  | 68 => ⟨S64x1024x1x1, .i1⟩
  | 69 => ⟨S1x1x1x1, .i32⟩
  | 70 => ⟨S64x1024x1x1, .i32⟩
  | 71 => ⟨S64x1024x1x1, .i1⟩
  | 72 => ⟨S64x1024x1x1, .i1⟩
  | 73 => ⟨S_, .i1⟩
  | 74 => ⟨S64x1024x1, .i1⟩
  | 75 => ⟨S64x1024x1, .f32⟩
  | 76 => ⟨S_, .f32⟩
  | 77 => ⟨S64x1024x1, .f32⟩
  | 78 => ⟨S64x1024x1, .f32⟩
  | 79 => ⟨S64x1024, .f32⟩
  | 80 => ⟨S64x1024, .f32⟩
  | 81 => ⟨S64x1024, .f32⟩
  | 82 => ⟨S_, .f32⟩
  | 83 => ⟨S_, .f32⟩
  | 84 => ⟨S_, .f32⟩
  | 85 => ⟨S_, .f32⟩
  | 86 => ⟨S64x1024, .f32⟩
  | 87 => ⟨S_, .f32⟩
  | 88 => ⟨S_, .f32⟩
  | 89 => ⟨S_, .f32⟩
  | 90 => ⟨S_, .i32⟩
  | 91 => ⟨S64x1024, .i32⟩
  | 92 => ⟨S64x1024, .i1⟩
  | 93 => ⟨S1024, .i32⟩
  | 94 => ⟨S1x1024, .i32⟩
  | 95 => ⟨S64x1024, .i32⟩
  | 96 => ⟨S64x1024, .i32⟩
  | 97 => ⟨S_, .f32⟩
  | 98 => ⟨S64x1024, .f32⟩
  | 99 => ⟨S64x1024, .i1⟩
  | 100 => ⟨S1024x1024, .i32⟩
  | 101 => ⟨S1024x1024, .i32⟩
  | 102 => ⟨S_, .i32⟩
  | 103 => ⟨S1024x1024, .i32⟩
  | 104 => ⟨S1024x1024, .i32⟩
  | 105 => ⟨S1024x1024, .i1⟩
  | 106 => ⟨S64x1024x1, .i1⟩
  | 107 => ⟨S1x1024x1024, .i1⟩
  | 108 => ⟨S64x1024x1024, .i1⟩
  | 109 => ⟨S64x1024x1024, .i1⟩
  | 110 => ⟨S64x1024x1024, .i1⟩
  | 111 => ⟨S_, .f32⟩
  | 112 => ⟨S64x1024, .f32⟩
  | 113 => ⟨S64x1024, .f32⟩
  | 114 => ⟨S64x1024x1, .f32⟩
  | 115 => ⟨S64x1024x1024, .f32⟩
  | 116 => ⟨S64x1024x1024, .f32⟩
  | 117 => ⟨S_, .f32⟩
  | 118 => ⟨S64x1024, .f32⟩
  | 119 => ⟨S_, .f32⟩
  | 120 => ⟨S64x1024, .f32⟩
  | 121 => ⟨S64x1024, .f32⟩
  | 122 => ⟨S64x1024x1, .f32⟩
  | 123 => ⟨S64x1024x1024, .f32⟩
  | 124 => ⟨S64x1024x1024, .f32⟩
  | 125 => ⟨S64x1024x1024, .f32⟩
  | 126 => ⟨S_, .f32⟩
  | 127 => ⟨S64x1024, .f32⟩
  | _ => ⟨S64x1024x1024, .f32⟩

abbrev hbmTy0_1 (i : Nat) : BufTy := match i % 128 with
  | 0 => ⟨S64x1024x1, .f32⟩
  | 1 => ⟨S64x1024x1, .f32⟩
  | 2 => ⟨S64x1024x1024, .f32⟩
  | 3 => ⟨S64x1024x1024, .f32⟩
  | 4 => ⟨S_, .i32⟩
  | 5 => ⟨S_, .i32⟩
  | 6 => ⟨S_, .i32⟩
  | 7 => ⟨S64x1024, .i32⟩
  | 8 => ⟨S64x1024, .i32⟩
  | 9 => ⟨S_, .i32⟩
  | 10 => ⟨S64x1024, .i32⟩
  | 11 => ⟨S64x1024, .i32⟩
  | 12 => ⟨S64x1024x1, .i32⟩
  | 13 => ⟨S_, .i32⟩
  | 14 => ⟨S64x1024x1, .i32⟩
  | 15 => ⟨S64x1024x1, .i1⟩
  | 16 => ⟨S_, .i32⟩
  | 17 => ⟨S64x1024x1, .i32⟩
  | 18 => ⟨S64x1024x1, .i32⟩
  | 19 => ⟨S64x1024x1, .i32⟩
  | 20 => ⟨S64x1024x1x1, .i32⟩
  | 21 => ⟨S1, .i32⟩
  | 22 => ⟨S_, .i32⟩
  | 23 => ⟨S64x1024x1x1, .i32⟩
  | 24 => ⟨S64x1024x1x1, .i1⟩
  | 25 => ⟨S1x1x1x1, .i32⟩
  | 26 => ⟨S64x1024x1x1, .i32⟩
  | 27 => ⟨S64x1024x1x1, .i1⟩
  | 28 => ⟨S64x1024x1x1, .i1⟩
  | 29 => ⟨S_, .i1⟩
  | 30 => ⟨S64x1024x1, .i1⟩
  | 31 => ⟨S64x1024x1, .f32⟩
  | 32 => ⟨S_, .f32⟩
  | 33 => ⟨S64x1024x1, .f32⟩
  | 34 => ⟨S64x1024x1, .f32⟩
  | 35 => ⟨S64x1024, .f32⟩
  | 36 => ⟨S64x1024, .f32⟩
  | 37 => ⟨S64x1024, .f32⟩
  | 38 => ⟨S_, .f32⟩
  | 39 => ⟨S_, .f32⟩
  | 40 => ⟨S_, .f32⟩
  | 41 => ⟨S_, .f32⟩
  | 42 => ⟨S64x1024, .f32⟩
  | 43 => ⟨S_, .f32⟩
  | 44 => ⟨S_, .f32⟩
  | 45 => ⟨S_, .f32⟩
  | 46 => ⟨S_, .f32⟩
  | 47 => ⟨S_, .f32⟩
  | 48 => ⟨S64x1024, .i32⟩
  | 49 => ⟨S_, .i32⟩
  | 50 => ⟨S_, .i32⟩
  | _ => ⟨S64x1024x1024, .f32⟩

abbrev hbmTy (i : Nat) : BufTy := match i / 128 with
  | 0 => hbmTy0_0 i
  | 1 => hbmTy0_1 i
  | _ => ⟨S64x1024x1024, .f32⟩

abbrev bufTy : (tb : Table) → Fin (tcTables nBuf tb) → BufTy
  | .hbm, ⟨i, _⟩ => hbmTy i
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_v0 : Ref sig .tc := ⟨.hbm, 31, rfl⟩
abbrev main_v20 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v21 : Ref sig .tc := ⟨.hbm, 47, rfl⟩
abbrev main_c_2 : Ref sig .tc := ⟨.hbm, 48, rfl⟩
abbrev main_c_3 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v22 : Ref sig .tc := ⟨.hbm, 55, rfl⟩
abbrev main_v23 : Ref sig .tc := ⟨.hbm, 56, rfl⟩
abbrev main_call4_c : Ref sig .tc := ⟨.hbm, 57, rfl⟩
abbrev main_call4_v0 : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_c_1 : Ref sig .tc := ⟨.hbm, 65, rfl⟩
abbrev main_call4_c_2 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_3 : Ref sig .tc := ⟨.hbm, 73, rfl⟩
abbrev main_call4_v12 : Ref sig .tc := ⟨.hbm, 74, rfl⟩
abbrev main_call4_v13 : Ref sig .tc := ⟨.hbm, 75, rfl⟩
abbrev main_call4_cst : Ref sig .tc := ⟨.hbm, 76, rfl⟩
abbrev main_call4_v14 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_4 : Ref sig .tc := ⟨.hbm, 82, rfl⟩
abbrev main_v28 : Ref sig .tc := ⟨.hbm, 83, rfl⟩
abbrev main_cst_5 : Ref sig .tc := ⟨.hbm, 84, rfl⟩
abbrev main_v29 : Ref sig .tc := ⟨.hbm, 85, rfl⟩
abbrev main_v30 : Ref sig .tc := ⟨.hbm, 86, rfl⟩
abbrev main_cst_6 : Ref sig .tc := ⟨.hbm, 87, rfl⟩
abbrev main_v31 : Ref sig .tc := ⟨.hbm, 88, rfl⟩
abbrev main_v32 : Ref sig .tc := ⟨.hbm, 89, rfl⟩
abbrev main_c_7 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_call5_v0 : Ref sig .tc := ⟨.hbm, 95, rfl⟩
abbrev main_v37 : Ref sig .tc := ⟨.hbm, 96, rfl⟩
abbrev main_cst_8 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_c_9 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_cst_10 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_call6_v0 : Ref sig .tc := ⟨.hbm, 115, rfl⟩
abbrev main_v53 : Ref sig .tc := ⟨.hbm, 116, rfl⟩
abbrev main_call7_cst : Ref sig .tc := ⟨.hbm, 117, rfl⟩
abbrev main_call7_v0 : Ref sig .tc := ⟨.hbm, 118, rfl⟩
abbrev main_call7_cst_0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_call7_v5 : Ref sig .tc := ⟨.hbm, 124, rfl⟩
abbrev main_call7_v6 : Ref sig .tc := ⟨.hbm, 125, rfl⟩
abbrev main_call7_cst_1 : Ref sig .tc := ⟨.hbm, 126, rfl⟩
abbrev main_call7_v7 : Ref sig .tc := ⟨.hbm, 127, rfl⟩
abbrev main_call7_v8 : Ref sig .tc := ⟨.hbm, 128, rfl⟩
abbrev main_call7_v9 : Ref sig .tc := ⟨.hbm, 129, rfl⟩
abbrev main_call7_v10 : Ref sig .tc := ⟨.hbm, 130, rfl⟩
abbrev main_v54 : Ref sig .tc := ⟨.hbm, 131, rfl⟩
abbrev main_c_11 : Ref sig .tc := ⟨.hbm, 132, rfl⟩
abbrev main_c_12 : Ref sig .tc := ⟨.hbm, 133, rfl⟩
abbrev main_call8_v0 : Ref sig .tc := ⟨.hbm, 134, rfl⟩
abbrev main_call8_v1 : Ref sig .tc := ⟨.hbm, 135, rfl⟩
abbrev main_call8_v2 : Ref sig .tc := ⟨.hbm, 136, rfl⟩
abbrev main_call8_v3 : Ref sig .tc := ⟨.hbm, 137, rfl⟩
abbrev main_call8_v4 : Ref sig .tc := ⟨.hbm, 138, rfl⟩
abbrev main_v55 : Ref sig .tc := ⟨.hbm, 139, rfl⟩
abbrev main_v56 : Ref sig .tc := ⟨.hbm, 140, rfl⟩
abbrev main_call9_c : Ref sig .tc := ⟨.hbm, 141, rfl⟩
abbrev main_call9_v0 : Ref sig .tc := ⟨.hbm, 142, rfl⟩
abbrev main_call9_v1 : Ref sig .tc := ⟨.hbm, 143, rfl⟩
abbrev main_call9_c_0 : Ref sig .tc := ⟨.hbm, 144, rfl⟩
abbrev main_call9_v2 : Ref sig .tc := ⟨.hbm, 145, rfl⟩
abbrev main_call9_v3 : Ref sig .tc := ⟨.hbm, 146, rfl⟩
abbrev main_call9_v4 : Ref sig .tc := ⟨.hbm, 147, rfl⟩
abbrev main_call9_v5 : Ref sig .tc := ⟨.hbm, 148, rfl⟩
abbrev main_call9_c_1 : Ref sig .tc := ⟨.hbm, 149, rfl⟩
abbrev main_call9_c_2 : Ref sig .tc := ⟨.hbm, 150, rfl⟩
abbrev main_call9_v6 : Ref sig .tc := ⟨.hbm, 151, rfl⟩
abbrev main_call9_v7 : Ref sig .tc := ⟨.hbm, 152, rfl⟩
abbrev main_call9_v8 : Ref sig .tc := ⟨.hbm, 153, rfl⟩
abbrev main_call9_v9 : Ref sig .tc := ⟨.hbm, 154, rfl⟩
abbrev main_call9_v10 : Ref sig .tc := ⟨.hbm, 155, rfl⟩
abbrev main_call9_v11 : Ref sig .tc := ⟨.hbm, 156, rfl⟩
abbrev main_call9_c_3 : Ref sig .tc := ⟨.hbm, 157, rfl⟩
abbrev main_call9_v12 : Ref sig .tc := ⟨.hbm, 158, rfl⟩
abbrev main_call9_v13 : Ref sig .tc := ⟨.hbm, 159, rfl⟩
abbrev main_call9_cst : Ref sig .tc := ⟨.hbm, 160, rfl⟩
abbrev main_call9_v14 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_cst_13 : Ref sig .tc := ⟨.hbm, 166, rfl⟩
abbrev main_v61 : Ref sig .tc := ⟨.hbm, 167, rfl⟩
abbrev main_cst_14 : Ref sig .tc := ⟨.hbm, 168, rfl⟩
abbrev main_v62 : Ref sig .tc := ⟨.hbm, 169, rfl⟩
abbrev main_v63 : Ref sig .tc := ⟨.hbm, 170, rfl⟩
abbrev main_cst_15 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_c_16 : Ref sig .tc := ⟨.hbm, 177, rfl⟩
abbrev main_v69 : Ref sig .tc := ⟨.hbm, 178, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024x1024_S64x1024_d2 : S64x1024x1024.ReducesTo [2] S64x1024
  h_S_ : 0 < S_.numel
  bcast_S_S1024x1024 : S_.BroadcastsInDim S1024x1024 (![] : Fin 0 → Fin S1024x1024.rank)
  bcast_S64x1024_S64x1024x1_0_1 : S64x1024.BroadcastsInDim S64x1024x1 (![0, 1] : Fin 2 → Fin S64x1024x1.rank)
  bcast_S1024x1024_S1x1024x1024_1_2 : S1024x1024.BroadcastsInDim S1x1024x1024 (![1, 2] : Fin 2 → Fin S1x1024x1024.rank)
  bcast_S64x1024x1_S64x1024x1024_0_1_2 : S64x1024x1.BroadcastsInDim S64x1024x1024 (![0, 1, 2] : Fin 3 → Fin S64x1024x1024.rank)
  bcast_S1x1024x1024_S64x1024x1024_0_1_2 : S1x1024x1024.BroadcastsInDim S64x1024x1024 (![0, 1, 2] : Fin 3 → Fin S64x1024x1024.rank)
  bcast_S_S64x1024x1 : S_.BroadcastsInDim S64x1024x1 (![] : Fin 0 → Fin S64x1024x1.rank)
  shapeCasts_S64x1024x1_S64x1024x1x1 : S64x1024x1.ShapeCasts S64x1024x1x1
  bcast_S_S64x1024x1x1 : S_.BroadcastsInDim S64x1024x1x1 (![] : Fin 0 → Fin S64x1024x1x1.rank)
  bcast_S1_S1x1x1x1_3 : S1.BroadcastsInDim S1x1x1x1 (![3] : Fin 1 → Fin S1x1x1x1.rank)
  bcast_S1x1x1x1_S64x1024x1x1_0_1_2_3 : S1x1x1x1.BroadcastsInDim S64x1024x1x1 (![0, 1, 2, 3] : Fin 4 → Fin S64x1024x1x1.rank)
  reducesTo_S64x1024x1x1_S64x1024x1_d3 : S64x1024x1x1.ReducesTo [3] S64x1024x1
  shapeCasts_S64x1024x1_S64x1024 : S64x1024x1.ShapeCasts S64x1024
  reducesTo_S64x1024_S_d0_1 : S64x1024.ReducesTo [0, 1] S_
  natLt_1_32 : 1 < 32
  gather_S64x1024x1024_S64x1024x1x1_S64x1024x1_n_2_01_01_2_3_111_wf : GatherDims.WF S64x1024x1024 S64x1024x1x1 S64x1024x1 [] [2] [0, 1] [2] [0, 1] 3 ![1, 1, 1]

variable [Facts₀]

def gather_S64x1024x1024_S64x1024x1x1_S64x1024x1_n_2_01_01_2_3_111 : GatherDims S64x1024x1024 S64x1024x1x1 S64x1024x1 where
  offsetDims := []
  collapsedSliceDims := [2]
  operandBatchingDims := [0, 1]
  startIndicesBatchingDims := [0, 1]
  startIndexMap := [2]
  indexVectorDim := 3
  sliceSizes := ![1, 1, 1]
  wf := gather_S64x1024x1024_S64x1024x1x1_S64x1024x1_n_2_01_01_2_3_111_wf

class Facts : Prop extends Facts₀ where

variable [Facts]
-- ==== Proof.RefPieces.lean ====
import proofs.«413489_j17179869184487_2_alg».proof.Proof.RefOps
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Operations 0 to 20 of @main, in order. -/
abbrev st1 : List (HloOp τ sig (Elt F)) :=
  [ nullary main_c (constantI S_ 32 4294967295#32),
    unary main_c main_v0 (broadcastInDim S64x1024 ![] bcast_S_S64x1024 : (⟨S_, .i32⟩ : BufTy).Contents (Elt F) → (⟨S64x1024, .i32⟩ : BufTy).Contents (Elt F)),
    binary main_arg1 main_v0 main_v1 (cmpi .eq : (⟨S64x1024, .i32⟩ : BufTy).Contents (Elt F) → (⟨S64x1024, .i32⟩ : BufTy).Contents (Elt F) → (⟨S64x1024, .i1⟩ : BufTy).Contents (Elt F)),
    nullary main_v2 (iotaInDim S1024 32 0),
    unary main_v2 main_v3 (broadcastInDim S1x1024 ![1] bcast_S1024_S1x1024_1 : (⟨S1024, .i32⟩ : BufTy).Contents (Elt F) → (⟨S1x1024, .i32⟩ : BufTy).Contents (Elt F)),
    TRef.unary (TRef.of (T := ⟨S1x1024, .i32⟩) main_v3) (TRef.of (T := ⟨S64x1024, .i32⟩) main_call0_v0) (broadcastInDim S64x1024 ![0, 1] bcast_S1x1024_S64x1024_0_1),
    TRef.ternary (TRef.of (T := ⟨S64x1024, .i1⟩) main_v1) (TRef.of (T := ⟨S64x1024, .i32⟩) main_call0_v0) (TRef.of (T := ⟨S64x1024, .i32⟩) main_arg1) (TRef.of (T := ⟨S64x1024, .i32⟩) main_v4) select,
    nullary main_cst (constant S_ .f32 0xFF800000#32),
    binary main_arg0 main_cst main_v5 ((fun x v => Host.reduce FloatOps.maximumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    binary main_v1 main_arg4 main_v6 (andi : (⟨S64x1024, .i1⟩ : BufTy).Contents (Elt F) → (⟨S64x1024, .i1⟩ : BufTy).Contents (Elt F) → (⟨S64x1024, .i1⟩ : BufTy).Contents (Elt F)),
    nullary main_v7 (iotaInDim S1024x1024 32 0),
    nullary main_v8 (iotaInDim S1024x1024 32 1),
    nullary main_c_0 (constantI S_ 32 0#32),
    unary main_c_0 main_v9 (broadcastInDim S1024x1024 ![] bcast_S_S1024x1024 : (⟨S_, .i32⟩ : BufTy).Contents (Elt F) → (⟨S1024x1024, .i32⟩ : BufTy).Contents (Elt F)),
    binary main_v7 main_v9 main_v10 (addi : (⟨S1024x1024, .i32⟩ : BufTy).Contents (Elt F) → (⟨S1024x1024, .i32⟩ : BufTy).Contents (Elt F) → (⟨S1024x1024, .i32⟩ : BufTy).Contents (Elt F)),
    binary main_v10 main_v8 main_v11 (cmpi .eq : (⟨S1024x1024, .i32⟩ : BufTy).Contents (Elt F) → (⟨S1024x1024, .i32⟩ : BufTy).Contents (Elt F) → (⟨S1024x1024, .i1⟩ : BufTy).Contents (Elt F)),
    unary main_v6 main_v12 (broadcastInDim S64x1024x1 ![0, 1] bcast_S64x1024_S64x1024x1_0_1 : (⟨S64x1024, .i1⟩ : BufTy).Contents (Elt F) → (⟨S64x1024x1, .i1⟩ : BufTy).Contents (Elt F)),
    unary main_v11 main_v13 (broadcastInDim S1x1024x1024 ![1, 2] bcast_S1024x1024_S1x1024x1024_1_2 : (⟨S1024x1024, .i1⟩ : BufTy).Contents (Elt F) → (⟨S1x1024x1024, .i1⟩ : BufTy).Contents (Elt F)),
    unary main_v12 main_v14 (broadcastInDim S64x1024x1024 ![0, 1, 2] bcast_S64x1024x1_S64x1024x1024_0_1_2 : (⟨S64x1024x1, .i1⟩ : BufTy).Contents (Elt F) → (⟨S64x1024x1024, .i1⟩ : BufTy).Contents (Elt F)),
    unary main_v13 main_v15 (broadcastInDim S64x1024x1024 ![0, 1, 2] bcast_S1x1024x1024_S64x1024x1024_0_1_2 : (⟨S1x1024x1024, .i1⟩ : BufTy).Contents (Elt F) → (⟨S64x1024x1024, .i1⟩ : BufTy).Contents (Elt F)),
    binary main_v14 main_v15 main_v16 (andi : (⟨S64x1024x1024, .i1⟩ : BufTy).Contents (Elt F) → (⟨S64x1024x1024, .i1⟩ : BufTy).Contents (Elt F) → (⟨S64x1024x1024, .i1⟩ : BufTy).Contents (Elt F)) ]
/-- The references stretch 1's operations write. -/
abbrev st1_W : List (Ref sig .tc) := [main_c, main_v0, main_v1, main_v2, main_v3, main_call0_v0, main_v4, main_cst, main_v5, main_v6, main_v7, main_v8, main_c_0, main_v9, main_v10, main_v11, main_v12, main_v13, main_v14, main_v15, main_v16]
theorem st1_writes : (st1 : List (HloOp τ sig (Elt F))).Forall fun op => op.writes ⊆ (st1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 1 does not write keeps its contents across it. -/
theorem st1_keeps (V : Valuation τ sig (Elt F)) {r : Ref sig .tc} (h : r ∉ st1_W) :
    after st1 V (Proc.devRef .tc r) = V (Proc.devRef .tc r) := after_of_writes_sub st1 V st1_writes h

/-- Operations 21 to 26 of @main, in order. -/
abbrev st2 : List (HloOp τ sig (Elt F)) :=
  [ nullary main_cst_1 (constant S_ .f32 0x3F800000#32),
    unary main_cst_1 main_v17 (broadcastInDim S64x1024 ![] bcast_S_S64x1024 : (⟨S_, .f32⟩ : BufTy).Contents (Elt F) → (⟨S64x1024, .f32⟩ : BufTy).Contents (Elt F)),
    binary main_v5 main_v17 main_v18 (addf : (⟨S64x1024, .f32⟩ : BufTy).Contents (Elt F) → (⟨S64x1024, .f32⟩ : BufTy).Contents (Elt F) → (⟨S64x1024, .f32⟩ : BufTy).Contents (Elt F)),
    unary main_v18 main_v19 (broadcastInDim S64x1024x1 ![0, 1] bcast_S64x1024_S64x1024x1_0_1 : (⟨S64x1024, .f32⟩ : BufTy).Contents (Elt F) → (⟨S64x1024x1, .f32⟩ : BufTy).Contents (Elt F)),
    TRef.unary (TRef.of (T := ⟨S64x1024x1, .f32⟩) main_v19) (TRef.of (T := ⟨S64x1024x1024, .f32⟩) main_call1_v0) (broadcastInDim S64x1024x1024 ![0, 1, 2] bcast_S64x1024x1_S64x1024x1024_0_1_2),
    TRef.ternary (TRef.of (T := ⟨S64x1024x1024, .i1⟩) main_v16) (TRef.of (T := ⟨S64x1024x1024, .f32⟩) main_call1_v0) (TRef.of (T := ⟨S64x1024x1024, .f32⟩) main_arg0) (TRef.of (T := ⟨S64x1024x1024, .f32⟩) main_v20) select ]
/-- The references stretch 2's operations write. -/
abbrev st2_W : List (Ref sig .tc) := [main_cst_1, main_v17, main_v18, main_v19, main_call1_v0, main_v20]
theorem st2_writes : (st2 : List (HloOp τ sig (Elt F))).Forall fun op => op.writes ⊆ (st2_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 2 does not write keeps its contents across it. -/
theorem st2_keeps (V : Valuation τ sig (Elt F)) {r : Ref sig .tc} (h : r ∉ st2_W) :
    after st2 V (Proc.devRef .tc r) = V (Proc.devRef .tc r) := after_of_writes_sub st2 V st2_writes h

/-- Operations 27 to 41 of @main, in order. -/
abbrev st3 : List (HloOp τ sig (Elt F)) :=
  [ TRef.nullary (TRef.of (T := ⟨S_, .f32⟩) main_call2_cst) (constant S_ .f32 0xFF800000#32),
    TRef.binary (TRef.of (T := ⟨S64x1024x1024, .f32⟩) main_v20) (TRef.of (T := ⟨S_, .f32⟩) main_call2_cst) (TRef.of (T := ⟨S64x1024, .f32⟩) main_call2_v0) (fun x v => Host.reduce FloatOps.maximumf x v reducesTo_S64x1024x1024_S64x1024_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S64x1024, .f32⟩) main_call2_v1) (broadcastInDim S64x1024 ![] bcast_S_S64x1024),
    TRef.binary (TRef.of (T := ⟨S64x1024, .f32⟩) main_call2_v1) (TRef.of (T := ⟨S64x1024, .f32⟩) main_call2_v0) (TRef.of (T := ⟨S64x1024, .f32⟩) main_call2_v2) maximumf,
    TRef.unary (TRef.of (T := ⟨S64x1024, .f32⟩) main_call2_v2) (TRef.of (T := ⟨S64x1024x1, .f32⟩) main_call2_v3) (broadcastInDim S64x1024x1 ![0, 1] bcast_S64x1024_S64x1024x1_0_1),
    TRef.unary (TRef.of (T := ⟨S64x1024x1, .f32⟩) main_call2_v3) (TRef.of (T := ⟨S64x1024x1024, .f32⟩) main_call2_v4) (broadcastInDim S64x1024x1024 ![0, 1, 2] bcast_S64x1024x1_S64x1024x1024_0_1_2),
    TRef.binary (TRef.of (T := ⟨S64x1024x1024, .f32⟩) main_v20) (TRef.of (T := ⟨S64x1024x1024, .f32⟩) main_call2_v4) (TRef.of (T := ⟨S64x1024x1024, .f32⟩) main_call2_v5) subf,
    TRef.unary (TRef.of (T := ⟨S64x1024x1024, .f32⟩) main_call2_v5) (TRef.of (T := ⟨S64x1024x1024, .f32⟩) main_call2_v6) Host.exp,
    TRef.nullary (TRef.of (T := ⟨S_, .f32⟩) main_call2_cst_1) (constant S_ .f32 0x00000000#32),
    TRef.binary (TRef.of (T := ⟨S64x1024x1024, .f32⟩) main_call2_v6) (TRef.of (T := ⟨S_, .f32⟩) main_call2_cst_1) (TRef.of (T := ⟨S64x1024, .f32⟩) main_call2_v7) (fun x v => Host.reduceAdd x v reducesTo_S64x1024x1024_S64x1024_d2 h_S_),
    TRef.unary (TRef.of (T := ⟨S64x1024, .f32⟩) main_call2_v7) (TRef.of (T := ⟨S64x1024x1, .f32⟩) main_call2_v8) (broadcastInDim S64x1024x1 ![0, 1] bcast_S64x1024_S64x1024x1_0_1),
    TRef.unary (TRef.of (T := ⟨S64x1024x1, .f32⟩) main_call2_v8) (TRef.of (T := ⟨S64x1024x1, .f32⟩) main_call2_v9) Host.log,
    TRef.unary (TRef.of (T := ⟨S64x1024x1, .f32⟩) main_call2_v9) (TRef.of (T := ⟨S64x1024x1024, .f32⟩) main_call2_v10) (broadcastInDim S64x1024x1024 ![0, 1, 2] bcast_S64x1024x1_S64x1024x1024_0_1_2),
    TRef.binary (TRef.of (T := ⟨S64x1024x1024, .f32⟩) main_call2_v5) (TRef.of (T := ⟨S64x1024x1024, .f32⟩) main_call2_v10) (TRef.of (T := ⟨S64x1024x1024, .f32⟩) main_v21) subf ]
/-- The references stretch 3's operations write. -/
abbrev st3_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v21]
theorem st3_writes : (st3 : List (HloOp τ sig (Elt F))).Forall fun op => op.writes ⊆ (st3_W.map (Proc.devRef (τ := τ) .tc)).toFinset := by
  simp only [List.Forall]
  refine ⟨?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 3 does not write keeps its contents across it. -/
theorem st3_keeps (V : Valuation τ sig (Elt F)) {r : Ref sig .tc} (h : r ∉ st3_W) :
    after st3 V (Proc.devRef .tc r) = V (Proc.devRef .tc r) := after_of_writes_sub st3 V st3_writes h

/-- Operations 42 to 50 of @main, in order. -/
abbrev st4 : List (HloOp τ sig (Elt F)) :=
  [ nullary main_c_2 (constantI S_ 32 0#32),
    nullary main_c_3 (constantI S_ 32 1023#32),
    TRef.unary (TRef.of (T := ⟨S_, .i32⟩) main_c_2) (TRef.of (T := ⟨S_, .i32⟩) main_call3_v0) id,
    TRef.unary (TRef.of (T := ⟨S_, .i32⟩) main_call3_v0) (TRef.of (T := ⟨S64x1024, .i32⟩) main_call3_v1) (broadcastInDim S64x1024 ![] bcast_S_S64x1024),
    TRef.binary (TRef.of (T := ⟨S64x1024, .i32⟩) main_call3_v1) (TRef.of (T := ⟨S64x1024, .i32⟩) main_v4) (TRef.of (T := ⟨S64x1024, .i32⟩) main_call3_v2) maxsi,
    TRef.unary (TRef.of (T := ⟨S_, .i32⟩) main_c_3) (TRef.of (T := ⟨S_, .i32⟩) main_call3_v3) id,
    TRef.unary (TRef.of (T := ⟨S_, .i32⟩) main_call3_v3) (TRef.of (T := ⟨S64x1024, .i32⟩) main_call3_v4) (broadcastInDim S64x1024 ![] bcast_S_S64x1024),
    TRef.binary (TRef.of (T := ⟨S64x1024, .i32⟩) main_call3_v4) (TRef.of (T := ⟨S64x1024, .i32⟩) main_call3_v2) (TRef.of (T := ⟨S64x1024, .i32⟩) main_v22) minsi,
    unary main_v22 main_v23 (broadcastInDim S64x1024x1 ![0, 1] bcast_S64x1024_S64x1024x1_0_1 : (⟨S64x1024, .i32⟩ : BufTy).Contents (Elt F) → (⟨S64x1024x1, .i32⟩ : BufTy).Contents (Elt F)) ]
/-- The references stretch 4's operations write. -/
abbrev st4_W : List (Ref sig .tc) := [main_c_2, main_c_3, main_call3_v0, main_call3_v1, main_call3_v2, main_call3_v3, main_call3_v4, main_v22, main_v23]
theorem st4_writes : (st4 : List (HloOp τ sig (Elt F))).Forall fun op => op.writes ⊆ (st4_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 4 does not write keeps its contents across it. -/
theorem st4_keeps (V : Valuation τ sig (Elt F)) {r : Ref sig .tc} (h : r ∉ st4_W) :
    after st4 V (Proc.devRef .tc r) = V (Proc.devRef .tc r) := after_of_writes_sub st4 V st4_writes h

/-- Operations 51 to 72 of @main, in order. -/
abbrev st5 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S64x1024x1, .i32⟩) main_call4_v0) (broadcastInDim S64x1024x1 ![] bcast_S_S64x1024x1),
    TRef.binary (TRef.of (T := ⟨S64x1024x1, .i32⟩) main_v23) (TRef.of (T := ⟨S64x1024x1, .i32⟩) main_call4_v0) (TRef.of (T := ⟨S64x1024x1, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S64x1024x1, .i32⟩) main_call4_v2) (broadcastInDim S64x1024x1 ![] bcast_S_S64x1024x1),
    TRef.binary (TRef.of (T := ⟨S64x1024x1, .i32⟩) main_v23) (TRef.of (T := ⟨S64x1024x1, .i32⟩) main_call4_v2) (TRef.of (T := ⟨S64x1024x1, .i32⟩) main_call4_v3) addi,
    TRef.ternary (TRef.of (T := ⟨S64x1024x1, .i1⟩) main_call4_v1) (TRef.of (T := ⟨S64x1024x1, .i32⟩) main_call4_v3) (TRef.of (T := ⟨S64x1024x1, .i32⟩) main_v23) (TRef.of (T := ⟨S64x1024x1, .i32⟩) main_call4_v4) select,
    TRef.reshape (TRef.of (T := ⟨S64x1024x1, .i32⟩) main_call4_v4) (TRef.of (T := ⟨S64x1024x1x1, .i32⟩) main_call4_v5) rfl shapeCasts_S64x1024x1_S64x1024x1x1,
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S64x1024x1x1, .i32⟩) main_call4_v6) (broadcastInDim S64x1024x1x1 ![] bcast_S_S64x1024x1x1),
    TRef.binary (TRef.of (T := ⟨S64x1024x1x1, .i32⟩) main_call4_v5) (TRef.of (T := ⟨S64x1024x1x1, .i32⟩) main_call4_v6) (TRef.of (T := ⟨S64x1024x1x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S64x1024x1x1, .i32⟩) main_call4_v9) (broadcastInDim S64x1024x1x1 ![0, 1, 2, 3] bcast_S1x1x1x1_S64x1024x1x1_0_1_2_3),
    TRef.binary (TRef.of (T := ⟨S64x1024x1x1, .i32⟩) main_call4_v5) (TRef.of (T := ⟨S64x1024x1x1, .i32⟩) main_call4_v9) (TRef.of (T := ⟨S64x1024x1x1, .i1⟩) main_call4_v10) (cmpi .sle),
    TRef.binary (TRef.of (T := ⟨S64x1024x1x1, .i1⟩) main_call4_v7) (TRef.of (T := ⟨S64x1024x1x1, .i1⟩) main_call4_v10) (TRef.of (T := ⟨S64x1024x1x1, .i1⟩) main_call4_v11) andi,
    TRef.nullary (TRef.of (T := ⟨S_, .i1⟩) main_call4_c_3) (constantI S_ 1 1#1),
    TRef.binary (TRef.of (T := ⟨S64x1024x1x1, .i1⟩) main_call4_v11) (TRef.of (T := ⟨S_, .i1⟩) main_call4_c_3) (TRef.of (T := ⟨S64x1024x1, .i1⟩) main_call4_v12) (fun x v => Host.reduce IntOp.andi x v reducesTo_S64x1024x1x1_S64x1024x1_d3 h_S_),
    TRef.binary (TRef.of (T := ⟨S64x1024x1024, .f32⟩) main_v21) (TRef.of (T := ⟨S64x1024x1x1, .i32⟩) main_call4_v5) (TRef.of (T := ⟨S64x1024x1, .f32⟩) main_call4_v13) (fun x i => Host.gather gather_S64x1024x1024_S64x1024x1x1_S64x1024x1_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S64x1024x1, .f32⟩) main_call4_v14) (broadcastInDim S64x1024x1 ![] bcast_S_S64x1024x1),
    TRef.ternary (TRef.of (T := ⟨S64x1024x1, .i1⟩) main_call4_v12) (TRef.of (T := ⟨S64x1024x1, .f32⟩) main_call4_v13) (TRef.of (T := ⟨S64x1024x1, .f32⟩) main_call4_v14) (TRef.of (T := ⟨S64x1024x1, .f32⟩) main_v24) select ]
/-- The references stretch 5's operations write. -/
abbrev st5_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v24]
theorem st5_writes : (st5 : List (HloOp τ sig (Elt F))).Forall fun op => op.writes ⊆ (st5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 5 does not write keeps its contents across it. -/
theorem st5_keeps (V : Valuation τ sig (Elt F)) {r : Ref sig .tc} (h : r ∉ st5_W) :
    after st5 V (Proc.devRef .tc r) = V (Proc.devRef .tc r) := after_of_writes_sub st5 V st5_writes h

/-- Operations 73 to 83 of @main, in order. -/
abbrev st6 : List (HloOp τ sig (Elt F)) :=
  [ reshape main_v24 main_v25 rfl shapeCasts_S64x1024x1_S64x1024,
    unary main_v25 main_v26 (Host.negf : (⟨S64x1024, .f32⟩ : BufTy).Contents (Elt F) → (⟨S64x1024, .f32⟩ : BufTy).Contents (Elt F)),
    unary main_arg4 main_v27 (uitofp .f32 : (⟨S64x1024, .i1⟩ : BufTy).Contents (Elt F) → (⟨S64x1024, .f32⟩ : BufTy).Contents (Elt F)),
    nullary main_cst_4 (constant S_ .f32 0x00000000#32),
    binary main_v27 main_cst_4 main_v28 ((fun x v => Host.reduceAdd x v reducesTo_S64x1024_S_d0_1 h_S_) : (⟨S64x1024, .f32⟩ : BufTy).Contents (Elt F) → (⟨S_, .f32⟩ : BufTy).Contents (Elt F) → (⟨S_, .f32⟩ : BufTy).Contents (Elt F)),
    nullary main_cst_5 (constant S_ .f32 0x3F800000#32),
    binary main_v28 main_cst_5 main_v29 (maximumf : (⟨S_, .f32⟩ : BufTy).Contents (Elt F) → (⟨S_, .f32⟩ : BufTy).Contents (Elt F) → (⟨S_, .f32⟩ : BufTy).Contents (Elt F)),
    binary main_v26 main_v27 main_v30 (mulf : (⟨S64x1024, .f32⟩ : BufTy).Contents (Elt F) → (⟨S64x1024, .f32⟩ : BufTy).Contents (Elt F) → (⟨S64x1024, .f32⟩ : BufTy).Contents (Elt F)),
    nullary main_cst_6 (constant S_ .f32 0x00000000#32),
    binary main_v30 main_cst_6 main_v31 ((fun x v => Host.reduceAdd x v reducesTo_S64x1024_S_d0_1 h_S_) : (⟨S64x1024, .f32⟩ : BufTy).Contents (Elt F) → (⟨S_, .f32⟩ : BufTy).Contents (Elt F) → (⟨S_, .f32⟩ : BufTy).Contents (Elt F)),
    binary main_v31 main_v29 main_v32 (Host.divf : (⟨S_, .f32⟩ : BufTy).Contents (Elt F) → (⟨S_, .f32⟩ : BufTy).Contents (Elt F) → (⟨S_, .f32⟩ : BufTy).Contents (Elt F)) ]
/-- The references stretch 6's operations write. -/
abbrev st6_W : List (Ref sig .tc) := [main_v25, main_v26, main_v27, main_cst_4, main_v28, main_cst_5, main_v29, main_v30, main_cst_6, main_v31, main_v32]
theorem st6_writes : (st6 : List (HloOp τ sig (Elt F))).Forall fun op => op.writes ⊆ (st6_W.map (Proc.devRef (τ := τ) .tc)).toFinset := by
  simp only [List.Forall]
  refine ⟨?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 6 does not write keeps its contents across it. -/
theorem st6_keeps (V : Valuation τ sig (Elt F)) {r : Ref sig .tc} (h : r ∉ st6_W) :
    after st6 V (Proc.devRef .tc r) = V (Proc.devRef .tc r) := after_of_writes_sub st6 V st6_writes h

/-- Operations 84 to 104 of @main, in order. -/
abbrev st7 : List (HloOp τ sig (Elt F)) :=
  [ nullary main_c_7 (constantI S_ 32 4294967295#32),
    unary main_c_7 main_v33 (broadcastInDim S64x1024 ![] bcast_S_S64x1024 : (⟨S_, .i32⟩ : BufTy).Contents (Elt F) → (⟨S64x1024, .i32⟩ : BufTy).Contents (Elt F)),
    binary main_arg3 main_v33 main_v34 (cmpi .eq : (⟨S64x1024, .i32⟩ : BufTy).Contents (Elt F) → (⟨S64x1024, .i32⟩ : BufTy).Contents (Elt F) → (⟨S64x1024, .i1⟩ : BufTy).Contents (Elt F)),
    nullary main_v35 (iotaInDim S1024 32 0),
    unary main_v35 main_v36 (broadcastInDim S1x1024 ![1] bcast_S1024_S1x1024_1 : (⟨S1024, .i32⟩ : BufTy).Contents (Elt F) → (⟨S1x1024, .i32⟩ : BufTy).Contents (Elt F)),
    TRef.unary (TRef.of (T := ⟨S1x1024, .i32⟩) main_v36) (TRef.of (T := ⟨S64x1024, .i32⟩) main_call5_v0) (broadcastInDim S64x1024 ![0, 1] bcast_S1x1024_S64x1024_0_1),
    TRef.ternary (TRef.of (T := ⟨S64x1024, .i1⟩) main_v34) (TRef.of (T := ⟨S64x1024, .i32⟩) main_call5_v0) (TRef.of (T := ⟨S64x1024, .i32⟩) main_arg3) (TRef.of (T := ⟨S64x1024, .i32⟩) main_v37) select,
    nullary main_cst_8 (constant S_ .f32 0xFF800000#32),
    binary main_arg2 main_cst_8 main_v38 ((fun x v => Host.reduce FloatOps.maximumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    binary main_v34 main_arg4 main_v39 (andi : (⟨S64x1024, .i1⟩ : BufTy).Contents (Elt F) → (⟨S64x1024, .i1⟩ : BufTy).Contents (Elt F) → (⟨S64x1024, .i1⟩ : BufTy).Contents (Elt F)),
    nullary main_v40 (iotaInDim S1024x1024 32 0),
    nullary main_v41 (iotaInDim S1024x1024 32 1),
    nullary main_c_9 (constantI S_ 32 0#32),
    unary main_c_9 main_v42 (broadcastInDim S1024x1024 ![] bcast_S_S1024x1024 : (⟨S_, .i32⟩ : BufTy).Contents (Elt F) → (⟨S1024x1024, .i32⟩ : BufTy).Contents (Elt F)),
    binary main_v40 main_v42 main_v43 (addi : (⟨S1024x1024, .i32⟩ : BufTy).Contents (Elt F) → (⟨S1024x1024, .i32⟩ : BufTy).Contents (Elt F) → (⟨S1024x1024, .i32⟩ : BufTy).Contents (Elt F)),
    binary main_v43 main_v41 main_v44 (cmpi .eq : (⟨S1024x1024, .i32⟩ : BufTy).Contents (Elt F) → (⟨S1024x1024, .i32⟩ : BufTy).Contents (Elt F) → (⟨S1024x1024, .i1⟩ : BufTy).Contents (Elt F)),
    unary main_v39 main_v45 (broadcastInDim S64x1024x1 ![0, 1] bcast_S64x1024_S64x1024x1_0_1 : (⟨S64x1024, .i1⟩ : BufTy).Contents (Elt F) → (⟨S64x1024x1, .i1⟩ : BufTy).Contents (Elt F)),
    unary main_v44 main_v46 (broadcastInDim S1x1024x1024 ![1, 2] bcast_S1024x1024_S1x1024x1024_1_2 : (⟨S1024x1024, .i1⟩ : BufTy).Contents (Elt F) → (⟨S1x1024x1024, .i1⟩ : BufTy).Contents (Elt F)),
    unary main_v45 main_v47 (broadcastInDim S64x1024x1024 ![0, 1, 2] bcast_S64x1024x1_S64x1024x1024_0_1_2 : (⟨S64x1024x1, .i1⟩ : BufTy).Contents (Elt F) → (⟨S64x1024x1024, .i1⟩ : BufTy).Contents (Elt F)),
    unary main_v46 main_v48 (broadcastInDim S64x1024x1024 ![0, 1, 2] bcast_S1x1024x1024_S64x1024x1024_0_1_2 : (⟨S1x1024x1024, .i1⟩ : BufTy).Contents (Elt F) → (⟨S64x1024x1024, .i1⟩ : BufTy).Contents (Elt F)),
    binary main_v47 main_v48 main_v49 (andi : (⟨S64x1024x1024, .i1⟩ : BufTy).Contents (Elt F) → (⟨S64x1024x1024, .i1⟩ : BufTy).Contents (Elt F) → (⟨S64x1024x1024, .i1⟩ : BufTy).Contents (Elt F)) ]
/-- The references stretch 7's operations write. -/
abbrev st7_W : List (Ref sig .tc) := [main_c_7, main_v33, main_v34, main_v35, main_v36, main_call5_v0, main_v37, main_cst_8, main_v38, main_v39, main_v40, main_v41, main_c_9, main_v42, main_v43, main_v44, main_v45, main_v46, main_v47, main_v48, main_v49]
theorem st7_writes : (st7 : List (HloOp τ sig (Elt F))).Forall fun op => op.writes ⊆ (st7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 7 does not write keeps its contents across it. -/
theorem st7_keeps (V : Valuation τ sig (Elt F)) {r : Ref sig .tc} (h : r ∉ st7_W) :
    after st7 V (Proc.devRef .tc r) = V (Proc.devRef .tc r) := after_of_writes_sub st7 V st7_writes h

/-- Operations 105 to 110 of @main, in order. -/
abbrev st8 : List (HloOp τ sig (Elt F)) :=
  [ nullary main_cst_10 (constant S_ .f32 0x3F800000#32),
    unary main_cst_10 main_v50 (broadcastInDim S64x1024 ![] bcast_S_S64x1024 : (⟨S_, .f32⟩ : BufTy).Contents (Elt F) → (⟨S64x1024, .f32⟩ : BufTy).Contents (Elt F)),
    binary main_v38 main_v50 main_v51 (addf : (⟨S64x1024, .f32⟩ : BufTy).Contents (Elt F) → (⟨S64x1024, .f32⟩ : BufTy).Contents (Elt F) → (⟨S64x1024, .f32⟩ : BufTy).Contents (Elt F)),
    unary main_v51 main_v52 (broadcastInDim S64x1024x1 ![0, 1] bcast_S64x1024_S64x1024x1_0_1 : (⟨S64x1024, .f32⟩ : BufTy).Contents (Elt F) → (⟨S64x1024x1, .f32⟩ : BufTy).Contents (Elt F)),
    TRef.unary (TRef.of (T := ⟨S64x1024x1, .f32⟩) main_v52) (TRef.of (T := ⟨S64x1024x1024, .f32⟩) main_call6_v0) (broadcastInDim S64x1024x1024 ![0, 1, 2] bcast_S64x1024x1_S64x1024x1024_0_1_2),
    TRef.ternary (TRef.of (T := ⟨S64x1024x1024, .i1⟩) main_v49) (TRef.of (T := ⟨S64x1024x1024, .f32⟩) main_call6_v0) (TRef.of (T := ⟨S64x1024x1024, .f32⟩) main_arg2) (TRef.of (T := ⟨S64x1024x1024, .f32⟩) main_v53) select ]
/-- The references stretch 8's operations write. -/
abbrev st8_W : List (Ref sig .tc) := [main_cst_10, main_v50, main_v51, main_v52, main_call6_v0, main_v53]
theorem st8_writes : (st8 : List (HloOp τ sig (Elt F))).Forall fun op => op.writes ⊆ (st8_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 8 does not write keeps its contents across it. -/
theorem st8_keeps (V : Valuation τ sig (Elt F)) {r : Ref sig .tc} (h : r ∉ st8_W) :
    after st8 V (Proc.devRef .tc r) = V (Proc.devRef .tc r) := after_of_writes_sub st8 V st8_writes h

/-- Operations 111 to 125 of @main, in order. -/
abbrev st9 : List (HloOp τ sig (Elt F)) :=
  [ TRef.nullary (TRef.of (T := ⟨S_, .f32⟩) main_call7_cst) (constant S_ .f32 0xFF800000#32),
    TRef.binary (TRef.of (T := ⟨S64x1024x1024, .f32⟩) main_v53) (TRef.of (T := ⟨S_, .f32⟩) main_call7_cst) (TRef.of (T := ⟨S64x1024, .f32⟩) main_call7_v0) (fun x v => Host.reduce FloatOps.maximumf x v reducesTo_S64x1024x1024_S64x1024_d2 h_S_),
    TRef.nullary (TRef.of (T := ⟨S_, .f32⟩) main_call7_cst_0) (constant S_ .f32 0xFF800000#32),
    TRef.unary (TRef.of (T := ⟨S_, .f32⟩) main_call7_cst_0) (TRef.of (T := ⟨S64x1024, .f32⟩) main_call7_v1) (broadcastInDim S64x1024 ![] bcast_S_S64x1024),
    TRef.binary (TRef.of (T := ⟨S64x1024, .f32⟩) main_call7_v1) (TRef.of (T := ⟨S64x1024, .f32⟩) main_call7_v0) (TRef.of (T := ⟨S64x1024, .f32⟩) main_call7_v2) maximumf,
    TRef.unary (TRef.of (T := ⟨S64x1024, .f32⟩) main_call7_v2) (TRef.of (T := ⟨S64x1024x1, .f32⟩) main_call7_v3) (broadcastInDim S64x1024x1 ![0, 1] bcast_S64x1024_S64x1024x1_0_1),
    TRef.unary (TRef.of (T := ⟨S64x1024x1, .f32⟩) main_call7_v3) (TRef.of (T := ⟨S64x1024x1024, .f32⟩) main_call7_v4) (broadcastInDim S64x1024x1024 ![0, 1, 2] bcast_S64x1024x1_S64x1024x1024_0_1_2),
    TRef.binary (TRef.of (T := ⟨S64x1024x1024, .f32⟩) main_v53) (TRef.of (T := ⟨S64x1024x1024, .f32⟩) main_call7_v4) (TRef.of (T := ⟨S64x1024x1024, .f32⟩) main_call7_v5) subf,
    TRef.unary (TRef.of (T := ⟨S64x1024x1024, .f32⟩) main_call7_v5) (TRef.of (T := ⟨S64x1024x1024, .f32⟩) main_call7_v6) Host.exp,
    TRef.nullary (TRef.of (T := ⟨S_, .f32⟩) main_call7_cst_1) (constant S_ .f32 0x00000000#32),
    TRef.binary (TRef.of (T := ⟨S64x1024x1024, .f32⟩) main_call7_v6) (TRef.of (T := ⟨S_, .f32⟩) main_call7_cst_1) (TRef.of (T := ⟨S64x1024, .f32⟩) main_call7_v7) (fun x v => Host.reduceAdd x v reducesTo_S64x1024x1024_S64x1024_d2 h_S_),
    TRef.unary (TRef.of (T := ⟨S64x1024, .f32⟩) main_call7_v7) (TRef.of (T := ⟨S64x1024x1, .f32⟩) main_call7_v8) (broadcastInDim S64x1024x1 ![0, 1] bcast_S64x1024_S64x1024x1_0_1),
    TRef.unary (TRef.of (T := ⟨S64x1024x1, .f32⟩) main_call7_v8) (TRef.of (T := ⟨S64x1024x1, .f32⟩) main_call7_v9) Host.log,
    TRef.unary (TRef.of (T := ⟨S64x1024x1, .f32⟩) main_call7_v9) (TRef.of (T := ⟨S64x1024x1024, .f32⟩) main_call7_v10) (broadcastInDim S64x1024x1024 ![0, 1, 2] bcast_S64x1024x1_S64x1024x1024_0_1_2),
    TRef.binary (TRef.of (T := ⟨S64x1024x1024, .f32⟩) main_call7_v5) (TRef.of (T := ⟨S64x1024x1024, .f32⟩) main_call7_v10) (TRef.of (T := ⟨S64x1024x1024, .f32⟩) main_v54) subf ]
/-- The references stretch 9's operations write. -/
abbrev st9_W : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v54]
theorem st9_writes : (st9 : List (HloOp τ sig (Elt F))).Forall fun op => op.writes ⊆ (st9_W.map (Proc.devRef (τ := τ) .tc)).toFinset := by
  simp only [List.Forall]
  refine ⟨?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 9 does not write keeps its contents across it. -/
theorem st9_keeps (V : Valuation τ sig (Elt F)) {r : Ref sig .tc} (h : r ∉ st9_W) :
    after st9 V (Proc.devRef .tc r) = V (Proc.devRef .tc r) := after_of_writes_sub st9 V st9_writes h

/-- Operations 126 to 134 of @main, in order. -/
abbrev st10 : List (HloOp τ sig (Elt F)) :=
  [ nullary main_c_11 (constantI S_ 32 0#32),
    nullary main_c_12 (constantI S_ 32 1023#32),
    TRef.unary (TRef.of (T := ⟨S_, .i32⟩) main_c_11) (TRef.of (T := ⟨S_, .i32⟩) main_call8_v0) id,
    TRef.unary (TRef.of (T := ⟨S_, .i32⟩) main_call8_v0) (TRef.of (T := ⟨S64x1024, .i32⟩) main_call8_v1) (broadcastInDim S64x1024 ![] bcast_S_S64x1024),
    TRef.binary (TRef.of (T := ⟨S64x1024, .i32⟩) main_call8_v1) (TRef.of (T := ⟨S64x1024, .i32⟩) main_v37) (TRef.of (T := ⟨S64x1024, .i32⟩) main_call8_v2) maxsi,
    TRef.unary (TRef.of (T := ⟨S_, .i32⟩) main_c_12) (TRef.of (T := ⟨S_, .i32⟩) main_call8_v3) id,
    TRef.unary (TRef.of (T := ⟨S_, .i32⟩) main_call8_v3) (TRef.of (T := ⟨S64x1024, .i32⟩) main_call8_v4) (broadcastInDim S64x1024 ![] bcast_S_S64x1024),
    TRef.binary (TRef.of (T := ⟨S64x1024, .i32⟩) main_call8_v4) (TRef.of (T := ⟨S64x1024, .i32⟩) main_call8_v2) (TRef.of (T := ⟨S64x1024, .i32⟩) main_v55) minsi,
    unary main_v55 main_v56 (broadcastInDim S64x1024x1 ![0, 1] bcast_S64x1024_S64x1024x1_0_1 : (⟨S64x1024, .i32⟩ : BufTy).Contents (Elt F) → (⟨S64x1024x1, .i32⟩ : BufTy).Contents (Elt F)) ]
/-- The references stretch 10's operations write. -/
abbrev st10_W : List (Ref sig .tc) := [main_c_11, main_c_12, main_call8_v0, main_call8_v1, main_call8_v2, main_call8_v3, main_call8_v4, main_v55, main_v56]
theorem st10_writes : (st10 : List (HloOp τ sig (Elt F))).Forall fun op => op.writes ⊆ (st10_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 10 does not write keeps its contents across it. -/
theorem st10_keeps (V : Valuation τ sig (Elt F)) {r : Ref sig .tc} (h : r ∉ st10_W) :
    after st10 V (Proc.devRef .tc r) = V (Proc.devRef .tc r) := after_of_writes_sub st10 V st10_writes h

/-- Operations 135 to 156 of @main, in order. -/
abbrev st11 : List (HloOp τ sig (Elt F)) :=
  [ TRef.nullary (TRef.of (T := ⟨S_, .i32⟩) main_call9_c) (constantI S_ 32 0#32),
    TRef.unary (TRef.of (T := ⟨S_, .i32⟩) main_call9_c) (TRef.of (T := ⟨S64x1024x1, .i32⟩) main_call9_v0) (broadcastInDim S64x1024x1 ![] bcast_S_S64x1024x1),
    TRef.binary (TRef.of (T := ⟨S64x1024x1, .i32⟩) main_v56) (TRef.of (T := ⟨S64x1024x1, .i32⟩) main_call9_v0) (TRef.of (T := ⟨S64x1024x1, .i1⟩) main_call9_v1) (cmpi .slt),
    TRef.nullary (TRef.of (T := ⟨S_, .i32⟩) main_call9_c_0) (constantI S_ 32 1024#32),
    TRef.unary (TRef.of (T := ⟨S_, .i32⟩) main_call9_c_0) (TRef.of (T := ⟨S64x1024x1, .i32⟩) main_call9_v2) (broadcastInDim S64x1024x1 ![] bcast_S_S64x1024x1),
    TRef.binary (TRef.of (T := ⟨S64x1024x1, .i32⟩) main_v56) (TRef.of (T := ⟨S64x1024x1, .i32⟩) main_call9_v2) (TRef.of (T := ⟨S64x1024x1, .i32⟩) main_call9_v3) addi,
    TRef.ternary (TRef.of (T := ⟨S64x1024x1, .i1⟩) main_call9_v1) (TRef.of (T := ⟨S64x1024x1, .i32⟩) main_call9_v3) (TRef.of (T := ⟨S64x1024x1, .i32⟩) main_v56) (TRef.of (T := ⟨S64x1024x1, .i32⟩) main_call9_v4) select,
    TRef.reshape (TRef.of (T := ⟨S64x1024x1, .i32⟩) main_call9_v4) (TRef.of (T := ⟨S64x1024x1x1, .i32⟩) main_call9_v5) rfl shapeCasts_S64x1024x1_S64x1024x1x1,
    TRef.nullary (TRef.of (T := ⟨S1, .i32⟩) main_call9_c_1) (constantI S1 32 1023#32),
    TRef.nullary (TRef.of (T := ⟨S_, .i32⟩) main_call9_c_2) (constantI S_ 32 0#32),
    TRef.unary (TRef.of (T := ⟨S_, .i32⟩) main_call9_c_2) (TRef.of (T := ⟨S64x1024x1x1, .i32⟩) main_call9_v6) (broadcastInDim S64x1024x1x1 ![] bcast_S_S64x1024x1x1),
    TRef.binary (TRef.of (T := ⟨S64x1024x1x1, .i32⟩) main_call9_v5) (TRef.of (T := ⟨S64x1024x1x1, .i32⟩) main_call9_v6) (TRef.of (T := ⟨S64x1024x1x1, .i1⟩) main_call9_v7) (cmpi .sge),
    TRef.unary (TRef.of (T := ⟨S1, .i32⟩) main_call9_c_1) (TRef.of (T := ⟨S1x1x1x1, .i32⟩) main_call9_v8) (broadcastInDim S1x1x1x1 ![3] bcast_S1_S1x1x1x1_3),
    TRef.unary (TRef.of (T := ⟨S1x1x1x1, .i32⟩) main_call9_v8) (TRef.of (T := ⟨S64x1024x1x1, .i32⟩) main_call9_v9) (broadcastInDim S64x1024x1x1 ![0, 1, 2, 3] bcast_S1x1x1x1_S64x1024x1x1_0_1_2_3),
    TRef.binary (TRef.of (T := ⟨S64x1024x1x1, .i32⟩) main_call9_v5) (TRef.of (T := ⟨S64x1024x1x1, .i32⟩) main_call9_v9) (TRef.of (T := ⟨S64x1024x1x1, .i1⟩) main_call9_v10) (cmpi .sle),
    TRef.binary (TRef.of (T := ⟨S64x1024x1x1, .i1⟩) main_call9_v7) (TRef.of (T := ⟨S64x1024x1x1, .i1⟩) main_call9_v10) (TRef.of (T := ⟨S64x1024x1x1, .i1⟩) main_call9_v11) andi,
    TRef.nullary (TRef.of (T := ⟨S_, .i1⟩) main_call9_c_3) (constantI S_ 1 1#1),
    TRef.binary (TRef.of (T := ⟨S64x1024x1x1, .i1⟩) main_call9_v11) (TRef.of (T := ⟨S_, .i1⟩) main_call9_c_3) (TRef.of (T := ⟨S64x1024x1, .i1⟩) main_call9_v12) (fun x v => Host.reduce IntOp.andi x v reducesTo_S64x1024x1x1_S64x1024x1_d3 h_S_),
    TRef.binary (TRef.of (T := ⟨S64x1024x1024, .f32⟩) main_v54) (TRef.of (T := ⟨S64x1024x1x1, .i32⟩) main_call9_v5) (TRef.of (T := ⟨S64x1024x1, .f32⟩) main_call9_v13) (fun x i => Host.gather gather_S64x1024x1024_S64x1024x1x1_S64x1024x1_n_2_01_01_2_3_111 x i),
    TRef.nullary (TRef.of (T := ⟨S_, .f32⟩) main_call9_cst) (constant S_ .f32 0x7FC00000#32),
    TRef.unary (TRef.of (T := ⟨S_, .f32⟩) main_call9_cst) (TRef.of (T := ⟨S64x1024x1, .f32⟩) main_call9_v14) (broadcastInDim S64x1024x1 ![] bcast_S_S64x1024x1),
    TRef.ternary (TRef.of (T := ⟨S64x1024x1, .i1⟩) main_call9_v12) (TRef.of (T := ⟨S64x1024x1, .f32⟩) main_call9_v13) (TRef.of (T := ⟨S64x1024x1, .f32⟩) main_call9_v14) (TRef.of (T := ⟨S64x1024x1, .f32⟩) main_v57) select ]
/-- The references stretch 11's operations write. -/
abbrev st11_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v57]
theorem st11_writes : (st11 : List (HloOp τ sig (Elt F))).Forall fun op => op.writes ⊆ (st11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 11 does not write keeps its contents across it. -/
theorem st11_keeps (V : Valuation τ sig (Elt F)) {r : Ref sig .tc} (h : r ∉ st11_W) :
    after st11 V (Proc.devRef .tc r) = V (Proc.devRef .tc r) := after_of_writes_sub st11 V st11_writes h

/-- Operations 157 to 167 of @main, in order. -/
abbrev st12 : List (HloOp τ sig (Elt F)) :=
  [ reshape main_v57 main_v58 rfl shapeCasts_S64x1024x1_S64x1024,
    unary main_v58 main_v59 (Host.negf : (⟨S64x1024, .f32⟩ : BufTy).Contents (Elt F) → (⟨S64x1024, .f32⟩ : BufTy).Contents (Elt F)),
    unary main_arg4 main_v60 (uitofp .f32 : (⟨S64x1024, .i1⟩ : BufTy).Contents (Elt F) → (⟨S64x1024, .f32⟩ : BufTy).Contents (Elt F)),
    nullary main_cst_13 (constant S_ .f32 0x00000000#32),
    binary main_v60 main_cst_13 main_v61 ((fun x v => Host.reduceAdd x v reducesTo_S64x1024_S_d0_1 h_S_) : (⟨S64x1024, .f32⟩ : BufTy).Contents (Elt F) → (⟨S_, .f32⟩ : BufTy).Contents (Elt F) → (⟨S_, .f32⟩ : BufTy).Contents (Elt F)),
    nullary main_cst_14 (constant S_ .f32 0x3F800000#32),
    binary main_v61 main_cst_14 main_v62 (maximumf : (⟨S_, .f32⟩ : BufTy).Contents (Elt F) → (⟨S_, .f32⟩ : BufTy).Contents (Elt F) → (⟨S_, .f32⟩ : BufTy).Contents (Elt F)),
    binary main_v59 main_v60 main_v63 (mulf : (⟨S64x1024, .f32⟩ : BufTy).Contents (Elt F) → (⟨S64x1024, .f32⟩ : BufTy).Contents (Elt F) → (⟨S64x1024, .f32⟩ : BufTy).Contents (Elt F)),
    nullary main_cst_15 (constant S_ .f32 0x00000000#32),
    binary main_v63 main_cst_15 main_v64 ((fun x v => Host.reduceAdd x v reducesTo_S64x1024_S_d0_1 h_S_) : (⟨S64x1024, .f32⟩ : BufTy).Contents (Elt F) → (⟨S_, .f32⟩ : BufTy).Contents (Elt F) → (⟨S_, .f32⟩ : BufTy).Contents (Elt F)),
    binary main_v64 main_v62 main_v65 (Host.divf : (⟨S_, .f32⟩ : BufTy).Contents (Elt F) → (⟨S_, .f32⟩ : BufTy).Contents (Elt F) → (⟨S_, .f32⟩ : BufTy).Contents (Elt F)) ]
/-- The references stretch 12's operations write. -/
abbrev st12_W : List (Ref sig .tc) := [main_v58, main_v59, main_v60, main_cst_13, main_v61, main_cst_14, main_v62, main_v63, main_cst_15, main_v64, main_v65]
theorem st12_writes : (st12 : List (HloOp τ sig (Elt F))).Forall fun op => op.writes ⊆ (st12_W.map (Proc.devRef (τ := τ) .tc)).toFinset := by
  simp only [List.Forall]
  refine ⟨?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 12 does not write keeps its contents across it. -/
theorem st12_keeps (V : Valuation τ sig (Elt F)) {r : Ref sig .tc} (h : r ∉ st12_W) :
    after st12 V (Proc.devRef .tc r) = V (Proc.devRef .tc r) := after_of_writes_sub st12 V st12_writes h

/-- Operations 168 to 172 of @main, in order. -/
abbrev st13 : List (HloOp τ sig (Elt F)) :=
  [ binary main_arg5 main_v65 main_v66 (mulf : (⟨S_, .f32⟩ : BufTy).Contents (Elt F) → (⟨S_, .f32⟩ : BufTy).Contents (Elt F) → (⟨S_, .f32⟩ : BufTy).Contents (Elt F)),
    binary main_v32 main_v66 main_v67 (addf : (⟨S_, .f32⟩ : BufTy).Contents (Elt F) → (⟨S_, .f32⟩ : BufTy).Contents (Elt F) → (⟨S_, .f32⟩ : BufTy).Contents (Elt F)),
    unary main_arg4 main_v68 ((extui 32 · natLt_1_32) : (⟨S64x1024, .i1⟩ : BufTy).Contents (Elt F) → (⟨S64x1024, .i32⟩ : BufTy).Contents (Elt F)),
    nullary main_c_16 (constantI S_ 32 0#32),
    binary main_v68 main_c_16 main_v69 ((fun x v => Host.reduce IntOp.addi x v reducesTo_S64x1024_S_d0_1 h_S_) : (⟨S64x1024, .i32⟩ : BufTy).Contents (Elt F) → (⟨S_, .i32⟩ : BufTy).Contents (Elt F) → (⟨S_, .i32⟩ : BufTy).Contents (Elt F)) ]
/-- The references stretch 13's operations write. -/
abbrev st13_W : List (Ref sig .tc) := [main_v66, main_v67, main_v68, main_c_16, main_v69]
theorem st13_writes : (st13 : List (HloOp τ sig (Elt F))).Forall fun op => op.writes ⊆ (st13_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 13 does not write keeps its contents across it. -/
theorem st13_keeps (V : Valuation τ sig (Elt F)) {r : Ref sig .tc} (h : r ∉ st13_W) :
    after st13 V (Proc.devRef .tc r) = V (Proc.devRef .tc r) := after_of_writes_sub st13 V st13_writes h

set_option maxRecDepth 8192 in
/-- @main's operations are the stretches, appended in order. -/
theorem ops_eq : (ops : List (HloOp τ sig (Elt F))) = st1 ++ (st2 ++ (st3 ++ (st4 ++ (st5 ++ (st6 ++ (st7 ++ (st8 ++ (st9 ++ (st10 ++ (st11 ++ (st12 ++ (st13)))))))))))) := rfl

end Cert.ReferenceIdeal.ValueP

end
-- ==== Proof.LibTRef.lean ====
/-
  Typed references of a host program's inlined functions.

  An operation of an inlined function reads its operand out of the buffer's own contents type into the type of the
  tensor value, and puts its result back, along the reference's type equation. Moving contents to the buffer's type
  and back again is the identity, and so is the other way round, for EVERY typed reference: substitute the type
  equation and both moves are the identity. A chain of such operations read back as one term therefore loses every
  inner pair of moves, and only the one at its result and the ones at its inputs remain.
-/
import Idealize.ShloMosaic.Lib.StableHlo

namespace Cert.Lib.TRef

open Idealize.ShloMosaic Idealize.ShloMosaic.StableHlo

variable {sig : RefSig} {Val : EltTy → Type} {T : BufTy}

/-- Contents of the value's type moved to the buffer's type and back are the contents. -/
theorem ofBuf_toBuf (x : TRef sig T) (v : T.Contents Val) : x.ofBuf (x.toBuf v) = v := by
  obtain ⟨r, rfl, hd, hs⟩ := x
  rfl

/-- Contents of the buffer's type moved to the value's type and back are the contents. -/
theorem toBuf_ofBuf (x : TRef sig T) (v : x.ref.ty.Contents Val) : x.toBuf (x.ofBuf v) = v := by
  obtain ⟨r, rfl, hd, hs⟩ := x
  rfl

end Cert.Lib.TRef
-- ==== Proof.RunD1.lean ====
/-
  The reference's first direction, read stretch by stretch. Its 84 operations are cut where one jax function ends and
  the next begins: the label words and the diagonal mask; the overwrite of the diagonal entry; the log-softmax; the clip
  of the label; the take along the last axis; the masked sum and its quotient. For each stretch: from ANY contents in
  which the buffers it reads hold the stages before it, the buffer it is read for ends holding its own stage. A stretch
  is short, so each such equation is between two small terms; in a stretch made of an inlined function's operations the
  moves between a buffer's own type and its value's type are cancelled pairwise first, and the ones left at the stretch's
  inputs and result are identities at these literal references. Chained, the six give the direction's quotient as the
  stage of the three arguments it depends on, whatever else the contents hold.
-/
import proofs.«413489_j17179869184487_2_alg».proof.Proof.RefPieces
import proofs.«413489_j17179869184487_2_alg».proof.Proof.RefRead
import proofs.«413489_j17179869184487_2_alg».proof.Proof.LibTRef

noncomputable section

namespace Cert.ReferenceIdeal.Stages.Dir1

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F] (V : Valuation τ sig (Elt F))

/-- The relabelled words (a line that points nowhere points to itself) after the first stretch. -/
theorem labels : after st1 V (Proc.devRef .tc main_v4) = val_main_v4 (F := F) (V (Proc.devRef .tc main_arg1)) := by
  after_results_simp <;> rfl

/-- The row maxima of the logits as given, after the first stretch. -/
theorem rowmax : after st1 V (Proc.devRef .tc main_v5) = val_main_v5 (F := F) (V (Proc.devRef .tc main_arg0)) := by
  after_results_simp <;> rfl

/-- The diagonal mask (valid self-pointing line, own column) after the first stretch. -/
theorem mask : after st1 V (Proc.devRef .tc main_v16)
    = val_main_v16 (F := F) (V (Proc.devRef .tc main_arg1)) (V (Proc.devRef .tc main_arg4)) := by
  after_results_simp <;> rfl

/-- The logits with the masked diagonal entries overwritten by the row maximum plus one. -/
theorem masked (x0 : (⟨S64x1024x1024, .f32⟩ : BufTy).Contents (Elt F)) (x1 : (⟨S64x1024, .i32⟩ : BufTy).Contents (Elt F)) (x4 : (⟨S64x1024, .i1⟩ : BufTy).Contents (Elt F))
    (hmax : V (Proc.devRef .tc main_v5) = val_main_v5 (F := F) x0)
    (hmask : V (Proc.devRef .tc main_v16) = val_main_v16 (F := F) x1 x4)
    (hx : V (Proc.devRef .tc main_arg0) = x0) :
    after st2 V (Proc.devRef .tc main_v20) = val_main_v20 (F := F) x0 x1 x4 := by
  after_results_simp
  rw [hmax, hmask, hx]
  (try simp only [TRef.ofBuf, TRef.toBuf, cast_eq]) <;> rfl

/-- The log-probabilities: the log-softmax of the overwritten logits along the last axis. -/
theorem logp (x0 : (⟨S64x1024x1024, .f32⟩ : BufTy).Contents (Elt F)) (x1 : (⟨S64x1024, .i32⟩ : BufTy).Contents (Elt F)) (x4 : (⟨S64x1024, .i1⟩ : BufTy).Contents (Elt F))
    (hy : V (Proc.devRef .tc main_v20) = val_main_v20 (F := F) x0 x1 x4) :
    after st3 V (Proc.devRef .tc main_v21) = val_main_v21 (F := F) x0 x1 x4 := by
  after_results_simp
  simp only [Cert.Lib.TRef.ofBuf_toBuf]
  rw [hy]
  (try simp only [TRef.ofBuf, TRef.toBuf, cast_eq]) <;> rfl

/-- The label clipped into [0, 1023], with a unit axis appended. -/
theorem index (x1 : (⟨S64x1024, .i32⟩ : BufTy).Contents (Elt F))
    (hl : V (Proc.devRef .tc main_v4) = val_main_v4 (F := F) x1) :
    after st4 V (Proc.devRef .tc main_v23) = val_main_v23 (F := F) x1 := by
  after_results_simp
  rw [hl]
  (try simp only [TRef.ofBuf, TRef.toBuf, cast_eq]) <;> rfl

/-- The log-probability taken at the clipped label of each line. -/
theorem picked (x0 : (⟨S64x1024x1024, .f32⟩ : BufTy).Contents (Elt F)) (x1 : (⟨S64x1024, .i32⟩ : BufTy).Contents (Elt F)) (x4 : (⟨S64x1024, .i1⟩ : BufTy).Contents (Elt F))
    (hi : V (Proc.devRef .tc main_v23) = val_main_v23 (F := F) x1)
    (hp : V (Proc.devRef .tc main_v21) = val_main_v21 (F := F) x0 x1 x4) :
    after st5 V (Proc.devRef .tc main_v24) = val_main_v24 (F := F) x0 x1 x4 := by
  after_results_simp
  simp only [Cert.Lib.TRef.ofBuf_toBuf]
  rw [hi, hp]
  (try simp only [TRef.ofBuf, TRef.toBuf, cast_eq]) <;> rfl

/-- The masked sum of the negated picks over the number of valid lines, at least one. -/
theorem quotient (x0 : (⟨S64x1024x1024, .f32⟩ : BufTy).Contents (Elt F)) (x1 : (⟨S64x1024, .i32⟩ : BufTy).Contents (Elt F)) (x4 : (⟨S64x1024, .i1⟩ : BufTy).Contents (Elt F))
    (hp : V (Proc.devRef .tc main_v24) = val_main_v24 (F := F) x0 x1 x4)
    (hm : V (Proc.devRef .tc main_arg4) = x4) :
    after st6 V (Proc.devRef .tc main_v32) = val_main_v32 (F := F) x0 x1 x4 := by
  after_results_simp
  rw [hp, hm]
  rfl

/-- The six stretches in order, from any contents: the direction's quotient is its stage of the logits, the label words
    and the validity bits found there. No stretch writes an argument, and a stage read two stretches later is kept by
    the stretch between. -/
theorem dir : after st6 (after st5 (after st4 (after st3 (after st2 (after st1 V))))) (Proc.devRef .tc main_v32)
    = val_main_v32 (F := F) (V (Proc.devRef .tc main_arg0)) (V (Proc.devRef .tc main_arg1)) (V (Proc.devRef .tc main_arg4)) := by
  refine quotient _ _ _ _ ?_ ?_
  · refine picked _ _ _ _ ?_ ?_
    · exact index _ _ (by rw [st3_keeps _ (by decide), st2_keeps _ (by decide)]; exact labels V)
    · rw [st4_keeps _ (by decide)]
      refine logp _ _ _ _ (masked _ _ _ _ (rowmax V) (mask V) (st1_keeps V (by decide)))
  · rw [st5_keeps _ (by decide), st4_keeps _ (by decide), st3_keeps _ (by decide), st2_keeps _ (by decide),
      st1_keeps _ (by decide)]

/-- A reference none of the six stretches writes keeps its contents across them. -/
theorem keeps {r : Ref sig .tc} (h1 : r ∉ st1_W) (h2 : r ∉ st2_W) (h3 : r ∉ st3_W) (h4 : r ∉ st4_W) (h5 : r ∉ st5_W)
    (h6 : r ∉ st6_W) :
    after st6 (after st5 (after st4 (after st3 (after st2 (after st1 V))))) (Proc.devRef .tc r) = V (Proc.devRef .tc r) := by
  rw [st6_keeps _ h6, st5_keeps _ h5, st4_keeps _ h4, st3_keeps _ h3, st2_keeps _ h2, st1_keeps _ h1]

end Cert.ReferenceIdeal.Stages.Dir1

end
-- ==== Proof.RunD2.lean ====
/-
  The reference's second direction, read stretch by stretch. Its 84 operations are cut where one jax function ends and
  the next begins: the label words and the diagonal mask; the overwrite of the diagonal entry; the log-softmax; the clip
  of the label; the take along the last axis; the masked sum and its quotient. For each stretch: from ANY contents in
  which the buffers it reads hold the stages before it, the buffer it is read for ends holding its own stage. A stretch
  is short, so each such equation is between two small terms; in a stretch made of an inlined function's operations the
  moves between a buffer's own type and its value's type are cancelled pairwise first, and the ones left at the stretch's
  inputs and result are identities at these literal references. Chained, the six give the direction's quotient as the
  stage of the three arguments it depends on, whatever else the contents hold.
-/
import proofs.«413489_j17179869184487_2_alg».proof.Proof.RefPieces
import proofs.«413489_j17179869184487_2_alg».proof.Proof.RefRead
import proofs.«413489_j17179869184487_2_alg».proof.Proof.LibTRef

noncomputable section

namespace Cert.ReferenceIdeal.Stages.Dir2

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F] (V : Valuation τ sig (Elt F))

/-- The relabelled words (a line that points nowhere points to itself) after the first stretch. -/
theorem labels : after st7 V (Proc.devRef .tc main_v37) = val_main_v37 (F := F) (V (Proc.devRef .tc main_arg3)) := by
  after_results_simp <;> rfl

/-- The row maxima of the logits as given, after the first stretch. -/
theorem rowmax : after st7 V (Proc.devRef .tc main_v38) = val_main_v38 (F := F) (V (Proc.devRef .tc main_arg2)) := by
  after_results_simp <;> rfl

/-- The diagonal mask (valid self-pointing line, own column) after the first stretch. -/
theorem mask : after st7 V (Proc.devRef .tc main_v49)
    = val_main_v49 (F := F) (V (Proc.devRef .tc main_arg3)) (V (Proc.devRef .tc main_arg4)) := by
  after_results_simp <;> rfl

/-- The logits with the masked diagonal entries overwritten by the row maximum plus one. -/
theorem masked (x0 : (⟨S64x1024x1024, .f32⟩ : BufTy).Contents (Elt F)) (x1 : (⟨S64x1024, .i32⟩ : BufTy).Contents (Elt F)) (x4 : (⟨S64x1024, .i1⟩ : BufTy).Contents (Elt F))
    (hmax : V (Proc.devRef .tc main_v38) = val_main_v38 (F := F) x0)
    (hmask : V (Proc.devRef .tc main_v49) = val_main_v49 (F := F) x1 x4)
    (hx : V (Proc.devRef .tc main_arg2) = x0) :
    after st8 V (Proc.devRef .tc main_v53) = val_main_v53 (F := F) x0 x1 x4 := by
  after_results_simp
  rw [hmax, hmask, hx]
  (try simp only [TRef.ofBuf, TRef.toBuf, cast_eq]) <;> rfl

/-- The log-probabilities: the log-softmax of the overwritten logits along the last axis. -/
theorem logp (x0 : (⟨S64x1024x1024, .f32⟩ : BufTy).Contents (Elt F)) (x1 : (⟨S64x1024, .i32⟩ : BufTy).Contents (Elt F)) (x4 : (⟨S64x1024, .i1⟩ : BufTy).Contents (Elt F))
    (hy : V (Proc.devRef .tc main_v53) = val_main_v53 (F := F) x0 x1 x4) :
    after st9 V (Proc.devRef .tc main_v54) = val_main_v54 (F := F) x0 x1 x4 := by
  after_results_simp
  simp only [Cert.Lib.TRef.ofBuf_toBuf]
  rw [hy]
  (try simp only [TRef.ofBuf, TRef.toBuf, cast_eq]) <;> rfl

/-- The label clipped into [0, 1023], with a unit axis appended. -/
theorem index (x1 : (⟨S64x1024, .i32⟩ : BufTy).Contents (Elt F))
    (hl : V (Proc.devRef .tc main_v37) = val_main_v37 (F := F) x1) :
    after st10 V (Proc.devRef .tc main_v56) = val_main_v56 (F := F) x1 := by
  after_results_simp
  rw [hl]
  (try simp only [TRef.ofBuf, TRef.toBuf, cast_eq]) <;> rfl

/-- The log-probability taken at the clipped label of each line. -/
theorem picked (x0 : (⟨S64x1024x1024, .f32⟩ : BufTy).Contents (Elt F)) (x1 : (⟨S64x1024, .i32⟩ : BufTy).Contents (Elt F)) (x4 : (⟨S64x1024, .i1⟩ : BufTy).Contents (Elt F))
    (hi : V (Proc.devRef .tc main_v56) = val_main_v56 (F := F) x1)
    (hp : V (Proc.devRef .tc main_v54) = val_main_v54 (F := F) x0 x1 x4) :
    after st11 V (Proc.devRef .tc main_v57) = val_main_v57 (F := F) x0 x1 x4 := by
  after_results_simp
  simp only [Cert.Lib.TRef.ofBuf_toBuf]
  rw [hi, hp]
  (try simp only [TRef.ofBuf, TRef.toBuf, cast_eq]) <;> rfl

/-- The masked sum of the negated picks over the number of valid lines, at least one. -/
theorem quotient (x0 : (⟨S64x1024x1024, .f32⟩ : BufTy).Contents (Elt F)) (x1 : (⟨S64x1024, .i32⟩ : BufTy).Contents (Elt F)) (x4 : (⟨S64x1024, .i1⟩ : BufTy).Contents (Elt F))
    (hp : V (Proc.devRef .tc main_v57) = val_main_v57 (F := F) x0 x1 x4)
    (hm : V (Proc.devRef .tc main_arg4) = x4) :
    after st12 V (Proc.devRef .tc main_v65) = val_main_v65 (F := F) x0 x1 x4 := by
  after_results_simp
  rw [hp, hm]
  rfl

/-- The six stretches in order, from any contents: the direction's quotient is its stage of the logits, the label words
    and the validity bits found there. No stretch writes an argument, and a stage read two stretches later is kept by
    the stretch between. -/
theorem dir : after st12 (after st11 (after st10 (after st9 (after st8 (after st7 V))))) (Proc.devRef .tc main_v65)
    = val_main_v65 (F := F) (V (Proc.devRef .tc main_arg2)) (V (Proc.devRef .tc main_arg3)) (V (Proc.devRef .tc main_arg4)) := by
  refine quotient _ _ _ _ ?_ ?_
  · refine picked _ _ _ _ ?_ ?_
    · exact index _ _ (by rw [st9_keeps _ (by decide), st8_keeps _ (by decide)]; exact labels V)
    · rw [st10_keeps _ (by decide)]
      refine logp _ _ _ _ (masked _ _ _ _ (rowmax V) (mask V) (st7_keeps V (by decide)))
  · rw [st11_keeps _ (by decide), st10_keeps _ (by decide), st9_keeps _ (by decide), st8_keeps _ (by decide),
      st7_keeps _ (by decide)]

/-- A reference none of the six stretches writes keeps its contents across them. -/
theorem keeps {r : Ref sig .tc} (h1 : r ∉ st7_W) (h2 : r ∉ st8_W) (h3 : r ∉ st9_W) (h4 : r ∉ st10_W) (h5 : r ∉ st11_W)
    (h6 : r ∉ st12_W) :
    after st12 (after st11 (after st10 (after st9 (after st8 (after st7 V))))) (Proc.devRef .tc r) = V (Proc.devRef .tc r) := by
  rw [st12_keeps _ h6, st11_keeps _ h5, st10_keeps _ h4, st9_keeps _ h3, st8_keeps _ h2, st7_keeps _ h1]

end Cert.ReferenceIdeal.Stages.Dir2

end
-- ==== Proof.RefRun.lean ====
/-
  The reference's run, read through its stages.

  @main is the list of its 173 operations, so every weakly fair execution ends with every buffer at the operations'
  fold over the launch contents. The fold is never opened as one term. The list is its thirteen stretches appended, so
  the fold is the stretches' folds one after the other; the first six give the first direction's quotient as its stage
  of the arguments, the next six the second direction's in the same way from what the first six leave (they write no
  argument), and the last stretch adds the first quotient to the weight times the second and counts the valid lines.
  No stretch writes an argument, so the arguments end as they began.
-/
import proofs.«413489_j17179869184487_2_alg».proof.Proof.RunD1
import proofs.«413489_j17179869184487_2_alg».proof.Proof.RunD2

noncomputable section

namespace Cert.ReferenceIdeal.ValueP

open Cert.ReferenceIdeal Cert.ReferenceIdeal.Gen Cert.ReferenceIdeal.ReadP Cert.ReferenceIdeal.Stages Idealize.ShloMosaic Idealize.ShloMosaic.TcCoe Idealize.SL.Sem Idealize.ShloMosaic.StableHlo

variable {F : FTy → Type} [FloatOps F] (V : Valuation τ sig (Elt F))

/-! ## The closing stretch -/

/-- The combined loss: the first direction's quotient plus the weight times the second's. -/
theorem closing_total (x0 : (⟨S64x1024x1024, .f32⟩ : BufTy).Contents (Elt F)) (x1 : (⟨S64x1024, .i32⟩ : BufTy).Contents (Elt F)) (x2 : (⟨S64x1024x1024, .f32⟩ : BufTy).Contents (Elt F)) (x3 : (⟨S64x1024, .i32⟩ : BufTy).Contents (Elt F)) (x4 : (⟨S64x1024, .i1⟩ : BufTy).Contents (Elt F)) (x5 : (⟨S_, .f32⟩ : BufTy).Contents (Elt F))
    (h0 : V (Proc.devRef .tc main_v32) = val_main_v32 (F := F) x0 x1 x4)
    (h1 : V (Proc.devRef .tc main_v65) = val_main_v65 (F := F) x2 x3 x4)
    (hw : V (Proc.devRef .tc main_arg5) = x5) :
    after st13 V (Proc.devRef .tc main_v67) = val_main_v67 (F := F) x0 x1 x2 x3 x4 x5 := by
  after_results_simp
  rw [h0, h1, hw]
  rfl

/-- The number of valid lines: the sum of the validity bits, widened. -/
theorem closing_count : after st13 V (Proc.devRef .tc main_v69)
    = Host.reduce IntOp.addi (extui 32 (V (Proc.devRef .tc main_arg4)) natLt_1_32) (constantI S_ 32 0#32) reducesTo_S64x1024_S_d0_1 h_S_ := by
  after_results_simp <;> rfl

/-! ## The whole fold -/

/-- The fold of all the operations is the thirteen stretches' folds, one after the other. -/
theorem after_ops : after ops V
    = after st13 (after st12 (after st11 (after st10 (after st9 (after st8 (after st7
        (after st6 (after st5 (after st4 (after st3 (after st2 (after st1 V)))))))))))) := by
  rw [ops_eq]
  simp only [StableHlo.after_append]

/-- A reference no stretch writes keeps its contents across the whole fold. -/
theorem ops_keeps {r : Ref sig .tc} (h1 : r ∉ st1_W) (h2 : r ∉ st2_W) (h3 : r ∉ st3_W) (h4 : r ∉ st4_W) (h5 : r ∉ st5_W)
    (h6 : r ∉ st6_W) (h7 : r ∉ st7_W) (h8 : r ∉ st8_W) (h9 : r ∉ st9_W) (h10 : r ∉ st10_W) (h11 : r ∉ st11_W)
    (h12 : r ∉ st12_W) (h13 : r ∉ st13_W) : after ops V (Proc.devRef .tc r) = V (Proc.devRef .tc r) := by
  rw [after_ops, st13_keeps _ h13, Dir2.keeps _ h7 h8 h9 h10 h11 h12, Dir1.keeps _ h1 h2 h3 h4 h5 h6]

/-- The first direction's quotient after the whole fold: the later stretches do not write it. -/
theorem fold_first : after ops V (Proc.devRef .tc main_v32)
    = val_main_v32 (F := F) (V (Proc.devRef .tc main_arg0)) (V (Proc.devRef .tc main_arg1)) (V (Proc.devRef .tc main_arg4)) := by
  rw [after_ops, st13_keeps _ (by decide), Dir2.keeps _ (by decide) (by decide) (by decide) (by decide) (by decide) (by decide)]
  exact Dir1.dir V

/-- The second direction's quotient after the whole fold: the first six stretches write none of its arguments. -/
theorem fold_second : after ops V (Proc.devRef .tc main_v65)
    = val_main_v65 (F := F) (V (Proc.devRef .tc main_arg2)) (V (Proc.devRef .tc main_arg3)) (V (Proc.devRef .tc main_arg4)) := by
  rw [after_ops, st13_keeps _ (by decide), Dir2.dir,
    Dir1.keeps (r := main_arg2) V (by decide) (by decide) (by decide) (by decide) (by decide) (by decide),
    Dir1.keeps (r := main_arg3) V (by decide) (by decide) (by decide) (by decide) (by decide) (by decide),
    Dir1.keeps (r := main_arg4) V (by decide) (by decide) (by decide) (by decide) (by decide) (by decide)]

/-- The combined loss after the whole fold. -/
theorem fold_total : after ops V (Proc.devRef .tc main_v67)
    = val_main_v67 (F := F) (V (Proc.devRef .tc main_arg0)) (V (Proc.devRef .tc main_arg1)) (V (Proc.devRef .tc main_arg2)) (V (Proc.devRef .tc main_arg3))
        (V (Proc.devRef .tc main_arg4)) (V (Proc.devRef .tc main_arg5)) := by
  rw [after_ops]
  refine closing_total _ _ _ _ _ _ _ ?_ ?_ ?_
  · rw [Dir2.keeps _ (by decide) (by decide) (by decide) (by decide) (by decide) (by decide)]
    exact Dir1.dir V
  · rw [Dir2.dir,
      Dir1.keeps (r := main_arg2) V (by decide) (by decide) (by decide) (by decide) (by decide) (by decide),
      Dir1.keeps (r := main_arg3) V (by decide) (by decide) (by decide) (by decide) (by decide) (by decide),
      Dir1.keeps (r := main_arg4) V (by decide) (by decide) (by decide) (by decide) (by decide) (by decide)]
  · rw [Dir2.keeps _ (by decide) (by decide) (by decide) (by decide) (by decide) (by decide),
      Dir1.keeps _ (by decide) (by decide) (by decide) (by decide) (by decide) (by decide)]

/-- The count of valid lines after the whole fold. -/
theorem fold_count : after ops V (Proc.devRef .tc main_v69)
    = Host.reduce IntOp.addi (extui 32 (V (Proc.devRef .tc main_arg4)) natLt_1_32) (constantI S_ 32 0#32) reducesTo_S64x1024_S_d0_1 h_S_ := by
  rw [after_ops, closing_count,
    Dir2.keeps (r := main_arg4) _ (by decide) (by decide) (by decide) (by decide) (by decide) (by decide),
    Dir1.keeps (r := main_arg4) V (by decide) (by decide) (by decide) (by decide) (by decide) (by decide)]

/-! ## The run -/

/-- On every device, for any float values, from any memory with zero counters: every weakly fair execution of @main
    terminates with the combined loss, the two directions' quotients and the count of valid lines at their stages of
    the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v32) = val_main_v32 (F := F) (m ((c.tc : Thread nD τ).loc main_arg0)) (m ((c.tc : Thread nD τ).loc main_arg1)) (m ((c.tc : Thread nD τ).loc main_arg4))
      ∧ r.2.mem ((c.tc : Thread nD τ).loc main_v65) = val_main_v65 (F := F) (m ((c.tc : Thread nD τ).loc main_arg2)) (m ((c.tc : Thread nD τ).loc main_arg3)) (m ((c.tc : Thread nD τ).loc main_arg4))
      ∧ r.2.mem ((c.tc : Thread nD τ).loc main_v69) = Host.reduce IntOp.addi (extui 32 (m ((c.tc : Thread nD τ).loc main_arg4)) natLt_1_32) (constantI S_ 32 0#32) reducesTo_S64x1024_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v67).trans (fold_total (launchContents m c)),
       (h c main_v32).trans (fold_first (launchContents m c)),
       (h c main_v65).trans (fold_second (launchContents m c)),
       (h c main_v69).trans (fold_count (launchContents m c)),
       (h c main_arg0).trans (ops_keeps (launchContents m c) (by decide) (by decide) (by decide) (by decide) (by decide) (by decide) (by decide) (by decide) (by decide) (by decide) (by decide) (by decide) (by decide)),
       (h c main_arg1).trans (ops_keeps (launchContents m c) (by decide) (by decide) (by decide) (by decide) (by decide) (by decide) (by decide) (by decide) (by decide) (by decide) (by decide) (by decide) (by decide)),
       (h c main_arg2).trans (ops_keeps (launchContents m c) (by decide) (by decide) (by decide) (by decide) (by decide) (by decide) (by decide) (by decide) (by decide) (by decide) (by decide) (by decide) (by decide)),
       (h c main_arg3).trans (ops_keeps (launchContents m c) (by decide) (by decide) (by decide) (by decide) (by decide) (by decide) (by decide) (by decide) (by decide) (by decide) (by decide) (by decide) (by decide)),
       (h c main_arg4).trans (ops_keeps (launchContents m c) (by decide) (by decide) (by decide) (by decide) (by decide) (by decide) (by decide) (by decide) (by decide) (by decide) (by decide) (by decide) (by decide)),
       (h c main_arg5).trans (ops_keeps (launchContents m c) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.ReferenceIdeal.ValueP

end
-- ==== Proof.Acc0.lean ====
/-
  Region 0 (the successor direction's launch): what its one result word holds when the grid has run.

  The output block never moves (index (0, 0) at every point), so its staging buffer is carried from point to point and
  written back once, after the last point. Point 0 stores zero and then adds its partial sum; every later point adds
  its partial sum to what the point before left. So after point n the buffer holds the left-nested chain
  step₀(0) , step₁(step₀(0)) , … and the result array ends at the chain's value after the last of the 64 points.
-/
import proofs.«413489_j17179869184487_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc0

open Cert.KernelIdeal Cert.KernelIdeal.Gen

variable {F : FTy → Type} [FloatOps F]
variable (V : (c : Dev nD) → (b : Ref sig .tc) → Buf (Elt F) ((c : Thread nD τ).loc b))

/-- One grid point's update of the running sum: the body's closing store, as a function of the point's three input
    blocks (logits, labels, validity as floats) and of what the accumulator held when the point began. -/
def step (i : grid0.Coords) (x0 : Vec F S8x128x1024 .f32) (x1 : Vec F S8x128 .i32) (x2 : Vec F S8x128 .f32)
    (acc : Vec F S1x1 .f32) : Vec F S1x1 .f32 :=
  k0_pay1 (k0_pay3 x2) x0 (k0_pay5 i x1) (iota .tc S1x1x1024 32 [2] iota_S1x1x1024_d2_w32) (k0_pay6 i x1 x2) (k0_pay7 x0) acc

/-- The running sum after point `n`: point 0 starts from the stored zero, every later point from the point before. -/
def chain (c : Dev nD) : (n : ℕ) → n < cfg0.N → Vec F S1x1 .f32
  | 0, h => step (grid0.coords ⟨0, h⟩) (iblk0 V c 0 ⟨0, h⟩) (iblk0 V c 1 ⟨0, h⟩) (iblk0 V c 2 ⟨0, h⟩) (k0_pay2 (F := F))
  | n + 1, h => step (grid0.coords ⟨n + 1, h⟩) (iblk0 V c 0 ⟨n + 1, h⟩) (iblk0 V c 1 ⟨n + 1, h⟩) (iblk0 V c 2 ⟨n + 1, h⟩)
      (chain c n (Nat.lt_of_succ_lt h))

theorem lastLt : 63 < cfg0.N := by rw [show cfg0.N = 64 from N_0]; decide

/-- The zero offsets of a rank-2 and of a rank-3 access, however spelt, are the constant zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A later point (the reset not taken): the body's one store covers the accumulator, and its value is the update
    of what the accumulator held, computed from the three input buffers read whole. -/
theorem out_B (c : Dev nD) (i : grid0.Coords) (a2 : Memref sig .tc .vmem S8x128x1024 .f32) (h2 : a2.IsWhole)
    (a3 : Memref sig .tc .vmem S8x128 .i32) (h3 : a3.IsWhole) (a4 : Memref sig .tc .vmem S8x128 .f32) (h4 : a4.IsWhole)
    (a5 : Memref sig .tc .vmem S1x1 .f32) (h5 : a5.IsWhole) (hc : ¬cond0_0 i)
    (x0 : Vec F S8x128x1024 .f32) (x1 : Vec F S8x128 .i32) (x2 : Vec F S8x128 .f32) (xo : Vec F S1x1 .f32) :
    out0_B_3 c i a2 h2 a3 h3 a4 h4 a5 h5 hc x0 x1 x2 xo = step i x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz2]
  unfold step
  simp only [View.readAt_eq_ld, h2.read_unread, h3.read_unread, h4.read_unread, h5.read_unread,
    View.ld_unit_zero (S := S8x128) hz2, View.ld_unit_zero (S := S8x128x1024) hz3, View.ld_unit_zero (S := S1x1) hz2]

/-- The first point (the reset taken): the body first stores zero over the accumulator, then reads it back and stores
    the update of that zero; the later store covers, so the buffer ends at the update of zero. -/
theorem out_A (c : Dev nD) (i : grid0.Coords) (a2 : Memref sig .tc .vmem S8x128x1024 .f32) (h2 : a2.IsWhole)
    (a3 : Memref sig .tc .vmem S8x128 .i32) (h3 : a3.IsWhole) (a4 : Memref sig .tc .vmem S8x128 .f32) (h4 : a4.IsWhole)
    (a5 : Memref sig .tc .vmem S1x1 .f32) (h5 : a5.IsWhole) (hc : cond0_0 i)
    (x0 : Vec F S8x128x1024 .f32) (x1 : Vec F S8x128 .i32) (x2 : Vec F S8x128 .f32) :
    out0_A_3 c i a2 h2 a3 h3 a4 h4 a5 h5 hc x0 x1 x2 = step i x0 x1 x2 (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1) hz2]
  unfold step
  simp only [View.readAt_eq_ld, h2.read_unread, h3.read_unread, h4.read_unread,
    View.ld_unit_zero (S := S8x128) hz2, View.ld_unit_zero (S := S8x128x1024) hz3, View.ld_unit_zero (S := S1x1) hz2,
    View.readCov_unit_zero (S := S1x1) _ hz2]

/-- What the accumulator's staging buffer holds after point `n` is the chain's value there: by induction on the point,
    point 0 by the reset case, every later point (never a multiple of 64 below 64) by the carrying case. -/
theorem outsAt_eq (c : Dev nD) : ∀ (n : ℕ) (h : n < cfg0.N), outsAt0 V c n h = chain V c n h
  | 0, h => (outsAt0_A V c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk0 V c 0 ⟨0, h⟩) (iblk0 V c 1 ⟨0, h⟩) (iblk0 V c 2 ⟨0, h⟩))
  | n + 1, h => by
    have hN : cfg0.N = 64 := N_0
    have hB : ¬(⟨n + 1, h⟩ : Fin cfg0.N).val % 64 = 0 := by dsimp only; omega
    rw [outsAt0_B V c ⟨n + 1, h⟩ hB, out_B]
    show step _ _ _ _ (outsAt0 V c n _) = step _ _ _ _ (chain V c n _)
    rw [outsAt_eq c n]

/-- The one write-back, at the last point, writes the chain's last value: block (0, 0) of the [1, 1] array, read
    through zero offsets, is the array. -/
theorem flushed_eq (c : Dev nD) (t : Fin cfg0.N) (hf : (cfg0.win 3).flush t = true) :
    (dat0 V c).flushed 3 t = ((cfg0.win 3).blk t).view.read (Elt F) (chain V c 63 lastLt) := by
  have hN : cfg0.N = 64 := N_0
  have h63 : t.val = 63 := by have := (flush0_3 t).mp hf; have := t.isLt; omega
  obtain rfl : t = ⟨63, lastLt⟩ := Fin.ext h63
  show (cfg0.win 3).cut (grid0.coords ⟨63, lastLt⟩) ((dat0 V c).after 3 ⟨63, lastLt⟩) = _
  rw [after0_3, outsAt_eq]
  have hz' : (fun a => win0_3.index ⟨63, lastLt⟩ a * main_v1.ty.shape.size a) = fun _ => 0 :=
    funext fun a => by fin_cases a <;> decide
  exact (Memref.read_access_unit_zero (Elt F) main_v1 hz' (fun a => by rw [congrFun hz' a]; simp) (chain V c 63 lastLt)).symm

/-- The result array of the launch ends at the chain's value after the last point. -/
theorem final (c : Dev nD) : (dat0 V c).arrAt 3 cfg0.N = chain V c 63 lastLt :=
  (dat0 V c).arrAt_eq_of_cover 3 (chain V c 63 lastLt) (flushed_eq V c) fun i =>
    ⟨⟨63, lastLt⟩, (flush0_3 ⟨63, lastLt⟩).mpr rfl, by
      show i ∈ ((View.whole main_v1).slice (win0_3.rect ⟨63, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index ⟨63, lastLt⟩ 0 * win0_3.size 0 ≤ (i 0 : Nat)
          ∧ (i 0 : Nat) < win0_3.index ⟨63, lastLt⟩ 0 * win0_3.size 0 + win0_3.xsize (grid0.coords ⟨63, lastLt⟩) 0
        rw [show win0_3.index ⟨63, lastLt⟩ 0 * win0_3.size 0 = 0 from by decide +kernel,
          show win0_3.xsize (grid0.coords ⟨63, lastLt⟩) 0 = 1 from by decide +kernel]
        omega
      | ⟨1, _⟩ =>
        show win0_3.index ⟨63, lastLt⟩ 1 * win0_3.size 1 ≤ (i 1 : Nat)
          ∧ (i 1 : Nat) < win0_3.index ⟨63, lastLt⟩ 1 * win0_3.size 1 + win0_3.xsize (grid0.coords ⟨63, lastLt⟩) 1
        rw [show win0_3.index ⟨63, lastLt⟩ 1 * win0_3.size 1 = 0 from by decide +kernel,
          show win0_3.xsize (grid0.coords ⟨63, lastLt⟩) 1 = 1 from by decide +kernel]
        omega⟩

end Cert.KernelIdeal.Acc0

end
-- ==== Proof.Acc1.lean ====
/-
  Region 1 (the predecessor direction's launch): what its one result word holds when the grid has run.

  The output block never moves (index (0, 0) at every point), so its staging buffer is carried from point to point and
  written back once, after the last point. Point 0 stores zero and then adds its partial sum; every later point adds
  its partial sum to what the point before left. So after point n the buffer holds the left-nested chain
  step₀(0) , step₁(step₀(0)) , … and the result array ends at the chain's value after the last of the 64 points.
-/
import proofs.«413489_j17179869184487_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc1

open Cert.KernelIdeal Cert.KernelIdeal.Gen

variable {F : FTy → Type} [FloatOps F]
variable (V : (c : Dev nD) → (b : Ref sig .tc) → Buf (Elt F) ((c : Thread nD τ).loc b))

/-- One grid point's update of the running sum: the body's closing store, as a function of the point's three input
    blocks (logits, labels, validity as floats) and of what the accumulator held when the point began. -/
def step (i : grid1.Coords) (x0 : Vec F S8x128x1024 .f32) (x1 : Vec F S8x128 .i32) (x2 : Vec F S8x128 .f32)
    (acc : Vec F S1x1 .f32) : Vec F S1x1 .f32 :=
  k1_pay1 (k1_pay3 x2) x0 (k1_pay5 i x1) (iota .tc S1x1x1024 32 [2] iota_S1x1x1024_d2_w32) (k1_pay6 i x1 x2) (k1_pay7 x0) acc

/-- The running sum after point `n`: point 0 starts from the stored zero, every later point from the point before. -/
def chain (c : Dev nD) : (n : ℕ) → n < cfg1.N → Vec F S1x1 .f32
  | 0, h => step (grid1.coords ⟨0, h⟩) (iblk1 V c 0 ⟨0, h⟩) (iblk1 V c 1 ⟨0, h⟩) (iblk1 V c 2 ⟨0, h⟩) (k1_pay2 (F := F))
  | n + 1, h => step (grid1.coords ⟨n + 1, h⟩) (iblk1 V c 0 ⟨n + 1, h⟩) (iblk1 V c 1 ⟨n + 1, h⟩) (iblk1 V c 2 ⟨n + 1, h⟩)
      (chain c n (Nat.lt_of_succ_lt h))

theorem lastLt : 63 < cfg1.N := by rw [show cfg1.N = 64 from N_1]; decide

/-- The zero offsets of a rank-2 and of a rank-3 access, however spelt, are the constant zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A later point (the reset not taken): the body's one store covers the accumulator, and its value is the update
    of what the accumulator held, computed from the three input buffers read whole. -/
theorem out_B (c : Dev nD) (i : grid1.Coords) (a2 : Memref sig .tc .vmem S8x128x1024 .f32) (h2 : a2.IsWhole)
    (a3 : Memref sig .tc .vmem S8x128 .i32) (h3 : a3.IsWhole) (a4 : Memref sig .tc .vmem S8x128 .f32) (h4 : a4.IsWhole)
    (a5 : Memref sig .tc .vmem S1x1 .f32) (h5 : a5.IsWhole) (hc : ¬cond1_0 i)
    (x0 : Vec F S8x128x1024 .f32) (x1 : Vec F S8x128 .i32) (x2 : Vec F S8x128 .f32) (xo : Vec F S1x1 .f32) :
    out1_B_3 c i a2 h2 a3 h3 a4 h4 a5 h5 hc x0 x1 x2 xo = step i x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz2]
  unfold step
  simp only [View.readAt_eq_ld, h2.read_unread, h3.read_unread, h4.read_unread, h5.read_unread,
    View.ld_unit_zero (S := S8x128) hz2, View.ld_unit_zero (S := S8x128x1024) hz3, View.ld_unit_zero (S := S1x1) hz2]

/-- The first point (the reset taken): the body first stores zero over the accumulator, then reads it back and stores
    the update of that zero; the later store covers, so the buffer ends at the update of zero. -/
theorem out_A (c : Dev nD) (i : grid1.Coords) (a2 : Memref sig .tc .vmem S8x128x1024 .f32) (h2 : a2.IsWhole)
    (a3 : Memref sig .tc .vmem S8x128 .i32) (h3 : a3.IsWhole) (a4 : Memref sig .tc .vmem S8x128 .f32) (h4 : a4.IsWhole)
    (a5 : Memref sig .tc .vmem S1x1 .f32) (h5 : a5.IsWhole) (hc : cond1_0 i)
    (x0 : Vec F S8x128x1024 .f32) (x1 : Vec F S8x128 .i32) (x2 : Vec F S8x128 .f32) :
    out1_A_3 c i a2 h2 a3 h3 a4 h4 a5 h5 hc x0 x1 x2 = step i x0 x1 x2 (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1) hz2]
  unfold step
  simp only [View.readAt_eq_ld, h2.read_unread, h3.read_unread, h4.read_unread,
    View.ld_unit_zero (S := S8x128) hz2, View.ld_unit_zero (S := S8x128x1024) hz3, View.ld_unit_zero (S := S1x1) hz2,
    View.readCov_unit_zero (S := S1x1) _ hz2]

/-- What the accumulator's staging buffer holds after point `n` is the chain's value there: by induction on the point,
    point 0 by the reset case, every later point (never a multiple of 64 below 64) by the carrying case. -/
theorem outsAt_eq (c : Dev nD) : ∀ (n : ℕ) (h : n < cfg1.N), outsAt1 V c n h = chain V c n h
  | 0, h => (outsAt1_A V c ⟨0, h⟩ rfl).trans
      (out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
        (ms1_3 ⟨0, h⟩) (hs1_3 ⟨0, h⟩) ((hcond1_0 ⟨0, h⟩).mpr rfl) (iblk1 V c 0 ⟨0, h⟩) (iblk1 V c 1 ⟨0, h⟩) (iblk1 V c 2 ⟨0, h⟩))
  | n + 1, h => by
    have hN : cfg1.N = 64 := N_1
    have hB : ¬(⟨n + 1, h⟩ : Fin cfg1.N).val % 64 = 0 := by dsimp only; omega
    rw [outsAt1_B V c ⟨n + 1, h⟩ hB, out_B]
    show step _ _ _ _ (outsAt1 V c n _) = step _ _ _ _ (chain V c n _)
    rw [outsAt_eq c n]

/-- The one write-back, at the last point, writes the chain's last value: block (0, 0) of the [1, 1] array, read
    through zero offsets, is the array. -/
theorem flushed_eq (c : Dev nD) (t : Fin cfg1.N) (hf : (cfg1.win 3).flush t = true) :
    (dat1 V c).flushed 3 t = ((cfg1.win 3).blk t).view.read (Elt F) (chain V c 63 lastLt) := by
  have hN : cfg1.N = 64 := N_1
  have h63 : t.val = 63 := by have := (flush1_3 t).mp hf; have := t.isLt; omega
  obtain rfl : t = ⟨63, lastLt⟩ := Fin.ext h63
  show (cfg1.win 3).cut (grid1.coords ⟨63, lastLt⟩) ((dat1 V c).after 3 ⟨63, lastLt⟩) = _
  rw [after1_3, outsAt_eq]
  have hz' : (fun a => win1_3.index ⟨63, lastLt⟩ a * main_v3.ty.shape.size a) = fun _ => 0 :=
    funext fun a => by fin_cases a <;> decide
  exact (Memref.read_access_unit_zero (Elt F) main_v3 hz' (fun a => by rw [congrFun hz' a]; simp) (chain V c 63 lastLt)).symm

/-- The result array of the launch ends at the chain's value after the last point. -/
theorem final (c : Dev nD) : (dat1 V c).arrAt 3 cfg1.N = chain V c 63 lastLt :=
  (dat1 V c).arrAt_eq_of_cover 3 (chain V c 63 lastLt) (flushed_eq V c) fun i =>
    ⟨⟨63, lastLt⟩, (flush1_3 ⟨63, lastLt⟩).mpr rfl, by
      show i ∈ ((View.whole main_v3).slice (win1_3.rect ⟨63, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index ⟨63, lastLt⟩ 0 * win1_3.size 0 ≤ (i 0 : Nat)
          ∧ (i 0 : Nat) < win1_3.index ⟨63, lastLt⟩ 0 * win1_3.size 0 + win1_3.xsize (grid1.coords ⟨63, lastLt⟩) 0
        rw [show win1_3.index ⟨63, lastLt⟩ 0 * win1_3.size 0 = 0 from by decide +kernel,
          show win1_3.xsize (grid1.coords ⟨63, lastLt⟩) 0 = 1 from by decide +kernel]
        omega
      | ⟨1, _⟩ =>
        show win1_3.index ⟨63, lastLt⟩ 1 * win1_3.size 1 ≤ (i 1 : Nat)
          ∧ (i 1 : Nat) < win1_3.index ⟨63, lastLt⟩ 1 * win1_3.size 1 + win1_3.xsize (grid1.coords ⟨63, lastLt⟩) 1
        rw [show win1_3.index ⟨63, lastLt⟩ 1 * win1_3.size 1 = 0 from by decide +kernel,
          show win1_3.xsize (grid1.coords ⟨63, lastLt⟩) 1 = 1 from by decide +kernel]
        omega⟩

end Cert.KernelIdeal.Acc1

end
-- ==== Proof.Tail.lean ====
/-
  The host operations around the two launches, read back: what the program's four results hold when it returns.

  @main is five segments. A first stretch turns the validity mask into floats (0 or 1 per line). The first launch reads
  the successor direction's logits and labels and that mask, and leaves one word: the sum of its lines' losses. A
  second stretch copies that word as a scalar. The second launch does the same for the predecessor direction. The last
  stretch sums the mask for the number of valid lines, takes the larger of that and 1 as the denominator, divides each
  direction's sum by it, adds the first quotient to the weight argument times the second, and counts the valid lines
  once more as a 32-bit integer.

  Every buffer is followed from the launch memory forward, boundary by boundary: a stretch changes only the buffers
  its operations write; a launch changes only its one output array (which ends at the accumulator chain's last value)
  and leaves the arrays it only reads, and every buffer it does not touch, as they were at its entry. So the four
  results are explicit terms over the two chains and the launch memory at the arguments.
-/
import proofs.«413489_j17179869184487_2_alg».proof.Proof.Gen.KernelIdeal.Frame
import proofs.«413489_j17179869184487_2_alg».proof.Proof.Acc0
import proofs.«413489_j17179869184487_2_alg».proof.Proof.Acc1
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ) (ρ : Dev nD → PrngReg)

/-! ## The terms the results are stated over -/

/-- The validity mask read as floats (0 or 1 per line): what the first host operation leaves. Both launches read it
    through their third window, and the tail sums it for the denominator. -/
abbrev maskF (c : Dev nD) : (⟨S64x1024, .f32⟩ : BufTy).Contents (Elt F) :=
  (uitofp .f32 : (⟨S64x1024, .i1⟩ : BufTy).Contents (Elt F) → (⟨S64x1024, .f32⟩ : BufTy).Contents (Elt F))
    (m ((c : Thread nD τ).loc main_arg4))

/-- The denominator both directions are divided by: the number of valid lines (the mask summed from zero), but at least 1. -/
def den (c : Dev nD) : (⟨S_, .f32⟩ : BufTy).Contents (Elt F) :=
  maximumf (Host.reduceAdd (maskF m c) (constant S_ .f32 0x00000000#32) reducesTo_S64x1024_S_d0_1 h_S_)
    (constant S_ .f32 0x3F800000#32)

/-- The successor direction's loss: the first launch's one result word, as a scalar, over the denominator. -/
def loss0 (c : Dev nD) : (⟨S_, .f32⟩ : BufTy).Contents (Elt F) :=
  Host.divf (shapeCast S_ (Acc0.chain (V1 m ρ) c 63 Acc0.lastLt) shapeCasts_S1x1_S_) (den m c)

/-- The predecessor direction's loss: the second launch's one result word, as a scalar, over the same denominator. -/
def loss1 (c : Dev nD) : (⟨S_, .f32⟩ : BufTy).Contents (Elt F) :=
  Host.divf (shapeCast S_ (Acc1.chain (V3 m ρ) c 63 Acc1.lastLt) shapeCasts_S1x1_S_) (den m c)

/-! ## After the first stretch (the first launch's entry): the mask as floats is made, the arguments are as launched -/

theorem W1_main_arg0 (c : Dev nD) : W1 m ρ c (Proc.devRef .tc main_arg0) = m ((c : Thread nD τ).loc main_arg0) := by
  show StableHlo.after hostOps0 (W0 m ρ c) (Proc.devRef .tc main_arg0) = _
  after_results
theorem W1_main_arg1 (c : Dev nD) : W1 m ρ c (Proc.devRef .tc main_arg1) = m ((c : Thread nD τ).loc main_arg1) := by
  show StableHlo.after hostOps0 (W0 m ρ c) (Proc.devRef .tc main_arg1) = _
  after_results
theorem W1_main_arg2 (c : Dev nD) : W1 m ρ c (Proc.devRef .tc main_arg2) = m ((c : Thread nD τ).loc main_arg2) := by
  show StableHlo.after hostOps0 (W0 m ρ c) (Proc.devRef .tc main_arg2) = _
  after_results
theorem W1_main_arg3 (c : Dev nD) : W1 m ρ c (Proc.devRef .tc main_arg3) = m ((c : Thread nD τ).loc main_arg3) := by
  show StableHlo.after hostOps0 (W0 m ρ c) (Proc.devRef .tc main_arg3) = _
  after_results
theorem W1_main_arg4 (c : Dev nD) : W1 m ρ c (Proc.devRef .tc main_arg4) = m ((c : Thread nD τ).loc main_arg4) := by
  show StableHlo.after hostOps0 (W0 m ρ c) (Proc.devRef .tc main_arg4) = _
  after_results
theorem W1_main_arg5 (c : Dev nD) : W1 m ρ c (Proc.devRef .tc main_arg5) = m ((c : Thread nD τ).loc main_arg5) := by
  show StableHlo.after hostOps0 (W0 m ρ c) (Proc.devRef .tc main_arg5) = _
  after_results
theorem W1_main_v0 (c : Dev nD) : W1 m ρ c (Proc.devRef .tc main_v0) = maskF m c := by
  show StableHlo.after hostOps0 (W0 m ρ c) (Proc.devRef .tc main_v0) = _
  after_results

/-- The first launch's entry contents at its three input arrays: the logits and labels of the successor direction as
    launched, and the mask as floats. -/
theorem V1_main_arg0 (c : Dev nD) : V1 m ρ c main_arg0 = m ((c : Thread nD τ).loc main_arg0) := W1_main_arg0 m ρ c
theorem V1_main_arg1 (c : Dev nD) : V1 m ρ c main_arg1 = m ((c : Thread nD τ).loc main_arg1) := W1_main_arg1 m ρ c
theorem V1_main_v0 (c : Dev nD) : V1 m ρ c main_v0 = maskF m c := W1_main_v0 m ρ c

/-! ## At the first launch's exit: its result word is the chain's last value; what it only reads, and what it does not
    touch, is as at its entry -/

theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_v0 (c : Dev nD) : W2 m ρ c (Proc.devRef .tc main_v0) = maskF m c :=
  ((W2_arr m ρ c 2).trans (((dat0 (V1 m ρ) c).arrAt_in 2 rfl _).trans (A_eq0 (V1 m ρ) c 2))).trans (W1_main_v0 m ρ c)
theorem W2_main_v1 (c : Dev nD) : W2 m ρ c (Proc.devRef .tc main_v1) = Acc0.chain (V1 m ρ) c 63 Acc0.lastLt :=
  (W2_arr m ρ c 3).trans (Acc0.final (V1 m ρ) c)

/-! ## After the second stretch (the second launch's entry): the first result word is also there as a scalar -/

theorem W3_main_arg2 (c : Dev nD) : W3 m ρ c (Proc.devRef .tc main_arg2) = m ((c : Thread nD τ).loc main_arg2) := by
  show StableHlo.after hostOps1 (W2 m ρ c) (Proc.devRef .tc main_arg2) = _
  after_results
  exact W2_main_arg2 m ρ c
theorem W3_main_arg3 (c : Dev nD) : W3 m ρ c (Proc.devRef .tc main_arg3) = m ((c : Thread nD τ).loc main_arg3) := by
  show StableHlo.after hostOps1 (W2 m ρ c) (Proc.devRef .tc main_arg3) = _
  after_results
  exact W2_main_arg3 m ρ c
theorem W3_main_arg4 (c : Dev nD) : W3 m ρ c (Proc.devRef .tc main_arg4) = m ((c : Thread nD τ).loc main_arg4) := by
  show StableHlo.after hostOps1 (W2 m ρ c) (Proc.devRef .tc main_arg4) = _
  after_results
  exact W2_main_arg4 m ρ c
theorem W3_main_arg5 (c : Dev nD) : W3 m ρ c (Proc.devRef .tc main_arg5) = m ((c : Thread nD τ).loc main_arg5) := by
  show StableHlo.after hostOps1 (W2 m ρ c) (Proc.devRef .tc main_arg5) = _
  after_results
  exact W2_main_arg5 m ρ c
theorem W3_main_v0 (c : Dev nD) : W3 m ρ c (Proc.devRef .tc main_v0) = maskF m c := by
  show StableHlo.after hostOps1 (W2 m ρ c) (Proc.devRef .tc main_v0) = _
  after_results
  exact W2_main_v0 m ρ c
theorem W3_main_v2 (c : Dev nD) : W3 m ρ c (Proc.devRef .tc main_v2)
    = shapeCast S_ (Acc0.chain (V1 m ρ) c 63 Acc0.lastLt) shapeCasts_S1x1_S_ := by
  show StableHlo.after hostOps1 (W2 m ρ c) (Proc.devRef .tc main_v2) = _
  after_results
  rw [W2_main_v1 m ρ c]
  rfl

/-- The second launch's entry contents at its three input arrays: the logits and labels of the predecessor direction
    as launched, and the same mask as floats. -/
theorem V3_main_arg2 (c : Dev nD) : V3 m ρ c main_arg2 = m ((c : Thread nD τ).loc main_arg2) := W3_main_arg2 m ρ c
theorem V3_main_arg3 (c : Dev nD) : V3 m ρ c main_arg3 = m ((c : Thread nD τ).loc main_arg3) := W3_main_arg3 m ρ c
theorem V3_main_v0 (c : Dev nD) : V3 m ρ c main_v0 = maskF m c := W3_main_v0 m ρ c

/-! ## At the second launch's exit -/

theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_v0 (c : Dev nD) : W4 m ρ c (Proc.devRef .tc main_v0) = maskF m c :=
  ((W4_arr m ρ c 2).trans (((dat1 (V3 m ρ) c).arrAt_in 2 rfl _).trans (A_eq1 (V3 m ρ) c 2))).trans (W3_main_v0 m ρ c)
theorem W4_main_v2 (c : Dev nD) : W4 m ρ c (Proc.devRef .tc main_v2)
    = shapeCast S_ (Acc0.chain (V1 m ρ) c 63 Acc0.lastLt) shapeCasts_S1x1_S_ :=
  (W4_of_ne m ρ c main_v2 (by decide)).trans (W3_main_v2 m ρ c)
theorem W4_main_v3 (c : Dev nD) : W4 m ρ c (Proc.devRef .tc main_v3) = Acc1.chain (V3 m ρ) c 63 Acc1.lastLt :=
  (W4_arr m ρ c 3).trans (Acc1.final (V3 m ρ) c)

/-! ## The four results, after the last stretch -/

/-- The successor direction's loss. -/
theorem W5_main_v7 (c : Dev nD) : W5 m ρ c (Proc.devRef .tc main_v7) = loss0 m ρ c := by
  show StableHlo.after hostOps2 (W4 m ρ c) (Proc.devRef .tc main_v7) = _
  after_results
  rw [W4_main_v2 m ρ c, W4_main_v0 m ρ c]
  rfl

/-- The predecessor direction's loss. -/
theorem W5_main_v8 (c : Dev nD) : W5 m ρ c (Proc.devRef .tc main_v8) = loss1 m ρ c := by
  show StableHlo.after hostOps2 (W4 m ρ c) (Proc.devRef .tc main_v8) = _
  after_results
  rw [W4_main_v3 m ρ c, W4_main_v0 m ρ c]
  rfl

/-- The total: the successor direction's loss plus the weight argument times the predecessor direction's. -/
theorem W5_main_v10 (c : Dev nD) : W5 m ρ c (Proc.devRef .tc main_v10)
    = addf (loss0 m ρ c) (mulf (m ((c : Thread nD τ).loc main_arg5)) (loss1 m ρ c)) := by
  show StableHlo.after hostOps2 (W4 m ρ c) (Proc.devRef .tc main_v10) = _
  after_results
  rw [W4_main_v2 m ρ c, W4_main_v3 m ρ c, W4_main_v0 m ρ c, W4_main_arg5 m ρ c]
  rfl

/-- The count of valid lines: the mask widened to 32-bit words and summed from zero. -/
theorem W5_main_v12 (c : Dev nD) : W5 m ρ c (Proc.devRef .tc main_v12)
    = Host.reduce IntOp.addi (extui 32 (m ((c : Thread nD τ).loc main_arg4)) natLt_1_32) (constantI S_ 32 0#32)
        reducesTo_S64x1024_S_d0_1 h_S_ := by
  show StableHlo.after hostOps2 (W4 m ρ c) (Proc.devRef .tc main_v12) = _
  after_results
  rw [W4_main_arg4 m ρ c]

end Cert.KernelIdeal.Tail

end
-- ==== Proof.Finite.lean ====
/-
  What the precondition says of the float inputs: the printed predicate is all ones exactly when every logit of both
  directions (and the weight) is finite, i.e. a real number among the extended reals.
-/
import proofs.«413489_j17179869184487_2_alg».proof.Pre_finite_inputs
import proofs.«413489_j17179869184487_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

/-- An extended real whose absolute value is below +∞ is a real. -/
theorem real_of_abs_lt (x : EReal)
    (h : Ideal.cmp .olt (max x (-x)) (Ideal.ofBits .f32 0x7F800000#32) = 1#1) : ∃ r : ℝ, x = (r : EReal) := by
  -- the literal is +∞; at x = ⊥ or x = ⊤ the absolute value max x (−x) is ⊤, which is not below ⊤
  have hinf : Ideal.ofBits .f32 0x7F800000#32 = ⊤ := by simp [Ideal.ofBits, Ideal.ieee]
  rw [hinf] at h
  induction x using EReal.rec with
  | bot => exfalso; simp [Ideal.cmp] at h
  | top => exfalso; simp [Ideal.cmp] at h
  | coe r => exact ⟨r, rfl⟩

/-- Under the precondition every logit of both directions is a real. -/
theorem reals_of_pre (a0 : FVec Ideal S64x1024x1024 .f32) (a1 : IVec S64x1024 32) (a2 : FVec Ideal S64x1024x1024 .f32)
    (a3 : IVec S64x1024 32) (a4 : IVec S64x1024 1) (a5 : FVec Ideal S_ .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) := by
  haveI : Subsingleton S_.Idx := ⟨fun a b => funext fun d => d.elim0⟩
  -- the predicate at its one index is the conjunction of three reductions by ∧; the first two are over the logits
  have h0 := congrFun h ValueIdx.ix0
  dsimp only [Cert.Pre_finite_inputs.fn] at h0
  simp only [andi] at h0
  obtain ⟨h02, -⟩ := IntOp.andi_eq_one.1 h0
  obtain ⟨e0, e2⟩ := IntOp.andi_eq_one.1 h02
  -- a reduction by ∧ that is 1 met a 1 at every index: |x i| < +∞ there
  refine ⟨fun i => ?_, fun i => ?_⟩
  · have hi := Host.reduce_andi_all _ _ _ _ ValueIdx.ix0 e0 i
    exact real_of_abs_lt (a0 i) hi
  · have hi := Host.reduce_andi_all _ _ _ _ ValueIdx.ix0 e2 i
    exact real_of_abs_lt (a2 i) hi

end Cert.Finite

end
-- ==== Proof.RowLoss.lean ====
/-
  The per-line loss both programs compute, stated once over the extended reals and 32-bit label words.

  For one line (one row of 1024 logits `x`, its label word `lab`, its validity bit `mk`, its own position `R`
  among the 1024 lines of the batch entry):
    * the label −1 means "points to itself": it is replaced by the line's own position `R`, and, when the line is
      also valid, the row's diagonal entry `x R` is overwritten by (row maximum + 1);
    * the loss is the softmax cross entropy of the overwritten row at the clipped label,
      (M + log Σₖ exp (yₖ − M)) − y_label with M the overwritten row's maximum, times the validity bit read as 0 or 1.
  A direction's sum is the sum of these terms over the 64 × 1024 lines.
-/
import Idealize.ShloMosaic.PureOps.Ideal
import Idealize.ShloMosaic.PureOps.Ideal.Laws

noncomputable section

namespace RowLoss

open Idealize.ShloMosaic

/-- The three float literals both programs share: −∞ (where a maximum starts), 1 (added to the row maximum), 0. -/
abbrev negInf : EReal := Ideal.ofBits .f32 0xFF800000#32
abbrev one : EReal := Ideal.ofBits .f32 0x3F800000#32
abbrev zero : EReal := Ideal.ofBits .f32 0x00000000#32

/-- A row's maximum, folded from −∞. -/
def rmax (y : Fin 1024 → EReal) : EReal := (Finset.univ : Finset (Fin 1024)).fold max negInf y

/-- The row with its diagonal entry overwritten by (maximum + 1) when the line points to itself (label −1) and is
    valid; every other entry, and every entry of any other line, unchanged. -/
def adj (x : Fin 1024 → EReal) (lab : BitVec 32) (mk : BitVec 1) (R : Fin 1024) : Fin 1024 → EReal :=
  fun j => if lab = 4294967295#32 ∧ mk = 1#1 ∧ j = R then rmax x + one else x j

/-- The label word after the relabelling (−1 becomes the line's own position) and the signed clip to [0, 1023]. -/
def clipW (lab : BitVec 32) (R : Fin 1024) : BitVec 32 :=
  IntOp.minsi 1023#32 (IntOp.maxsi 0#32 (if lab = 4294967295#32 then BitVec.ofNat 32 R.val else lab))

/-- … read as a column of the row (the clip keeps it below 1024; any word is read modulo 1024 so that the
    definition needs no proof, and `clipW_lt` says the reduction is idle). -/
def col (lab : BitVec 32) (R : Fin 1024) : Fin 1024 := ⟨(clipW lab R).toNat % 1024, Nat.mod_lt _ (by decide)⟩

/-- One line's term of the sum: the cross entropy of the overwritten row at the clipped label, times the validity
    bit read as the real 0 or 1. -/
def term (x : Fin 1024 → EReal) (lab : BitVec 32) (mk : BitVec 1) (R : Fin 1024) : EReal :=
  ((rmax (adj x lab mk R) + Ideal.log (∑ k : Fin 1024, Ideal.exp (adj x lab mk R k - rmax (adj x lab mk R))))
      - adj x lab mk R (col lab R)) * ((mk.toNat : ℝ) : EReal)

/-- A direction's sum over the 64 batch entries and their 1024 lines. -/
def total (X : Fin 64 → Fin 1024 → Fin 1024 → EReal) (Lb : Fin 64 → Fin 1024 → BitVec 32)
    (Mk : Fin 64 → Fin 1024 → BitVec 1) : EReal :=
  ∑ B : Fin 64, ∑ R : Fin 1024, term (X B R) (Lb B R) (Mk B R) R

end RowLoss

end
-- ==== Proof.RowLossLaws.lean ====
/-
  Laws of the per-line loss over the extended reals, and the two re-arrangements of its sum:
  a row of reals has a real maximum; with the picked entry and the maximum real, −((a − M) − L) = (M + L) − a for
  EVERY extended real L; a sum that keeps one index is that entry; the 64 × 1024 lines are the 64 grid points' 8 × 128
  blocks; a left-nested chain of additions is the sum of its terms.
-/
import proofs.«413489_j17179869184487_2_alg».proof.Proof.RowLoss

noncomputable section

namespace RowLoss

open Idealize.ShloMosaic

theorem zero_eq : zero = 0 := Ideal.ofBits_zero_f32
theorem negInf_eq : negInf = ⊥ := by
  simp [negInf, Ideal.ofBits, Ideal.ieee]
theorem one_real : ∃ r : ℝ, one = (r : EReal) := by
  refine ⟨1, ?_⟩
  simp [one, Ideal.ofBits, Ideal.ieee, -EReal.coe_mul]
  norm_num

/-- A maximum folded from ⊥ over a finite set is ⊥ or is attained in the set. -/
theorem fold_max_bot_or_mem (y : Fin 1024 → EReal) (s : Finset (Fin 1024)) :
    s.fold max ⊥ y = ⊥ ∨ ∃ k ∈ s, s.fold max ⊥ y = y k := by
  classical
  induction s using Finset.induction_on with
  | empty => left; simp
  | insert a s ha ih =>
    rw [Finset.fold_insert ha]
    rcases max_choice (y a) (s.fold max ⊥ y) with h | h
    · right; exact ⟨a, Finset.mem_insert_self a s, h⟩
    · rw [h]
      rcases ih with h' | ⟨k, hk, h'⟩
      · left; exact h'
      · right; exact ⟨k, Finset.mem_insert_of_mem hk, h'⟩

/-- The maximum of a row of reals is real. -/
theorem rmax_real (y : Fin 1024 → EReal) (hy : ∀ k, ∃ r : ℝ, y k = (r : EReal)) : ∃ r : ℝ, rmax y = (r : EReal) := by
  have hge : y 0 ≤ rmax y := by
    unfold rmax
    exact (Finset.le_fold_max _).mpr (Or.inr ⟨0, Finset.mem_univ 0, le_refl _⟩)
  obtain ⟨r0, hr0⟩ := hy 0
  have hne : rmax y ≠ ⊥ := by
    intro hb
    rw [hb, hr0] at hge
    exact absurd (le_bot_iff.mp hge) (EReal.coe_ne_bot r0)
  have hcases := fold_max_bot_or_mem y Finset.univ
  rw [← negInf_eq] at hcases
  rcases hcases with h | ⟨k, _, h⟩
  · exact absurd h hne
  · obtain ⟨r, hr⟩ := hy k
    exact ⟨r, by rw [← hr]; exact h⟩

/-- The overwritten row of a row of reals is a row of reals. -/
theorem adj_real (x : Fin 1024 → EReal) (lab : BitVec 32) (mk : BitVec 1) (R : Fin 1024)
    (hx : ∀ k, ∃ r : ℝ, x k = (r : EReal)) : ∀ k, ∃ r : ℝ, adj x lab mk R k = (r : EReal) := by
  intro k
  unfold adj
  split_ifs with h
  · obtain ⟨m, hm⟩ := rmax_real x hx
    obtain ⟨o, ho⟩ := one_real
    exact ⟨m + o, by rw [hm, ho, EReal.coe_add]⟩
  · exact hx k

/-- The signed clip of any word to [0, 1023] lies in [0, 1023]: the lower clip leaves 0 or a non-negative word, the
    upper clip leaves 1023 or a word that is not above it. -/
theorem clip_toInt (v : BitVec 32) :
    0 ≤ (IntOp.minsi 1023#32 (IntOp.maxsi 0#32 v)).toInt ∧ (IntOp.minsi 1023#32 (IntOp.maxsi 0#32 v)).toInt ≤ 1023 := by
  have h0 : (0#32 : BitVec 32).toInt = 0 := by decide
  have h1 : (1023#32 : BitVec 32).toInt = 1023 := by decide
  unfold IntOp.minsi IntOp.maxsi
  by_cases hv : v.slt 0#32
  · rw [if_pos hv]
    have hn : ¬ ((1023#32 : BitVec 32).slt 0#32) := by decide
    rw [if_neg hn]
    omega
  · rw [if_neg hv]
    by_cases hw : (1023#32 : BitVec 32).slt v
    · rw [if_pos hw]; omega
    · rw [if_neg hw]
      rw [BitVec.slt_iff_toInt_lt] at hv hw
      omega

/-- The clipped label is in [0, 1023], read signed or unsigned. -/
theorem clipW_toInt (lab : BitVec 32) (R : Fin 1024) : 0 ≤ (clipW lab R).toInt ∧ (clipW lab R).toInt ≤ 1023 := by
  unfold clipW
  exact clip_toInt _
theorem clipW_lt (lab : BitVec 32) (R : Fin 1024) : (clipW lab R).toNat < 1024 := by
  have h := clipW_toInt lab R
  have hc := BitVec.toInt_eq_toNat_cond (clipW lab R)
  have hl := (clipW lab R).isLt
  split_ifs at hc <;> omega
theorem col_val (lab : BitVec 32) (R : Fin 1024) : (col lab R).val = (clipW lab R).toNat := by
  show (clipW lab R).toNat % 1024 = (clipW lab R).toNat
  exact Nat.mod_eq_of_lt (clipW_lt lab R)

/-- With the picked entry and the maximum real, the two spellings of the cross entropy agree at every `L`. -/
theorem neg_sub_sub (a M : ℝ) (L : EReal) : -(((a : EReal) - (M : EReal)) - L) = ((M : EReal) + L) - (a : EReal) := by
  induction L using EReal.rec with
  | bot =>
    rw [← EReal.coe_sub, EReal.coe_sub_bot, EReal.neg_top, EReal.add_bot, EReal.bot_sub]
  | top =>
    rw [EReal.sub_top, EReal.neg_bot, EReal.coe_add_top, EReal.top_sub_coe]
  | coe l =>
    rw [← EReal.coe_sub, ← EReal.coe_sub, ← EReal.coe_neg, ← EReal.coe_add, ← EReal.coe_sub]
    congr 1
    ring

/-- A sum that keeps one index is that entry. -/
theorem sum_pick (y : Fin 1024 → EReal) (l : Fin 1024) : ∑ k : Fin 1024, (if k = l then y k else zero) = y l := by
  rw [zero_eq, Finset.sum_ite_eq' Finset.univ l y]
  simp

/-- The reference's spelling of a line's term: the maximum taken once more against −∞, the sum of exponentials started
    from the literal zero, the log-probability negated. Equal to `term` on a row of reals. -/
theorem term_eq_neg (x : Fin 1024 → EReal) (lab : BitVec 32) (mk : BitVec 1) (R : Fin 1024)
    (hx : ∀ k, ∃ r : ℝ, x k = (r : EReal)) :
    term x lab mk R
      = (-((adj x lab mk R (col lab R) - max negInf (rmax (adj x lab mk R)))
            - Ideal.log (zero + ∑ k : Fin 1024, Ideal.exp (adj x lab mk R k - max negInf (rmax (adj x lab mk R))))))
          * ((mk.toNat : ℝ) : EReal) := by
  obtain ⟨a, ha⟩ := adj_real x lab mk R hx (col lab R)
  obtain ⟨M, hM⟩ := rmax_real _ (adj_real x lab mk R hx)
  have hmax : max negInf (rmax (adj x lab mk R)) = rmax (adj x lab mk R) := by
    rw [negInf_eq]; exact max_eq_right bot_le
  unfold term
  rw [hmax, zero_eq, zero_add, ha, hM, neg_sub_sub]

/-- The pairing of a grid point t = 8·t₀ + t₁ and a place (b, r) in its 8 × 128 block with the batch entry 8·t₀ + b and
    the line 128·t₁ + r; each of the 64 × 1024 lines arises exactly once (b = B mod 8, r = R mod 128, t₀ = B div 8,
    t₁ = R div 128). -/
def pointLine : Fin 64 × Fin 8 × Fin 128 ≃ Fin 64 × Fin 1024 where
  toFun q := (⟨8 * (q.1.val / 8) + q.2.1.val, by have := q.1.isLt; have := q.2.1.isLt; omega⟩,
              ⟨128 * (q.1.val % 8) + q.2.2.val, by have := q.2.2.isLt; omega⟩)
  invFun p := (⟨8 * (p.1.val / 8) + p.2.val / 128, by have := p.1.isLt; have := p.2.isLt; omega⟩,
               ⟨p.1.val % 8, by omega⟩, ⟨p.2.val % 128, by omega⟩)
  left_inv := by
    rintro ⟨t, b, r⟩
    have := t.isLt; have := b.isLt; have := r.isLt
    refine Prod.ext (Fin.ext ?_) (Prod.ext (Fin.ext ?_) (Fin.ext ?_)) <;> simp only [] <;> omega
  right_inv := by
    rintro ⟨B, R⟩
    have := B.isLt; have := R.isLt
    refine Prod.ext (Fin.ext ?_) (Fin.ext ?_) <;> simp only [] <;> omega

/-- The 64 × 1024 lines, grouped as the 64 grid points (point t = 8·t₀ + t₁) of 8 × 128 blocks. -/
theorem regroup (f : Fin 64 → Fin 1024 → EReal) :
    ∑ B : Fin 64, ∑ R : Fin 1024, f B R
      = ∑ t : Fin 64, ∑ b : Fin 8, ∑ r : Fin 128,
          f ⟨8 * (t.val / 8) + b.val, by have := t.isLt; have := b.isLt; omega⟩
            ⟨128 * (t.val % 8) + r.val, by have := r.isLt; omega⟩ := by
  calc ∑ B : Fin 64, ∑ R : Fin 1024, f B R
      = ∑ p : Fin 64 × Fin 1024, f p.1 p.2 := (Fintype.sum_prod_type' f).symm
    _ = ∑ q : Fin 64 × Fin 8 × Fin 128, f (pointLine q).1 (pointLine q).2 :=
        (Fintype.sum_equiv pointLine _ _ (fun _ => rfl)).symm
    _ = ∑ t : Fin 64, ∑ br : Fin 8 × Fin 128, f (pointLine (t, br)).1 (pointLine (t, br)).2 :=
        Fintype.sum_prod_type _
    _ = _ := Finset.sum_congr rfl (fun t _ => Fintype.sum_prod_type _)

/-- A left-nested chain of additions from `z` is `z` plus the sum of its terms. -/
theorem chain_sum (p c : ℕ → EReal) (z : EReal) (h0 : c 0 = z + p 0) (hs : ∀ n, c (n + 1) = c n + p (n + 1)) (n : ℕ) :
    c n = z + ∑ k ∈ Finset.range (n + 1), p k := by
  induction n with
  | zero => rw [h0]; simp
  | succ n ih => rw [hs n, ih, Finset.sum_range_succ _ (n + 1), add_assoc]

end RowLoss

end
-- ==== Proof.Body0.lean ====
/-
  One grid point of region 0 at the ideal values: the body's closing store adds to the accumulator the sum, over the
  block's 8 × 128 lines, of each line's loss term (RowLoss.term) — the block's row r being line 128·i₁ + r of its
  batch entry.
-/
import proofs.«413489_j17179869184487_2_alg».proof.Proof.RowLoss
import proofs.«413489_j17179869184487_2_alg».proof.Proof.RowLossLaws
import proofs.«413489_j17179869184487_2_alg».proof.Proof.Acc0
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Body0

open Cert.KernelIdeal Cert.KernelIdeal.Gen

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand's one entry of line `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand's one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand's one plane at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## The three reductions' inserted coordinate -/

theorem lift_row (h : S8x128x1024.Reduces [2] S8x128) (b : Fin 8) (r : Fin 128) (k : Fin 1024) :
    h.lift (ix2 b r) k = ix3 b r k := by
  funext c
  apply Fin.ext
  match c with
  | ⟨0, _⟩ => rfl
  | ⟨1, _⟩ => rfl
  | ⟨2, _⟩ => rfl

theorem lift_lines (h : S8x128.Reduces [1] S8) (b : Fin 8) (r : Fin 128) :
    h.lift (ix1 b) r = ix2 b r := by
  funext c
  apply Fin.ext
  match c with
  | ⟨0, _⟩ => rfl
  | ⟨1, _⟩ => rfl

theorem lift_planes (h : S8x1.Reduces [0] S1) (u : Fin 1) (b : Fin 8) :
    h.lift (ix1 u) b = ix2 b u := by
  funext c
  apply Fin.ext
  match c with
  | ⟨0, _⟩ => rfl
  | ⟨1, _⟩ => rfl

/-! ## Each reduction read at coordinates -/

/-- A row's sum. -/
theorem rowSum_apply (W : FVec Ideal S8x128x1024 .f32) (h : S8x128x1024.Reduces [2] S8x128) (hφ : FKind.Formats .f32)
    (hacc : (0x00000000#32 : BitVec 32) = FKind.add.neutral .f32 hφ) (b : Fin 8) (r : Fin 128) :
    multiReduction .add [2] S8x128 W 0x00000000#32 h hφ hacc (ix2 b r) = ∑ k : Fin 1024, W (ix3 b r k) := by
  refine (Ideal.multiReduction_add_single W 0x00000000#32 h hφ hacc (ix2 b r)).trans ?_
  exact Finset.sum_congr rfl fun k _ => congrArg W (lift_row h b r k)

/-- A row's maximum, folded from −∞. -/
theorem rowMax_apply (W : FVec Ideal S8x128x1024 .f32) (h : S8x128x1024.Reduces [2] S8x128) (hφ : FKind.Formats .f32)
    (hacc : (0xFF800000#32 : BitVec 32) = FKind.maximumf.neutral .f32 hφ) (b : Fin 8) (r : Fin 128) :
    multiReduction .maximumf [2] S8x128 W 0xFF800000#32 h hφ hacc (ix2 b r)
      = (Finset.univ : Finset (Fin 1024)).fold max (Ideal.ofBits .f32 0xFF800000#32) (fun k => W (ix3 b r k)) := by
  refine (Ideal.multiReduction_maximumf_single W 0xFF800000#32 h hφ hacc (ix2 b r)).trans ?_
  exact Finset.fold_congr fun k _ => congrArg W (lift_row h b r k)

/-- The block's sum: over the lines of a plane, then over the planes. -/
theorem linesSum_apply (L : FVec Ideal S8x128 .f32) (h : S8x128.Reduces [1] S8) (hφ : FKind.Formats .f32)
    (hacc : (0x00000000#32 : BitVec 32) = FKind.add.neutral .f32 hφ) (b : Fin 8) :
    multiReduction .add [1] S8 L 0x00000000#32 h hφ hacc (ix1 b) = ∑ r : Fin 128, L (ix2 b r) := by
  refine (Ideal.multiReduction_add_single L 0x00000000#32 h hφ hacc (ix1 b)).trans ?_
  exact Finset.sum_congr rfl fun r _ => congrArg L (lift_lines h b r)

theorem planesSum_apply (P : FVec Ideal S8x1 .f32) (h : S8x1.Reduces [0] S1) (hφ : FKind.Formats .f32)
    (hacc : (0x00000000#32 : BitVec 32) = FKind.add.neutral .f32 hφ) (u : Fin 1) :
    multiReduction .add [0] S1 P 0x00000000#32 h hφ hacc (ix1 u) = ∑ b : Fin 8, P (ix2 b u) := by
  refine (Ideal.multiReduction_add_single P 0x00000000#32 h hφ hacc (ix1 u)).trans ?_
  exact Finset.sum_congr rfl fun b _ => congrArg P (lift_planes h u b)

/-! ## Facts about words and the two float literals of the test -/

/-- The product of two zero-extended bits is positive exactly when both bits are set. -/
theorem sgt_mul_bits (a b : BitVec 1) :
    IntOp.cmpi .sgt (IntOp.muli (a.setWidth 32) (b.setWidth 32)) 0#32 = 1#1 ↔ a = 1#1 ∧ b = 1#1 := by
  revert a b; decide

/-- The literal against which validity is tested is one half. -/
theorem half_eq : Ideal.ofBits .f32 0x3F000000#32 = (((1 / 2 : ℝ)) : EReal) := by
  simp [Ideal.ofBits, Ideal.ieee]
  rw [← EReal.coe_mul]
  exact congrArg Real.toEReal (by norm_num)

/-- The ordered "greater than" is set exactly when its second operand is below its first. -/
theorem cmp_ogt_eq_one (x y : EReal) : Ideal.cmp .ogt x y = 1#1 ↔ y < x := by
  unfold Ideal.cmp
  by_cases h : y < x <;> simp [h]

/-- A bit read as the real 0 or 1 exceeds one half exactly when it is set. -/
theorem ogt_half (m : BitVec 1) :
    Ideal.cmp .ogt (((m.toNat : ℝ)) : EReal) (Ideal.ofBits .f32 0x3F000000#32) = 1#1 ↔ m = 1#1 := by
  rw [cmp_ogt_eq_one, half_eq]
  rcases BitVec.eq_zero_or_eq_one m with h | h <;> subst h
  · constructor
    · intro h
      exfalso
      have h' : (((1 / 2 : ℝ)) : EReal) < (((0 : ℕ) : ℝ) : EReal) := h
      rw [EReal.coe_lt_coe_iff] at h'
      norm_num at h'
    · intro h; exact absurd h (by decide)
  · constructor
    · intro _; rfl
    · intro _
      show (((1 / 2 : ℝ)) : EReal) < (((1 : ℕ) : ℝ) : EReal)
      rw [EReal.coe_lt_coe_iff]
      norm_num

/-- Two words of naturals below 2³² are equal exactly when the naturals are. -/
theorem ofNat_eq_ofNat (a b : ℕ) (ha : a < 4294967296) (hb : b < 4294967296) :
    BitVec.ofNat 32 a = BitVec.ofNat 32 b ↔ a = b := by
  constructor
  · intro h
    have := congrArg BitVec.toNat h
    rw [BitVec.toNat_ofNat, BitVec.toNat_ofNat] at this
    omega
  · intro h; rw [h]

/-- A word is that of a natural below 2³² exactly when the natural is the word's value. -/
theorem ofNat_eq_iff (a : ℕ) (w : BitVec 32) (ha : a < 4294967296) :
    BitVec.ofNat 32 a = w ↔ a = w.toNat := by
  constructor
  · intro h
    have := congrArg BitVec.toNat h
    rw [BitVec.toNat_ofNat] at this
    omega
  · intro h; rw [h, BitVec.ofNat_toNat, BitVec.setWidth_eq]

/-- The word the body computes for a line's own position: grid coordinate × 128 + the row inside the block. -/
theorem line_word (i1 r : ℕ) (h1 : i1 < 8) (hr : r < 128) :
    IntOp.addi (Scalar.muli (BitVec.ofNat 32 i1) 128#32) (BitVec.ofNat 32 r) = BitVec.ofNat 32 (128 * i1 + r) := by
  apply BitVec.eq_of_toNat_eq
  show ((BitVec.ofNat 32 i1 * 128#32) + BitVec.ofNat 32 r).toNat = _
  rw [BitVec.toNat_add, BitVec.toNat_mul, BitVec.toNat_ofNat, BitVec.toNat_ofNat, BitVec.toNat_ofNat]
  show (i1 % 4294967296 * 128 % 4294967296 + r % 4294967296) % 4294967296 = (128 * i1 + r) % 4294967296
  omega

/-! ## Integer and transcendental operations are pointwise -/

section Pointwise
variable {s : Shape} {w : ℕ}
theorem cmpi_apply (p : CmpIPredicate) (x y : IVec s w) (j : s.Idx) : cmpi p x y j = IntOp.cmpi p (x j) (y j) := rfl
theorem muli_apply (x y : IVec s w) (j : s.Idx) : muli x y j = IntOp.muli (x j) (y j) := rfl
theorem addi_apply (x y : IVec s w) (j : s.Idx) : addi x y j = IntOp.addi (x j) (y j) := rfl
theorem andi_apply (x y : IVec s w) (j : s.Idx) : andi x y j = IntOp.andi (x j) (y j) := rfl
theorem maxsi_apply (x y : IVec s w) (j : s.Idx) : maxsi x y j = IntOp.maxsi (x j) (y j) := rfl
theorem minsi_apply (x y : IVec s w) (j : s.Idx) : minsi x y j = IntOp.minsi (x j) (y j) := rfl
theorem exp_apply {φ : FTy} (x : FVec Ideal s φ) (j : s.Idx) : exp x j = Ideal.exp (x j) := rfl
theorem log_apply {φ : FTy} (x : FVec Ideal s φ) (j : s.Idx) : log x j = Ideal.log (x j) := rfl
end Pointwise

/-! ## The body's earlier values at coordinates -/

/-- The value written over a diagonal entry: the row's maximum plus one. -/
theorem pay7_apply (x0 : Vec Ideal S8x128x1024 .f32) (b : Fin 8) (r : Fin 128) (u : Fin 1) :
    k0_pay7 (F := Ideal) x0 (ix3 b r u) = RowLoss.rmax (fun k => x0 (ix3 b r k)) + RowLoss.one := by
  unfold k0_pay7
  dsimp only
  rw [shapeCast_self, shapeCast_ab_ab1_apply, addf_apply, broadcast_apply]
  exact congrArg (· + Ideal.ofBits .f32 0x3F800000#32) (rowMax_apply x0 _ _ _ b r)

/-- The relabelled label: −1 becomes the word of the line's own position. -/
theorem pay5_apply (i : grid0.Coords) (x1 : Vec Ideal S8x128 .i32) (b : Fin 8) (r : Fin 128) :
    k0_pay5 (F := Ideal) i x1 (ix2 b r)
      = if x1 (ix2 b r) = 4294967295#32 then BitVec.ofNat 32 (128 * (i 1).val + r.val) else x1 (ix2 b r) := by
  have h1 : (i 1).val < 8 := (i 1).isLt
  unfold k0_pay5 k0_pay4
  dsimp only
  rw [select_apply, broadcastTo_1b_ab_apply, shapeCast_self, cmpi_apply, broadcast_apply, addi_apply, broadcast_apply,
    iota_single_apply]
  show (if IntOp.cmpi .eq (x1 (ix2 b r)) 4294967295#32 = 1#1
      then IntOp.addi (Scalar.muli (BitVec.ofNat 32 (i 1).val) 128#32) (BitVec.ofNat 32 r.val) else x1 (ix2 b r)) = _
  rw [line_word (i 1).val r.val h1 r.isLt]
  exact if_congr IntOp.cmpi_eq rfl rfl

/-- The overwrite condition: the label is −1, the line is valid, and the column is the line's own position. -/
theorem pay6_apply (i : grid0.Coords) (x1 : Vec Ideal S8x128 .i32) (x2 : Vec Ideal S8x128 .f32) (m : BitVec 1)
    (b : Fin 8) (r : Fin 128) (k : Fin 1024) (hm : x2 (ix2 b r) = ((m.toNat : ℝ) : EReal)) :
    k0_pay6 (F := Ideal) i x1 x2 (ix3 b r k) = 1#1
      ↔ (x1 (ix2 b r) = 4294967295#32 ∧ m = 1#1 ∧ k.val = 128 * (i 1).val + r.val) := by
  have h1 : (i 1).val < 8 := (i 1).isLt
  have hr := r.isLt
  have hk := k.isLt
  unfold k0_pay6 k0_pay4 k0_pay3
  dsimp only
  rw [cmpi_apply, broadcast_apply, muli_apply, broadcastTo_ab1_abc_apply, shapeCast_ab_ab1_apply, extui_apply,
    andi_apply, cmpi_apply, broadcast_apply, cmpf_apply, shapeCast_self, broadcast_apply, hm,
    broadcastTo_1bc_abc_apply, extui_apply, cmpi_apply, broadcastTo_11c_abc_apply, broadcastTo_ab1_abc_apply,
    iota_single_apply, addi_apply, broadcast_apply, iota_single_apply]
  rw [sgt_mul_bits, IntOp.andi_eq_one, IntOp.cmpi_eq, IntOp.cmpi_eq]
  show (_ ∧ Ideal.cmp .ogt (((m.toNat : ℝ)) : EReal) (Ideal.ofBits .f32 0x3F000000#32) = 1#1)
      ∧ BitVec.ofNat 32 k.val = IntOp.addi (Scalar.muli (BitVec.ofNat 32 (i 1).val) 128#32) (BitVec.ofNat 32 r.val) ↔ _
  rw [ogt_half, line_word (i 1).val r.val h1 hr, ofNat_eq_ofNat _ _ (by omega) (by omega), and_assoc]

/-! ## The closing payload in stages: the block's line losses, and their sum -/

/-- A row's maximum as the body takes it: the fold of `max` from −∞ along the last axis. -/
def rowMaxV (W : FVec Ideal S8x128x1024 .f32) : FVec Ideal S8x128 .f32 :=
  multiReduction .maximumf [2] S8x128 W 0xFF800000#32 reduces_S8x128x1024_S8x128 (.inl rfl) rfl

/-- Per line, the sum over the row of the exponentials of the entries' differences from the row's maximum. -/
def expSum (W : FVec Ideal S8x128x1024 .f32) : FVec Ideal S8x128 .f32 :=
  multiReduction .add [2] S8x128
    (exp (subf W (broadcastTo S8x128x1024 (shapeCast S8x128x1 (rowMaxV W) shapeCasts_S8x128_S8x128x1)
      broadcasts_S8x128x1_S8x128x1024)))
    0x00000000#32 reduces_S8x128x1024_S8x128 (.inl rfl) rfl

/-- Per line, the row's entry at the clipped label, picked by a sum that keeps the one column whose number is the
    label clipped to [0, 1023] and puts zero elsewhere. -/
def pick (W : FVec Ideal S8x128x1024 .f32) (v17 : IVec S8x128 32) (v22 : IVec S1x1x1024 32) : FVec Ideal S8x128 .f32 :=
  multiReduction .add [2] S8x128
    (select
      (cmpi .eq (broadcastTo S8x128x1024 v22 broadcasts_S1x1x1024_S8x128x1024)
        (broadcastTo S8x128x1024
          (shapeCast S8x128x1 (minsi (broadcast S8x128 1023#32) (maxsi (broadcast S8x128 0#32) v17))
            shapeCasts_S8x128_S8x128x1)
          broadcasts_S8x128x1_S8x128x1024))
      W (broadcast S8x128x1024 (Scalar.ofBits (F := Ideal) .f32 0x00000000#32)))
    0x00000000#32 reduces_S8x128x1024_S8x128 (.inl rfl) rfl

/-- The block's 8 × 128 line losses, from the overwritten rows `W`, the relabelled labels `v17`, the column numbers
    `v22` and the validity floats `v8`: (row maximum + log of the sum of exponentials) − (the picked entry), times
    the validity. -/
def lineLoss (W : FVec Ideal S8x128x1024 .f32) (v17 : IVec S8x128 32) (v22 : IVec S1x1x1024 32)
    (v8 : FVec Ideal S8x128 .f32) : FVec Ideal S8x128 .f32 :=
  mulf (subf (addf (rowMaxV W) (log (expSum W))) (pick W v17 v22)) v8

/-- A block of line losses summed into the one result word: over the lines of each plane, then over the planes. -/
def blockSum (L : FVec Ideal S8x128 .f32) : FVec Ideal S1x1 .f32 :=
  shapeCast S1x1
    (multiReduction .add [0] S1
      (shapeCast S8x1 (multiReduction .add [1] S8 L 0x00000000#32 reduces_S8x128_S8 (.inl rfl) rfl) shapeCasts_S8_S8x1)
      0x00000000#32 reduces_S8x1_S1 (.inl rfl) rfl)
    shapeCasts_S1_S1x1

/-- The closing payload is the accumulator plus the sum of the block's line losses. -/
theorem pay1_eq (v8 : FVec Ideal S8x128 .f32) (v9 : Vec Ideal S8x128x1024 .f32) (v17 : IVec S8x128 32)
    (v22 : IVec S1x1x1024 32) (v36 : IVec S8x128x1024 1) (v40 : FVec Ideal S8x128x1 .f32) (v68 : Vec Ideal S1x1 .f32) :
    k0_pay1 (F := Ideal) v8 v9 v17 v22 v36 v40 v68
      = addf (shapeCast S1x1 v68 shapeCasts_S1x1_S1x1)
          (blockSum (lineLoss (select v36 (broadcastTo S8x128x1024 v40 broadcasts_S8x128x1_S8x128x1024) v9) v17 v22 v8)) :=
  rfl

/-- The block's sum at the one result index. -/
theorem blockSum_apply (L : FVec Ideal S8x128 .f32) (y : S1x1.Idx) :
    blockSum L y = ∑ b : Fin 8, ∑ r : Fin 128, L (ix2 b r) := by
  obtain ⟨u, v, rfl⟩ : ∃ (u : Fin 1) (v : Fin 1), y = ix2 u v := ⟨y 0, y 1, eq_ix2 y⟩
  unfold blockSum
  refine (shapeCast_a_1a_apply _ _ u v).trans ?_
  refine (planesSum_apply _ _ _ _ v).trans ?_
  refine Finset.sum_congr rfl fun b _ => ?_
  refine (shapeCast_a_a1_apply _ _ b v).trans ?_
  exact linesSum_apply L _ _ _ b

theorem rowMaxV_apply (W : FVec Ideal S8x128x1024 .f32) (b : Fin 8) (r : Fin 128) :
    rowMaxV W (ix2 b r) = RowLoss.rmax (fun k => W (ix3 b r k)) := rowMax_apply W _ _ _ b r

theorem expSum_apply (W : FVec Ideal S8x128x1024 .f32) (b : Fin 8) (r : Fin 128) :
    expSum W (ix2 b r) = ∑ k : Fin 1024, Ideal.exp (W (ix3 b r k) - RowLoss.rmax (fun k => W (ix3 b r k))) := by
  unfold expSum
  refine (rowSum_apply _ _ _ _ b r).trans ?_
  refine Finset.sum_congr rfl fun k _ => ?_
  rw [exp_apply, subf_apply, broadcastTo_ab1_abc_apply, shapeCast_ab_ab1_apply, rowMaxV_apply]

theorem pick_apply (W : FVec Ideal S8x128x1024 .f32) (v17 : IVec S8x128 32) (v22 : IVec S1x1x1024 32)
    (b : Fin 8) (r : Fin 128) :
    pick W v17 v22 (ix2 b r)
      = ∑ k : Fin 1024, (if v22 (ix3 (0 : Fin 1) (0 : Fin 1) k) = IntOp.minsi 1023#32 (IntOp.maxsi 0#32 (v17 (ix2 b r)))
          then W (ix3 b r k) else RowLoss.zero) := by
  unfold pick
  refine (rowSum_apply _ _ _ _ b r).trans ?_
  refine Finset.sum_congr rfl fun k _ => ?_
  rw [select_apply, cmpi_apply, broadcastTo_11c_abc_apply, broadcastTo_ab1_abc_apply, shapeCast_ab_ab1_apply,
    minsi_apply, maxsi_apply, broadcast_apply, broadcast_apply, broadcast_apply]
  exact if_congr IntOp.cmpi_eq rfl rfl

/-- One line's loss at coordinates, over the overwritten row. -/
theorem lineLoss_apply (W : FVec Ideal S8x128x1024 .f32) (v17 : IVec S8x128 32) (v22 : IVec S1x1x1024 32)
    (v8 : FVec Ideal S8x128 .f32) (b : Fin 8) (r : Fin 128) :
    lineLoss W v17 v22 v8 (ix2 b r)
      = ((RowLoss.rmax (fun k => W (ix3 b r k))
            + Ideal.log (∑ k : Fin 1024, Ideal.exp (W (ix3 b r k) - RowLoss.rmax (fun k => W (ix3 b r k)))))
          - ∑ k : Fin 1024, (if v22 (ix3 (0 : Fin 1) (0 : Fin 1) k) = IntOp.minsi 1023#32 (IntOp.maxsi 0#32 (v17 (ix2 b r)))
              then W (ix3 b r k) else RowLoss.zero))
        * v8 (ix2 b r) := by
  unfold lineLoss
  rw [mulf_apply, subf_apply, addf_apply, log_apply, rowMaxV_apply, expSum_apply, pick_apply]

/-! ## One line of the block is the specification's term -/

/-- The overwritten row of line (b, r) is the specification's: the diagonal entry replaced by (row maximum + 1) exactly
    when the label is −1 and the line is valid. -/
theorem overwritten_apply (i : grid0.Coords) (x0 : Vec Ideal S8x128x1024 .f32) (x1 : Vec Ideal S8x128 .i32)
    (x2 : Vec Ideal S8x128 .f32) (m : BitVec 1) (R : Fin 1024) (b : Fin 8) (r : Fin 128) (k : Fin 1024)
    (hm : x2 (ix2 b r) = ((m.toNat : ℝ) : EReal)) (hR : R.val = 128 * (i 1).val + r.val) :
    select (k0_pay6 (F := Ideal) i x1 x2)
        (broadcastTo S8x128x1024 (k0_pay7 (F := Ideal) x0) broadcasts_S8x128x1_S8x128x1024) x0 (ix3 b r k)
      = RowLoss.adj (fun k => x0 (ix3 b r k)) (x1 (ix2 b r)) m R k := by
  rw [select_apply, broadcastTo_ab1_abc_apply, pay7_apply]
  unfold RowLoss.adj Scalar.select
  refine if_congr ((pay6_apply i x1 x2 m b r k hm).trans ?_) rfl rfl
  rw [Fin.ext_iff, hR]

/-- One line's loss is the specification's term of that line. -/
theorem line_apply (i : grid0.Coords) (x0 : Vec Ideal S8x128x1024 .f32) (x1 : Vec Ideal S8x128 .i32)
    (x2 : Vec Ideal S8x128 .f32) (m : BitVec 1) (R : Fin 1024) (b : Fin 8) (r : Fin 128)
    (hm : x2 (ix2 b r) = ((m.toNat : ℝ) : EReal)) (hR : R.val = 128 * (i 1).val + r.val) :
    lineLoss
        (select (k0_pay6 (F := Ideal) i x1 x2)
          (broadcastTo S8x128x1024 (k0_pay7 (F := Ideal) x0) broadcasts_S8x128x1_S8x128x1024) x0)
        (k0_pay5 (F := Ideal) i x1) (iota .tc S1x1x1024 32 [2] iota_S1x1x1024_d2_w32) (k0_pay3 (F := Ideal) x2) (ix2 b r)
      = RowLoss.term (fun k => x0 (ix3 b r k)) (x1 (ix2 b r)) m R := by
  have hW := fun k => overwritten_apply i x0 x1 x2 m R b r k hm hR
  have hcol : ∀ k : Fin 1024,
      (iota .tc S1x1x1024 32 [2] iota_S1x1x1024_d2_w32 (ix3 (0 : Fin 1) (0 : Fin 1) k)
          = IntOp.minsi 1023#32 (IntOp.maxsi 0#32 (k0_pay5 (F := Ideal) i x1 (ix2 b r))))
        ↔ k = RowLoss.col (x1 (ix2 b r)) R := by
    intro k
    rw [iota_single_apply, pay5_apply, ← hR]
    show BitVec.ofNat 32 k.val = RowLoss.clipW (x1 (ix2 b r)) R ↔ _
    rw [ofNat_eq_iff _ _ (by have := k.isLt; omega), Fin.ext_iff, RowLoss.col_val]
  have h3 : k0_pay3 (F := Ideal) x2 (ix2 b r) = ((m.toNat : ℝ) : EReal) := by
    unfold k0_pay3
    rw [shapeCast_self]
    exact hm
  rw [lineLoss_apply, h3]
  simp only [hW, hcol]
  rw [RowLoss.sum_pick]
  rfl

/-- Row `r` of the block at grid point `i` is line 128·i₁ + r of its batch entry. -/
def lineOf (i : grid0.Coords) (r : Fin 128) : Fin 1024 :=
  ⟨128 * (i 1).val + r.val, by have h1 : (i 1).val < 8 := (i 1).isLt; have := r.isLt; omega⟩

/-- The point's update at the ideal values: the accumulator plus the block's lines' terms. `mk` is the block of
    validity bits whose float reading the third window stages. -/
theorem step_apply (i : grid0.Coords) (x0 : Vec Ideal S8x128x1024 .f32) (x1 : Vec Ideal S8x128 .i32)
    (x2 : Vec Ideal S8x128 .f32) (mk : Fin 8 → Fin 128 → BitVec 1)
    (hx2 : ∀ b r, x2 (ix2 b r) = (((mk b r).toNat : ℝ) : EReal))
    (acc : Vec Ideal S1x1 .f32) (y : S1x1.Idx) :
    Acc0.step (F := Ideal) i x0 x1 x2 acc y
      = acc y + ∑ b : Fin 8, ∑ r : Fin 128,
          RowLoss.term (fun k => x0 (ix3 b r k)) (x1 (ix2 b r)) (mk b r) (lineOf i r) := by
  unfold Acc0.step
  rw [pay1_eq, addf_apply, shapeCast_self, blockSum_apply]
  refine congrArg (acc y + ·) ?_
  refine Finset.sum_congr rfl fun b _ => Finset.sum_congr rfl fun r _ => ?_
  exact line_apply i x0 x1 x2 (mk b r) (lineOf i r) b r (hx2 b r) rfl

end Cert.KernelIdeal.Body0

end
-- ==== Proof.Sum0.lean ====
/-
  Region 0's result word at the ideal values is the direction's sum over all 64 × 1024 lines: the chain over the 64
  grid points adds each point's 8 × 128 block of line terms (Body0.step_apply), a point's blocks are the arrays read at
  (8·t₀ + b, 128·t₁ + r), and the 64 points' blocks are all the lines, each once (RowLoss.regroup).
-/
import proofs.«413489_j17179869184487_2_alg».proof.Proof.RowLoss
import proofs.«413489_j17179869184487_2_alg».proof.Proof.RowLossLaws
import proofs.«413489_j17179869184487_2_alg».proof.Proof.Acc0
import proofs.«413489_j17179869184487_2_alg».proof.Proof.Body0

noncomputable section

open Idealize.ShloMosaic Idealize.ShloMosaic.TcCoe Idealize.SL.Sem Idealize.ShloMosaic.ValueIdx

namespace Cert.KernelIdeal.Sum0

open Cert.KernelIdeal Cert.KernelIdeal.Gen

variable (V : (c : Dev nD) → (b : Ref sig .tc) → Buf (Elt Ideal) ((c : Thread nD τ).loc b))

/-! ## Where a point's blocks lie in the arrays -/

/-- Point `t` is (t / 8, t mod 8) on the 8 × 8 grid, and each input window's block index at `t` is that pair. -/
theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

theorem index_facts0 : ∀ t : Fin cfg0.N,
    win0_0.index t 0 = t.val / 8 ∧ win0_0.index t 1 = t.val % 8 ∧ win0_0.index t 2 = 0 :=
  (by decide +kernel : ∀ t : Fin grid0.N,
    win0_0.index t 0 = t.val / 8 ∧ win0_0.index t 1 = t.val % 8 ∧ win0_0.index t 2 = 0)

theorem index_facts1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)

theorem index_facts2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem lt64 (t : Fin cfg0.N) : t.val < 64 := lt_of_lt_of_eq t.isLt (N_0 : cfg0.N = 64)

/-- The batch entry of plane `b` of point `t`'s blocks, and the line of their row `r`. -/
def entryOf (t : Fin cfg0.N) (b : Fin 8) : Fin 64 :=
  ⟨8 * (t.val / 8) + b.val, by have := lt64 t; have := b.isLt; omega⟩
def rowOf (t : Fin cfg0.N) (r : Fin 128) : Fin 1024 :=
  ⟨128 * (t.val % 8) + r.val, by have := r.isLt; omega⟩

/-- The logits block at point `t` is the array read at (8·t₀ + b, 128·t₁ + r, k). -/
theorem blk0_apply (c : Dev nD) (t : Fin cfg0.N) (b : Fin 8) (r : Fin 128) (k : Fin 1024) :
    (iblk0 V c 0 t : Vec Ideal S8x128x1024 .f32) (ix3 b r k)
      = (V c main_arg0 : S64x1024x1024.Idx → EReal) (ix3 (entryOf t b) (rowOf t r) k) := by
  unfold iblk0
  rw [View.read_apply]
  show V c main_arg0 _ = V c main_arg0 _
  refine congrArg (V c main_arg0) (funext fun a => Fin.ext ?_)
  match a with
  | ⟨0, _⟩ => show win0_0.index t 0 * 8 + 1 * b.val = 8 * (t.val / 8) + b.val; rw [(index_facts0 t).1]; omega
  | ⟨1, _⟩ => show win0_0.index t 1 * 128 + 1 * r.val = 128 * (t.val % 8) + r.val; rw [(index_facts0 t).2.1]; omega
  | ⟨2, _⟩ => show win0_0.index t 2 * 1024 + 1 * k.val = k.val; rw [(index_facts0 t).2.2]; omega

/-- The labels block at point `t`. -/
theorem blk1_apply (c : Dev nD) (t : Fin cfg0.N) (b : Fin 8) (r : Fin 128) :
    (iblk0 V c 1 t : Vec Ideal S8x128 .i32) (ix2 b r)
      = (V c main_arg1 : S64x1024.Idx → BitVec 32) (ix2 (entryOf t b) (rowOf t r)) := by
  unfold iblk0
  rw [View.read_apply]
  show V c main_arg1 _ = V c main_arg1 _
  refine congrArg (V c main_arg1) (funext fun a => Fin.ext ?_)
  match a with
  | ⟨0, _⟩ => show win0_1.index t 0 * 8 + 1 * b.val = 8 * (t.val / 8) + b.val; rw [(index_facts1 t).1]; omega
  | ⟨1, _⟩ => show win0_1.index t 1 * 128 + 1 * r.val = 128 * (t.val % 8) + r.val; rw [(index_facts1 t).2]; omega

/-- The validity block at point `t`. -/
theorem blk2_apply (c : Dev nD) (t : Fin cfg0.N) (b : Fin 8) (r : Fin 128) :
    (iblk0 V c 2 t : Vec Ideal S8x128 .f32) (ix2 b r)
      = (V c main_v0 : S64x1024.Idx → EReal) (ix2 (entryOf t b) (rowOf t r)) := by
  unfold iblk0
  rw [View.read_apply]
  show V c main_v0 _ = V c main_v0 _
  refine congrArg (V c main_v0) (funext fun a => Fin.ext ?_)
  match a with
  | ⟨0, _⟩ => show win0_2.index t 0 * 8 + 1 * b.val = 8 * (t.val / 8) + b.val; rw [(index_facts2 t).1]; omega
  | ⟨1, _⟩ => show win0_2.index t 1 * 128 + 1 * r.val = 128 * (t.val % 8) + r.val; rw [(index_facts2 t).2]; omega

/-! ## One point, then the chain over the 64 points -/

/-- The sum of the line terms of point `t`'s 8 × 128 lines, read off the arrays. -/
def pointSum (c : Dev nD) (mk : S64x1024.Idx → BitVec 1) (t : Fin cfg0.N) : EReal :=
  ∑ b : Fin 8, ∑ r : Fin 128,
    RowLoss.term (fun k => (V c main_arg0 : S64x1024x1024.Idx → EReal) (ix3 (entryOf t b) (rowOf t r) k))
      ((V c main_arg1 : S64x1024.Idx → BitVec 32) (ix2 (entryOf t b) (rowOf t r)))
      (mk (ix2 (entryOf t b) (rowOf t r))) (rowOf t r)

/-- One point's update adds that point's sum to what the accumulator held. -/
theorem step_point (c : Dev nD) (mk : S64x1024.Idx → BitVec 1)
    (hV2 : ∀ j : S64x1024.Idx, (V c main_v0 : S64x1024.Idx → EReal) j = (((mk j).toNat : ℝ) : EReal))
    (t : Fin cfg0.N) (acc : Vec Ideal S1x1 .f32) (y : S1x1.Idx) :
    Acc0.step (F := Ideal) (grid0.coords t) (iblk0 V c 0 t) (iblk0 V c 1 t) (iblk0 V c 2 t) acc y
      = acc y + pointSum V c mk t := by
  have hx2 : ∀ b r, (iblk0 V c 2 t : Vec Ideal S8x128 .f32) (ix2 b r)
      = (((mk (ix2 (entryOf t b) (rowOf t r))).toNat : ℝ) : EReal) := fun b r => by rw [blk2_apply, hV2]
  refine (Body0.step_apply (grid0.coords t) (iblk0 V c 0 t) (iblk0 V c 1 t) (iblk0 V c 2 t)
    (fun b r => mk (ix2 (entryOf t b) (rowOf t r))) hx2 acc y).trans ?_
  unfold pointSum
  refine congrArg (acc y + ·) (Finset.sum_congr rfl fun b _ => Finset.sum_congr rfl fun r _ => ?_)
  have hl : Body0.lineOf (grid0.coords t) r = rowOf t r :=
    Fin.ext (by
      show 128 * ((grid0.coords t) 1).val + r.val = 128 * (t.val % 8) + r.val
      rw [(coords_facts t).2])
  have h0 : (fun k => (iblk0 V c 0 t : Vec Ideal S8x128x1024 .f32) (ix3 b r k))
      = fun k => (V c main_arg0 : S64x1024x1024.Idx → EReal) (ix3 (entryOf t b) (rowOf t r) k) :=
    funext fun k => blk0_apply V c t b r k
  rw [hl, blk1_apply, h0]

/-- After point `n` the accumulator holds the sum of the points' sums up to `n` (it starts from the stored zero). -/
theorem chain_eq (c : Dev nD) (mk : S64x1024.Idx → BitVec 1)
    (hV2 : ∀ j : S64x1024.Idx, (V c main_v0 : S64x1024.Idx → EReal) j = (((mk j).toNat : ℝ) : EReal)) (y : S1x1.Idx) :
    ∀ (n : ℕ) (h : n < cfg0.N), (Acc0.chain (F := Ideal) V c n h : S1x1.Idx → EReal) y
      = ∑ k ∈ Finset.range (n + 1), (if hk : k < cfg0.N then pointSum V c mk ⟨k, hk⟩ else 0)
  | 0, h => by
    have hz : (k0_pay2 (F := Ideal)) y = 0 := by
      unfold k0_pay2
      exact Ideal.ofBits_zero_f32
    rw [Acc0.chain, step_point V c mk hV2 ⟨0, h⟩, hz, zero_add, Finset.sum_range_one, dif_pos h]
  | n + 1, h => by
    rw [Acc0.chain, step_point V c mk hV2 ⟨n + 1, h⟩, chain_eq c mk hV2 y n (Nat.lt_of_succ_lt h),
      Finset.sum_range_succ _ (n + 1), dif_pos h]

/-- The chain after the last point is the direction's total, when the third window's array is the float reading of a
    field of validity bits `mk`. -/
theorem chain_total (c : Dev nD) (mk : S64x1024.Idx → BitVec 1)
    (hV2 : ∀ j : S64x1024.Idx, (V c main_v0 : S64x1024.Idx → EReal) j = (((mk j).toNat : ℝ) : EReal)) (y : S1x1.Idx) :
    (Acc0.chain (F := Ideal) V c 63 Acc0.lastLt : S1x1.Idx → EReal) y
      = RowLoss.total (fun B R k => (V c main_arg0 : S64x1024x1024.Idx → EReal) (ix3 B R k))
          (fun B R => (V c main_arg1 : S64x1024.Idx → BitVec 32) (ix2 B R)) (fun B R => mk (ix2 B R)) := by
  rw [chain_eq V c mk hV2 y 63 Acc0.lastLt, Finset.sum_range]
  unfold RowLoss.total
  rw [RowLoss.regroup]
  refine Finset.sum_congr rfl fun t _ => ?_
  rw [dif_pos (lt_of_lt_of_eq t.isLt (N_0 : cfg0.N = 64).symm)]
  rfl

end Cert.KernelIdeal.Sum0

end
-- ==== Proof.Body1.lean ====
/-
  One grid point of region 1 at the ideal values: the body's closing store adds to the accumulator the sum, over the
  block's 8 × 128 lines, of each line's loss term (RowLoss.term) — the block's row r being line 128·i₁ + r of its
  batch entry.
-/
import proofs.«413489_j17179869184487_2_alg».proof.Proof.RowLoss
import proofs.«413489_j17179869184487_2_alg».proof.Proof.RowLossLaws
import proofs.«413489_j17179869184487_2_alg».proof.Proof.Acc1
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Body1

open Cert.KernelIdeal Cert.KernelIdeal.Gen

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand's one entry of line `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand's one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand's one plane at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## The three reductions' inserted coordinate -/

theorem lift_row (h : S8x128x1024.Reduces [2] S8x128) (b : Fin 8) (r : Fin 128) (k : Fin 1024) :
    h.lift (ix2 b r) k = ix3 b r k := by
  funext c
  apply Fin.ext
  match c with
  | ⟨0, _⟩ => rfl
  | ⟨1, _⟩ => rfl
  | ⟨2, _⟩ => rfl

theorem lift_lines (h : S8x128.Reduces [1] S8) (b : Fin 8) (r : Fin 128) :
    h.lift (ix1 b) r = ix2 b r := by
  funext c
  apply Fin.ext
  match c with
  | ⟨0, _⟩ => rfl
  | ⟨1, _⟩ => rfl

theorem lift_planes (h : S8x1.Reduces [0] S1) (u : Fin 1) (b : Fin 8) :
    h.lift (ix1 u) b = ix2 b u := by
  funext c
  apply Fin.ext
  match c with
  | ⟨0, _⟩ => rfl
  | ⟨1, _⟩ => rfl

/-! ## Each reduction read at coordinates -/

/-- A row's sum. -/
theorem rowSum_apply (W : FVec Ideal S8x128x1024 .f32) (h : S8x128x1024.Reduces [2] S8x128) (hφ : FKind.Formats .f32)
    (hacc : (0x00000000#32 : BitVec 32) = FKind.add.neutral .f32 hφ) (b : Fin 8) (r : Fin 128) :
    multiReduction .add [2] S8x128 W 0x00000000#32 h hφ hacc (ix2 b r) = ∑ k : Fin 1024, W (ix3 b r k) := by
  refine (Ideal.multiReduction_add_single W 0x00000000#32 h hφ hacc (ix2 b r)).trans ?_
  exact Finset.sum_congr rfl fun k _ => congrArg W (lift_row h b r k)

/-- A row's maximum, folded from −∞. -/
theorem rowMax_apply (W : FVec Ideal S8x128x1024 .f32) (h : S8x128x1024.Reduces [2] S8x128) (hφ : FKind.Formats .f32)
    (hacc : (0xFF800000#32 : BitVec 32) = FKind.maximumf.neutral .f32 hφ) (b : Fin 8) (r : Fin 128) :
    multiReduction .maximumf [2] S8x128 W 0xFF800000#32 h hφ hacc (ix2 b r)
      = (Finset.univ : Finset (Fin 1024)).fold max (Ideal.ofBits .f32 0xFF800000#32) (fun k => W (ix3 b r k)) := by
  refine (Ideal.multiReduction_maximumf_single W 0xFF800000#32 h hφ hacc (ix2 b r)).trans ?_
  exact Finset.fold_congr fun k _ => congrArg W (lift_row h b r k)

/-- The block's sum: over the lines of a plane, then over the planes. -/
theorem linesSum_apply (L : FVec Ideal S8x128 .f32) (h : S8x128.Reduces [1] S8) (hφ : FKind.Formats .f32)
    (hacc : (0x00000000#32 : BitVec 32) = FKind.add.neutral .f32 hφ) (b : Fin 8) :
    multiReduction .add [1] S8 L 0x00000000#32 h hφ hacc (ix1 b) = ∑ r : Fin 128, L (ix2 b r) := by
  refine (Ideal.multiReduction_add_single L 0x00000000#32 h hφ hacc (ix1 b)).trans ?_
  exact Finset.sum_congr rfl fun r _ => congrArg L (lift_lines h b r)

theorem planesSum_apply (P : FVec Ideal S8x1 .f32) (h : S8x1.Reduces [0] S1) (hφ : FKind.Formats .f32)
    (hacc : (0x00000000#32 : BitVec 32) = FKind.add.neutral .f32 hφ) (u : Fin 1) :
    multiReduction .add [0] S1 P 0x00000000#32 h hφ hacc (ix1 u) = ∑ b : Fin 8, P (ix2 b u) := by
  refine (Ideal.multiReduction_add_single P 0x00000000#32 h hφ hacc (ix1 u)).trans ?_
  exact Finset.sum_congr rfl fun b _ => congrArg P (lift_planes h u b)

/-! ## Facts about words and the two float literals of the test -/

/-- The product of two zero-extended bits is positive exactly when both bits are set. -/
theorem sgt_mul_bits (a b : BitVec 1) :
    IntOp.cmpi .sgt (IntOp.muli (a.setWidth 32) (b.setWidth 32)) 0#32 = 1#1 ↔ a = 1#1 ∧ b = 1#1 := by
  revert a b; decide

/-- The literal against which validity is tested is one half. -/
theorem half_eq : Ideal.ofBits .f32 0x3F000000#32 = (((1 / 2 : ℝ)) : EReal) := by
  simp [Ideal.ofBits, Ideal.ieee]
  rw [← EReal.coe_mul]
  exact congrArg Real.toEReal (by norm_num)

/-- The ordered "greater than" is set exactly when its second operand is below its first. -/
theorem cmp_ogt_eq_one (x y : EReal) : Ideal.cmp .ogt x y = 1#1 ↔ y < x := by
  unfold Ideal.cmp
  by_cases h : y < x <;> simp [h]

/-- A bit read as the real 0 or 1 exceeds one half exactly when it is set. -/
theorem ogt_half (m : BitVec 1) :
    Ideal.cmp .ogt (((m.toNat : ℝ)) : EReal) (Ideal.ofBits .f32 0x3F000000#32) = 1#1 ↔ m = 1#1 := by
  rw [cmp_ogt_eq_one, half_eq]
  rcases BitVec.eq_zero_or_eq_one m with h | h <;> subst h
  · constructor
    · intro h
      exfalso
      have h' : (((1 / 2 : ℝ)) : EReal) < (((0 : ℕ) : ℝ) : EReal) := h
      rw [EReal.coe_lt_coe_iff] at h'
      norm_num at h'
    · intro h; exact absurd h (by decide)
  · constructor
    · intro _; rfl
    · intro _
      show (((1 / 2 : ℝ)) : EReal) < (((1 : ℕ) : ℝ) : EReal)
      rw [EReal.coe_lt_coe_iff]
      norm_num

/-- Two words of naturals below 2³² are equal exactly when the naturals are. -/
theorem ofNat_eq_ofNat (a b : ℕ) (ha : a < 4294967296) (hb : b < 4294967296) :
    BitVec.ofNat 32 a = BitVec.ofNat 32 b ↔ a = b := by
  constructor
  · intro h
    have := congrArg BitVec.toNat h
    rw [BitVec.toNat_ofNat, BitVec.toNat_ofNat] at this
    omega
  · intro h; rw [h]

/-- A word is that of a natural below 2³² exactly when the natural is the word's value. -/
theorem ofNat_eq_iff (a : ℕ) (w : BitVec 32) (ha : a < 4294967296) :
    BitVec.ofNat 32 a = w ↔ a = w.toNat := by
  constructor
  · intro h
    have := congrArg BitVec.toNat h
    rw [BitVec.toNat_ofNat] at this
    omega
  · intro h; rw [h, BitVec.ofNat_toNat, BitVec.setWidth_eq]

/-- The word the body computes for a line's own position: grid coordinate × 128 + the row inside the block. -/
theorem line_word (i1 r : ℕ) (h1 : i1 < 8) (hr : r < 128) :
    IntOp.addi (Scalar.muli (BitVec.ofNat 32 i1) 128#32) (BitVec.ofNat 32 r) = BitVec.ofNat 32 (128 * i1 + r) := by
  apply BitVec.eq_of_toNat_eq
  show ((BitVec.ofNat 32 i1 * 128#32) + BitVec.ofNat 32 r).toNat = _
  rw [BitVec.toNat_add, BitVec.toNat_mul, BitVec.toNat_ofNat, BitVec.toNat_ofNat, BitVec.toNat_ofNat]
  show (i1 % 4294967296 * 128 % 4294967296 + r % 4294967296) % 4294967296 = (128 * i1 + r) % 4294967296
  omega

/-! ## Integer and transcendental operations are pointwise -/

section Pointwise
variable {s : Shape} {w : ℕ}
theorem cmpi_apply (p : CmpIPredicate) (x y : IVec s w) (j : s.Idx) : cmpi p x y j = IntOp.cmpi p (x j) (y j) := rfl
theorem muli_apply (x y : IVec s w) (j : s.Idx) : muli x y j = IntOp.muli (x j) (y j) := rfl
theorem addi_apply (x y : IVec s w) (j : s.Idx) : addi x y j = IntOp.addi (x j) (y j) := rfl
theorem andi_apply (x y : IVec s w) (j : s.Idx) : andi x y j = IntOp.andi (x j) (y j) := rfl
theorem maxsi_apply (x y : IVec s w) (j : s.Idx) : maxsi x y j = IntOp.maxsi (x j) (y j) := rfl
theorem minsi_apply (x y : IVec s w) (j : s.Idx) : minsi x y j = IntOp.minsi (x j) (y j) := rfl
theorem exp_apply {φ : FTy} (x : FVec Ideal s φ) (j : s.Idx) : exp x j = Ideal.exp (x j) := rfl
theorem log_apply {φ : FTy} (x : FVec Ideal s φ) (j : s.Idx) : log x j = Ideal.log (x j) := rfl
end Pointwise

/-! ## The body's earlier values at coordinates -/

/-- The value written over a diagonal entry: the row's maximum plus one. -/
theorem pay7_apply (x0 : Vec Ideal S8x128x1024 .f32) (b : Fin 8) (r : Fin 128) (u : Fin 1) :
    k1_pay7 (F := Ideal) x0 (ix3 b r u) = RowLoss.rmax (fun k => x0 (ix3 b r k)) + RowLoss.one := by
  unfold k1_pay7
  dsimp only
  rw [shapeCast_self, shapeCast_ab_ab1_apply, addf_apply, broadcast_apply]
  exact congrArg (· + Ideal.ofBits .f32 0x3F800000#32) (rowMax_apply x0 _ _ _ b r)

/-- The relabelled label: −1 becomes the word of the line's own position. -/
theorem pay5_apply (i : grid1.Coords) (x1 : Vec Ideal S8x128 .i32) (b : Fin 8) (r : Fin 128) :
    k1_pay5 (F := Ideal) i x1 (ix2 b r)
      = if x1 (ix2 b r) = 4294967295#32 then BitVec.ofNat 32 (128 * (i 1).val + r.val) else x1 (ix2 b r) := by
  have h1 : (i 1).val < 8 := (i 1).isLt
  unfold k1_pay5 k1_pay4
  dsimp only
  rw [select_apply, broadcastTo_1b_ab_apply, shapeCast_self, cmpi_apply, broadcast_apply, addi_apply, broadcast_apply,
    iota_single_apply]
  show (if IntOp.cmpi .eq (x1 (ix2 b r)) 4294967295#32 = 1#1
      then IntOp.addi (Scalar.muli (BitVec.ofNat 32 (i 1).val) 128#32) (BitVec.ofNat 32 r.val) else x1 (ix2 b r)) = _
  rw [line_word (i 1).val r.val h1 r.isLt]
  exact if_congr IntOp.cmpi_eq rfl rfl

/-- The overwrite condition: the label is −1, the line is valid, and the column is the line's own position. -/
theorem pay6_apply (i : grid1.Coords) (x1 : Vec Ideal S8x128 .i32) (x2 : Vec Ideal S8x128 .f32) (m : BitVec 1)
    (b : Fin 8) (r : Fin 128) (k : Fin 1024) (hm : x2 (ix2 b r) = ((m.toNat : ℝ) : EReal)) :
    k1_pay6 (F := Ideal) i x1 x2 (ix3 b r k) = 1#1
      ↔ (x1 (ix2 b r) = 4294967295#32 ∧ m = 1#1 ∧ k.val = 128 * (i 1).val + r.val) := by
  have h1 : (i 1).val < 8 := (i 1).isLt
  have hr := r.isLt
  have hk := k.isLt
  unfold k1_pay6 k1_pay4 k1_pay3
  dsimp only
  rw [cmpi_apply, broadcast_apply, muli_apply, broadcastTo_ab1_abc_apply, shapeCast_ab_ab1_apply, extui_apply,
    andi_apply, cmpi_apply, broadcast_apply, cmpf_apply, shapeCast_self, broadcast_apply, hm,
    broadcastTo_1bc_abc_apply, extui_apply, cmpi_apply, broadcastTo_11c_abc_apply, broadcastTo_ab1_abc_apply,
    iota_single_apply, addi_apply, broadcast_apply, iota_single_apply]
  rw [sgt_mul_bits, IntOp.andi_eq_one, IntOp.cmpi_eq, IntOp.cmpi_eq]
  show (_ ∧ Ideal.cmp .ogt (((m.toNat : ℝ)) : EReal) (Ideal.ofBits .f32 0x3F000000#32) = 1#1)
      ∧ BitVec.ofNat 32 k.val = IntOp.addi (Scalar.muli (BitVec.ofNat 32 (i 1).val) 128#32) (BitVec.ofNat 32 r.val) ↔ _
  rw [ogt_half, line_word (i 1).val r.val h1 hr, ofNat_eq_ofNat _ _ (by omega) (by omega), and_assoc]

/-! ## The closing payload in stages: the block's line losses, and their sum -/

/-- A row's maximum as the body takes it: the fold of `max` from −∞ along the last axis. -/
def rowMaxV (W : FVec Ideal S8x128x1024 .f32) : FVec Ideal S8x128 .f32 :=
  multiReduction .maximumf [2] S8x128 W 0xFF800000#32 reduces_S8x128x1024_S8x128 (.inl rfl) rfl

/-- Per line, the sum over the row of the exponentials of the entries' differences from the row's maximum. -/
def expSum (W : FVec Ideal S8x128x1024 .f32) : FVec Ideal S8x128 .f32 :=
  multiReduction .add [2] S8x128
    (exp (subf W (broadcastTo S8x128x1024 (shapeCast S8x128x1 (rowMaxV W) shapeCasts_S8x128_S8x128x1)
      broadcasts_S8x128x1_S8x128x1024)))
    0x00000000#32 reduces_S8x128x1024_S8x128 (.inl rfl) rfl

/-- Per line, the row's entry at the clipped label, picked by a sum that keeps the one column whose number is the
    label clipped to [0, 1023] and puts zero elsewhere. -/
def pick (W : FVec Ideal S8x128x1024 .f32) (v17 : IVec S8x128 32) (v22 : IVec S1x1x1024 32) : FVec Ideal S8x128 .f32 :=
  multiReduction .add [2] S8x128
    (select
      (cmpi .eq (broadcastTo S8x128x1024 v22 broadcasts_S1x1x1024_S8x128x1024)
        (broadcastTo S8x128x1024
          (shapeCast S8x128x1 (minsi (broadcast S8x128 1023#32) (maxsi (broadcast S8x128 0#32) v17))
            shapeCasts_S8x128_S8x128x1)
          broadcasts_S8x128x1_S8x128x1024))
      W (broadcast S8x128x1024 (Scalar.ofBits (F := Ideal) .f32 0x00000000#32)))
    0x00000000#32 reduces_S8x128x1024_S8x128 (.inl rfl) rfl

/-- The block's 8 × 128 line losses, from the overwritten rows `W`, the relabelled labels `v17`, the column numbers
    `v22` and the validity floats `v8`: (row maximum + log of the sum of exponentials) − (the picked entry), times
    the validity. -/
def lineLoss (W : FVec Ideal S8x128x1024 .f32) (v17 : IVec S8x128 32) (v22 : IVec S1x1x1024 32)
    (v8 : FVec Ideal S8x128 .f32) : FVec Ideal S8x128 .f32 :=
  mulf (subf (addf (rowMaxV W) (log (expSum W))) (pick W v17 v22)) v8

/-- A block of line losses summed into the one result word: over the lines of each plane, then over the planes. -/
def blockSum (L : FVec Ideal S8x128 .f32) : FVec Ideal S1x1 .f32 :=
  shapeCast S1x1
    (multiReduction .add [0] S1
      (shapeCast S8x1 (multiReduction .add [1] S8 L 0x00000000#32 reduces_S8x128_S8 (.inl rfl) rfl) shapeCasts_S8_S8x1)
      0x00000000#32 reduces_S8x1_S1 (.inl rfl) rfl)
    shapeCasts_S1_S1x1

/-- The closing payload is the accumulator plus the sum of the block's line losses. -/
theorem pay1_eq (v8 : FVec Ideal S8x128 .f32) (v9 : Vec Ideal S8x128x1024 .f32) (v17 : IVec S8x128 32)
    (v22 : IVec S1x1x1024 32) (v36 : IVec S8x128x1024 1) (v40 : FVec Ideal S8x128x1 .f32) (v68 : Vec Ideal S1x1 .f32) :
    k1_pay1 (F := Ideal) v8 v9 v17 v22 v36 v40 v68
      = addf (shapeCast S1x1 v68 shapeCasts_S1x1_S1x1)
          (blockSum (lineLoss (select v36 (broadcastTo S8x128x1024 v40 broadcasts_S8x128x1_S8x128x1024) v9) v17 v22 v8)) :=
  rfl

/-- The block's sum at the one result index. -/
theorem blockSum_apply (L : FVec Ideal S8x128 .f32) (y : S1x1.Idx) :
    blockSum L y = ∑ b : Fin 8, ∑ r : Fin 128, L (ix2 b r) := by
  obtain ⟨u, v, rfl⟩ : ∃ (u : Fin 1) (v : Fin 1), y = ix2 u v := ⟨y 0, y 1, eq_ix2 y⟩
  unfold blockSum
  refine (shapeCast_a_1a_apply _ _ u v).trans ?_
  refine (planesSum_apply _ _ _ _ v).trans ?_
  refine Finset.sum_congr rfl fun b _ => ?_
  refine (shapeCast_a_a1_apply _ _ b v).trans ?_
  exact linesSum_apply L _ _ _ b

theorem rowMaxV_apply (W : FVec Ideal S8x128x1024 .f32) (b : Fin 8) (r : Fin 128) :
    rowMaxV W (ix2 b r) = RowLoss.rmax (fun k => W (ix3 b r k)) := rowMax_apply W _ _ _ b r

theorem expSum_apply (W : FVec Ideal S8x128x1024 .f32) (b : Fin 8) (r : Fin 128) :
    expSum W (ix2 b r) = ∑ k : Fin 1024, Ideal.exp (W (ix3 b r k) - RowLoss.rmax (fun k => W (ix3 b r k))) := by
  unfold expSum
  refine (rowSum_apply _ _ _ _ b r).trans ?_
  refine Finset.sum_congr rfl fun k _ => ?_
  rw [exp_apply, subf_apply, broadcastTo_ab1_abc_apply, shapeCast_ab_ab1_apply, rowMaxV_apply]

theorem pick_apply (W : FVec Ideal S8x128x1024 .f32) (v17 : IVec S8x128 32) (v22 : IVec S1x1x1024 32)
    (b : Fin 8) (r : Fin 128) :
    pick W v17 v22 (ix2 b r)
      = ∑ k : Fin 1024, (if v22 (ix3 (0 : Fin 1) (0 : Fin 1) k) = IntOp.minsi 1023#32 (IntOp.maxsi 0#32 (v17 (ix2 b r)))
          then W (ix3 b r k) else RowLoss.zero) := by
  unfold pick
  refine (rowSum_apply _ _ _ _ b r).trans ?_
  refine Finset.sum_congr rfl fun k _ => ?_
  rw [select_apply, cmpi_apply, broadcastTo_11c_abc_apply, broadcastTo_ab1_abc_apply, shapeCast_ab_ab1_apply,
    minsi_apply, maxsi_apply, broadcast_apply, broadcast_apply, broadcast_apply]
  exact if_congr IntOp.cmpi_eq rfl rfl

/-- One line's loss at coordinates, over the overwritten row. -/
theorem lineLoss_apply (W : FVec Ideal S8x128x1024 .f32) (v17 : IVec S8x128 32) (v22 : IVec S1x1x1024 32)
    (v8 : FVec Ideal S8x128 .f32) (b : Fin 8) (r : Fin 128) :
    lineLoss W v17 v22 v8 (ix2 b r)
      = ((RowLoss.rmax (fun k => W (ix3 b r k))
            + Ideal.log (∑ k : Fin 1024, Ideal.exp (W (ix3 b r k) - RowLoss.rmax (fun k => W (ix3 b r k)))))
          - ∑ k : Fin 1024, (if v22 (ix3 (0 : Fin 1) (0 : Fin 1) k) = IntOp.minsi 1023#32 (IntOp.maxsi 0#32 (v17 (ix2 b r)))
              then W (ix3 b r k) else RowLoss.zero))
        * v8 (ix2 b r) := by
  unfold lineLoss
  rw [mulf_apply, subf_apply, addf_apply, log_apply, rowMaxV_apply, expSum_apply, pick_apply]

/-! ## One line of the block is the specification's term -/

/-- The overwritten row of line (b, r) is the specification's: the diagonal entry replaced by (row maximum + 1) exactly
    when the label is −1 and the line is valid. -/
theorem overwritten_apply (i : grid1.Coords) (x0 : Vec Ideal S8x128x1024 .f32) (x1 : Vec Ideal S8x128 .i32)
    (x2 : Vec Ideal S8x128 .f32) (m : BitVec 1) (R : Fin 1024) (b : Fin 8) (r : Fin 128) (k : Fin 1024)
    (hm : x2 (ix2 b r) = ((m.toNat : ℝ) : EReal)) (hR : R.val = 128 * (i 1).val + r.val) :
    select (k1_pay6 (F := Ideal) i x1 x2)
        (broadcastTo S8x128x1024 (k1_pay7 (F := Ideal) x0) broadcasts_S8x128x1_S8x128x1024) x0 (ix3 b r k)
      = RowLoss.adj (fun k => x0 (ix3 b r k)) (x1 (ix2 b r)) m R k := by
  rw [select_apply, broadcastTo_ab1_abc_apply, pay7_apply]
  unfold RowLoss.adj Scalar.select
  refine if_congr ((pay6_apply i x1 x2 m b r k hm).trans ?_) rfl rfl
  rw [Fin.ext_iff, hR]

/-- One line's loss is the specification's term of that line. -/
theorem line_apply (i : grid1.Coords) (x0 : Vec Ideal S8x128x1024 .f32) (x1 : Vec Ideal S8x128 .i32)
    (x2 : Vec Ideal S8x128 .f32) (m : BitVec 1) (R : Fin 1024) (b : Fin 8) (r : Fin 128)
    (hm : x2 (ix2 b r) = ((m.toNat : ℝ) : EReal)) (hR : R.val = 128 * (i 1).val + r.val) :
    lineLoss
        (select (k1_pay6 (F := Ideal) i x1 x2)
          (broadcastTo S8x128x1024 (k1_pay7 (F := Ideal) x0) broadcasts_S8x128x1_S8x128x1024) x0)
        (k1_pay5 (F := Ideal) i x1) (iota .tc S1x1x1024 32 [2] iota_S1x1x1024_d2_w32) (k1_pay3 (F := Ideal) x2) (ix2 b r)
      = RowLoss.term (fun k => x0 (ix3 b r k)) (x1 (ix2 b r)) m R := by
  have hW := fun k => overwritten_apply i x0 x1 x2 m R b r k hm hR
  have hcol : ∀ k : Fin 1024,
      (iota .tc S1x1x1024 32 [2] iota_S1x1x1024_d2_w32 (ix3 (0 : Fin 1) (0 : Fin 1) k)
          = IntOp.minsi 1023#32 (IntOp.maxsi 0#32 (k1_pay5 (F := Ideal) i x1 (ix2 b r))))
        ↔ k = RowLoss.col (x1 (ix2 b r)) R := by
    intro k
    rw [iota_single_apply, pay5_apply, ← hR]
    show BitVec.ofNat 32 k.val = RowLoss.clipW (x1 (ix2 b r)) R ↔ _
    rw [ofNat_eq_iff _ _ (by have := k.isLt; omega), Fin.ext_iff, RowLoss.col_val]
  have h3 : k1_pay3 (F := Ideal) x2 (ix2 b r) = ((m.toNat : ℝ) : EReal) := by
    unfold k1_pay3
    rw [shapeCast_self]
    exact hm
  rw [lineLoss_apply, h3]
  simp only [hW, hcol]
  rw [RowLoss.sum_pick]
  rfl

/-- Row `r` of the block at grid point `i` is line 128·i₁ + r of its batch entry. -/
def lineOf (i : grid1.Coords) (r : Fin 128) : Fin 1024 :=
  ⟨128 * (i 1).val + r.val, by have h1 : (i 1).val < 8 := (i 1).isLt; have := r.isLt; omega⟩

/-- The point's update at the ideal values: the accumulator plus the block's lines' terms. `mk` is the block of
    validity bits whose float reading the third window stages. -/
theorem step_apply (i : grid1.Coords) (x0 : Vec Ideal S8x128x1024 .f32) (x1 : Vec Ideal S8x128 .i32)
    (x2 : Vec Ideal S8x128 .f32) (mk : Fin 8 → Fin 128 → BitVec 1)
    (hx2 : ∀ b r, x2 (ix2 b r) = (((mk b r).toNat : ℝ) : EReal))
    (acc : Vec Ideal S1x1 .f32) (y : S1x1.Idx) :
    Acc1.step (F := Ideal) i x0 x1 x2 acc y
      = acc y + ∑ b : Fin 8, ∑ r : Fin 128,
          RowLoss.term (fun k => x0 (ix3 b r k)) (x1 (ix2 b r)) (mk b r) (lineOf i r) := by
  unfold Acc1.step
  rw [pay1_eq, addf_apply, shapeCast_self, blockSum_apply]
  refine congrArg (acc y + ·) ?_
  refine Finset.sum_congr rfl fun b _ => Finset.sum_congr rfl fun r _ => ?_
  exact line_apply i x0 x1 x2 (mk b r) (lineOf i r) b r (hx2 b r) rfl

end Cert.KernelIdeal.Body1

end
-- ==== Proof.Sum1.lean ====
/-
  Region 1's result word at the ideal values is the direction's sum over all 64 × 1024 lines: the chain over the 64
  grid points adds each point's 8 × 128 block of line terms (Body1.step_apply), a point's blocks are the arrays read at
  (8·t₀ + b, 128·t₁ + r), and the 64 points' blocks are all the lines, each once (RowLoss.regroup).
-/
import proofs.«413489_j17179869184487_2_alg».proof.Proof.RowLoss
import proofs.«413489_j17179869184487_2_alg».proof.Proof.RowLossLaws
import proofs.«413489_j17179869184487_2_alg».proof.Proof.Acc1
import proofs.«413489_j17179869184487_2_alg».proof.Proof.Body1

noncomputable section

open Idealize.ShloMosaic Idealize.ShloMosaic.TcCoe Idealize.SL.Sem Idealize.ShloMosaic.ValueIdx

namespace Cert.KernelIdeal.Sum1

open Cert.KernelIdeal Cert.KernelIdeal.Gen

variable (V : (c : Dev nD) → (b : Ref sig .tc) → Buf (Elt Ideal) ((c : Thread nD τ).loc b))

/-! ## Where a point's blocks lie in the arrays -/

/-- Point `t` is (t / 8, t mod 8) on the 8 × 8 grid, and each input window's block index at `t` is that pair. -/
theorem coords_facts : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

theorem index_facts0 : ∀ t : Fin cfg1.N,
    win1_0.index t 0 = t.val / 8 ∧ win1_0.index t 1 = t.val % 8 ∧ win1_0.index t 2 = 0 :=
  (by decide +kernel : ∀ t : Fin grid1.N,
    win1_0.index t 0 = t.val / 8 ∧ win1_0.index t 1 = t.val % 8 ∧ win1_0.index t 2 = 0)

theorem index_facts1 : ∀ t : Fin cfg1.N, win1_1.index t 0 = t.val / 8 ∧ win1_1.index t 1 = t.val % 8 :=
  (by decide +kernel : ∀ t : Fin grid1.N, win1_1.index t 0 = t.val / 8 ∧ win1_1.index t 1 = t.val % 8)

theorem index_facts2 : ∀ t : Fin cfg1.N, win1_2.index t 0 = t.val / 8 ∧ win1_2.index t 1 = t.val % 8 :=
  (by decide +kernel : ∀ t : Fin grid1.N, win1_2.index t 0 = t.val / 8 ∧ win1_2.index t 1 = t.val % 8)

theorem lt64 (t : Fin cfg1.N) : t.val < 64 := lt_of_lt_of_eq t.isLt (N_1 : cfg1.N = 64)

/-- The batch entry of plane `b` of point `t`'s blocks, and the line of their row `r`. -/
def entryOf (t : Fin cfg1.N) (b : Fin 8) : Fin 64 :=
  ⟨8 * (t.val / 8) + b.val, by have := lt64 t; have := b.isLt; omega⟩
def rowOf (t : Fin cfg1.N) (r : Fin 128) : Fin 1024 :=
  ⟨128 * (t.val % 8) + r.val, by have := r.isLt; omega⟩

/-- The logits block at point `t` is the array read at (8·t₀ + b, 128·t₁ + r, k). -/
theorem blk0_apply (c : Dev nD) (t : Fin cfg1.N) (b : Fin 8) (r : Fin 128) (k : Fin 1024) :
    (iblk1 V c 0 t : Vec Ideal S8x128x1024 .f32) (ix3 b r k)
      = (V c main_arg2 : S64x1024x1024.Idx → EReal) (ix3 (entryOf t b) (rowOf t r) k) := by
  unfold iblk1
  rw [View.read_apply]
  show V c main_arg2 _ = V c main_arg2 _
  refine congrArg (V c main_arg2) (funext fun a => Fin.ext ?_)
  match a with
  | ⟨0, _⟩ => show win1_0.index t 0 * 8 + 1 * b.val = 8 * (t.val / 8) + b.val; rw [(index_facts0 t).1]; omega
  | ⟨1, _⟩ => show win1_0.index t 1 * 128 + 1 * r.val = 128 * (t.val % 8) + r.val; rw [(index_facts0 t).2.1]; omega
  | ⟨2, _⟩ => show win1_0.index t 2 * 1024 + 1 * k.val = k.val; rw [(index_facts0 t).2.2]; omega

/-- The labels block at point `t`. -/
theorem blk1_apply (c : Dev nD) (t : Fin cfg1.N) (b : Fin 8) (r : Fin 128) :
    (iblk1 V c 1 t : Vec Ideal S8x128 .i32) (ix2 b r)
      = (V c main_arg3 : S64x1024.Idx → BitVec 32) (ix2 (entryOf t b) (rowOf t r)) := by
  unfold iblk1
  rw [View.read_apply]
  show V c main_arg3 _ = V c main_arg3 _
  refine congrArg (V c main_arg3) (funext fun a => Fin.ext ?_)
  match a with
  | ⟨0, _⟩ => show win1_1.index t 0 * 8 + 1 * b.val = 8 * (t.val / 8) + b.val; rw [(index_facts1 t).1]; omega
  | ⟨1, _⟩ => show win1_1.index t 1 * 128 + 1 * r.val = 128 * (t.val % 8) + r.val; rw [(index_facts1 t).2]; omega

/-- The validity block at point `t`. -/
theorem blk2_apply (c : Dev nD) (t : Fin cfg1.N) (b : Fin 8) (r : Fin 128) :
    (iblk1 V c 2 t : Vec Ideal S8x128 .f32) (ix2 b r)
      = (V c main_v0 : S64x1024.Idx → EReal) (ix2 (entryOf t b) (rowOf t r)) := by
  unfold iblk1
  rw [View.read_apply]
  show V c main_v0 _ = V c main_v0 _
  refine congrArg (V c main_v0) (funext fun a => Fin.ext ?_)
  match a with
  | ⟨0, _⟩ => show win1_2.index t 0 * 8 + 1 * b.val = 8 * (t.val / 8) + b.val; rw [(index_facts2 t).1]; omega
  | ⟨1, _⟩ => show win1_2.index t 1 * 128 + 1 * r.val = 128 * (t.val % 8) + r.val; rw [(index_facts2 t).2]; omega

/-! ## One point, then the chain over the 64 points -/

/-- The sum of the line terms of point `t`'s 8 × 128 lines, read off the arrays. -/
def pointSum (c : Dev nD) (mk : S64x1024.Idx → BitVec 1) (t : Fin cfg1.N) : EReal :=
  ∑ b : Fin 8, ∑ r : Fin 128,
    RowLoss.term (fun k => (V c main_arg2 : S64x1024x1024.Idx → EReal) (ix3 (entryOf t b) (rowOf t r) k))
      ((V c main_arg3 : S64x1024.Idx → BitVec 32) (ix2 (entryOf t b) (rowOf t r)))
      (mk (ix2 (entryOf t b) (rowOf t r))) (rowOf t r)

/-- One point's update adds that point's sum to what the accumulator held. -/
theorem step_point (c : Dev nD) (mk : S64x1024.Idx → BitVec 1)
    (hV2 : ∀ j : S64x1024.Idx, (V c main_v0 : S64x1024.Idx → EReal) j = (((mk j).toNat : ℝ) : EReal))
    (t : Fin cfg1.N) (acc : Vec Ideal S1x1 .f32) (y : S1x1.Idx) :
    Acc1.step (F := Ideal) (grid1.coords t) (iblk1 V c 0 t) (iblk1 V c 1 t) (iblk1 V c 2 t) acc y
      = acc y + pointSum V c mk t := by
  have hx2 : ∀ b r, (iblk1 V c 2 t : Vec Ideal S8x128 .f32) (ix2 b r)
      = (((mk (ix2 (entryOf t b) (rowOf t r))).toNat : ℝ) : EReal) := fun b r => by rw [blk2_apply, hV2]
  refine (Body1.step_apply (grid1.coords t) (iblk1 V c 0 t) (iblk1 V c 1 t) (iblk1 V c 2 t)
    (fun b r => mk (ix2 (entryOf t b) (rowOf t r))) hx2 acc y).trans ?_
  unfold pointSum
  refine congrArg (acc y + ·) (Finset.sum_congr rfl fun b _ => Finset.sum_congr rfl fun r _ => ?_)
  have hl : Body1.lineOf (grid1.coords t) r = rowOf t r :=
    Fin.ext (by
      show 128 * ((grid1.coords t) 1).val + r.val = 128 * (t.val % 8) + r.val
      rw [(coords_facts t).2])
  have h0 : (fun k => (iblk1 V c 0 t : Vec Ideal S8x128x1024 .f32) (ix3 b r k))
      = fun k => (V c main_arg2 : S64x1024x1024.Idx → EReal) (ix3 (entryOf t b) (rowOf t r) k) :=
    funext fun k => blk0_apply V c t b r k
  rw [hl, blk1_apply, h0]

/-- After point `n` the accumulator holds the sum of the points' sums up to `n` (it starts from the stored zero). -/
theorem chain_eq (c : Dev nD) (mk : S64x1024.Idx → BitVec 1)
    (hV2 : ∀ j : S64x1024.Idx, (V c main_v0 : S64x1024.Idx → EReal) j = (((mk j).toNat : ℝ) : EReal)) (y : S1x1.Idx) :
    ∀ (n : ℕ) (h : n < cfg1.N), (Acc1.chain (F := Ideal) V c n h : S1x1.Idx → EReal) y
      = ∑ k ∈ Finset.range (n + 1), (if hk : k < cfg1.N then pointSum V c mk ⟨k, hk⟩ else 0)
  | 0, h => by
    have hz : (k1_pay2 (F := Ideal)) y = 0 := by
      unfold k1_pay2
      exact Ideal.ofBits_zero_f32
    rw [Acc1.chain, step_point V c mk hV2 ⟨0, h⟩, hz, zero_add, Finset.sum_range_one, dif_pos h]
  | n + 1, h => by
    rw [Acc1.chain, step_point V c mk hV2 ⟨n + 1, h⟩, chain_eq c mk hV2 y n (Nat.lt_of_succ_lt h),
      Finset.sum_range_succ _ (n + 1), dif_pos h]

/-- The chain after the last point is the direction's total, when the third window's array is the float reading of a
    field of validity bits `mk`. -/
theorem chain_total (c : Dev nD) (mk : S64x1024.Idx → BitVec 1)
    (hV2 : ∀ j : S64x1024.Idx, (V c main_v0 : S64x1024.Idx → EReal) j = (((mk j).toNat : ℝ) : EReal)) (y : S1x1.Idx) :
    (Acc1.chain (F := Ideal) V c 63 Acc1.lastLt : S1x1.Idx → EReal) y
      = RowLoss.total (fun B R k => (V c main_arg2 : S64x1024x1024.Idx → EReal) (ix3 B R k))
          (fun B R => (V c main_arg3 : S64x1024.Idx → BitVec 32) (ix2 B R)) (fun B R => mk (ix2 B R)) := by
  rw [chain_eq V c mk hV2 y 63 Acc1.lastLt, Finset.sum_range]
  unfold RowLoss.total
  rw [RowLoss.regroup]
  refine Finset.sum_congr rfl fun t _ => ?_
  rw [dif_pos (lt_of_lt_of_eq t.isLt (N_1 : cfg1.N = 64).symm)]
  rfl

end Cert.KernelIdeal.Sum1

end
-- ==== Proof.KTotal.lean ====
/-
  The kernel program's two per-direction results at the ideal values, as the directions' totals of line terms.

  Each launch leaves one word: its accumulator chain's last value, which at the ideal values is the sum of the line
  terms over all 64 × 1024 lines of the arrays the launch read. Those arrays are, at the launch's entry, the launched
  logits and labels of its direction and the launched validity bits read as the reals 0 and 1. The host then copies the
  word as a scalar and divides it by the denominator. So each direction's loss, at its one index, is the direction's
  total over the launched arrays divided by the denominator there.
-/
import proofs.«413489_j17179869184487_2_alg».proof.Proof.RowLoss
import proofs.«413489_j17179869184487_2_alg».proof.Proof.Tail
import proofs.«413489_j17179869184487_2_alg».proof.Proof.Sum0
import proofs.«413489_j17179869184487_2_alg».proof.Proof.Sum1

noncomputable section

open Idealize.ShloMosaic Idealize.ShloMosaic.TcCoe Idealize.SL.Sem Idealize.ShloMosaic.ValueIdx
open Idealize.ShloMosaic.Pipeline (Dat)

namespace Cert.KernelIdeal.KTotal

open Cert.KernelIdeal Cert.KernelIdeal.Gen

variable (m : (ℓ : Loc nD τ sig) → Buf (Elt Ideal) ℓ) (ρ : Dev nD → PrngReg) (c : Dev nD) (i : S_.Idx)

/-- The validity bits as launched, as a field over the 64 × 1024 lines. -/
abbrev bits : S64x1024.Idx → BitVec 1 := fun j => (m ((c.tc : Thread nD τ).loc main_arg4) : S64x1024.Idx → BitVec 1) j

/-- At the first launch's entry its third array is the float reading of the launched validity bits: each entry is the
    real 0 or 1 of its bit. -/
theorem mask_entry0 (j : S64x1024.Idx) :
    (V1 m ρ c main_v0 : S64x1024.Idx → EReal) j = (((bits m c j).toNat : ℝ) : EReal) :=
  congrFun (Tail.V1_main_v0 (F := Ideal) m ρ c) j

/-- The same at the second launch's entry. -/
theorem mask_entry1 (j : S64x1024.Idx) :
    (V3 m ρ c main_v0 : S64x1024.Idx → EReal) j = (((bits m c j).toNat : ℝ) : EReal) :=
  congrFun (Tail.V3_main_v0 (F := Ideal) m ρ c) j

/-- The host's quotient of two scalars, at the ideal values and at an index, is the extended-real quotient of their
    entries there. -/
theorem divf_apply (x y : FVec Ideal S_ .f32) (i : S_.Idx) :
    (Host.divf x y : S_.Idx → EReal) i = Ideal.div ((x : S_.Idx → EReal) i) ((y : S_.Idx → EReal) i) := rfl

/-- The scalar copy of a [1, 1] array reads the array at the one index the copy's position names. -/
theorem scalar_apply (x : S1x1.Idx → EReal) (i : S_.Idx) :
    shapeCast S_ x shapeCasts_S1x1_S_ i = x (Shape.reshapeEquiv shapeCasts_S1x1_S_ i) := rfl

/-- The successor direction's loss at the ideal values: the total of its 64 × 1024 line terms over the launched logits,
    labels and validity bits, divided by the denominator. The scalar copy of the launch's one result word reads that
    word, which is the accumulator chain's last value, which is the total. -/
theorem loss0_apply : (Tail.loss0 (F := Ideal) m ρ c : S_.Idx → EReal) i
    = Ideal.div (RowLoss.total
        (fun B R k => (m ((c.tc : Thread nD τ).loc main_arg0) : S64x1024x1024.Idx → EReal) (ix3 B R k))
        (fun B R => (m ((c.tc : Thread nD τ).loc main_arg1) : S64x1024.Idx → BitVec 32) (ix2 B R))
        (fun B R => (m ((c.tc : Thread nD τ).loc main_arg4) : S64x1024.Idx → BitVec 1) (ix2 B R)))
      ((Tail.den (F := Ideal) m c : S_.Idx → EReal) i) := by
  unfold Tail.loss0
  rw [divf_apply, scalar_apply,
    Sum0.chain_total (V1 m ρ) c (bits m c) (mask_entry0 m ρ c) (Shape.reshapeEquiv shapeCasts_S1x1_S_ i),
    Tail.V1_main_arg0, Tail.V1_main_arg1]

/-- The predecessor direction's loss at the ideal values: the same over its own logits and labels and the same
    validity bits. -/
theorem loss1_apply : (Tail.loss1 (F := Ideal) m ρ c : S_.Idx → EReal) i
    = Ideal.div (RowLoss.total
        (fun B R k => (m ((c.tc : Thread nD τ).loc main_arg2) : S64x1024x1024.Idx → EReal) (ix3 B R k))
        (fun B R => (m ((c.tc : Thread nD τ).loc main_arg3) : S64x1024.Idx → BitVec 32) (ix2 B R))
        (fun B R => (m ((c.tc : Thread nD τ).loc main_arg4) : S64x1024.Idx → BitVec 1) (ix2 B R)))
      ((Tail.den (F := Ideal) m c : S_.Idx → EReal) i) := by
  unfold Tail.loss1
  rw [divf_apply, scalar_apply,
    Sum1.chain_total (V3 m ρ) c (bits m c) (mask_entry1 m ρ c) (Shape.reshapeEquiv shapeCasts_S1x1_S_ i),
    Tail.V3_main_arg2, Tail.V3_main_arg3]

end Cert.KernelIdeal.KTotal

end
-- ==== Proof.RefLoss.lean ====
/-
  The reference's sum of one direction, read stage by stage at the ideal values: for logits `x0`, label words `x1` and
  validity bits `x4`, the reduced array `%30` holds at line (B, R) the line's loss term (RowLoss.term), so the scalar
  `%31` is the direction's total. The stages the generated reading leaves out are read here: the row maximum
  (a max-reduce over the last axis is the row's fold of max from −∞), the gather along the last axis (entry (B, R) of the
  result is the operand at (B, R, start index), the start index clamped into [0, 1023]) and the range test's
  and-reduce over a unit axis.
-/
import proofs.«413489_j17179869184487_2_alg».proof.Proof.RefRead
import proofs.«413489_j17179869184487_2_alg».proof.Proof.RowLoss
import proofs.«413489_j17179869184487_2_alg».proof.Proof.RowLossLaws
import Idealize.ShloMosaic.Lib.ValueIdx
import Idealize.ShloMosaic.Lib.ReduceAll
import Idealize.ShloMosaic.Lib.Affine
import Idealize.ShloMosaic.PureOps.Ideal.Laws
import Idealize.ShloMosaic.PureOps.Reduce

noncomputable section

open Idealize.ShloMosaic Idealize.ShloMosaic.ValueIdx

namespace Cert.ReferenceIdeal.Loss

open Cert.ReferenceIdeal Cert.ReferenceIdeal.Gen Cert.ReferenceIdeal.ReadP

/-! ## Words -/

theorem select_eq_ite {α : Type} (c : BitVec 1) (a b : α) : Scalar.select c a b = if c = 1#1 then a else b := rfl

theorem select_of_ne_one {α : Type} (c : BitVec 1) (a b : α) (h : ¬ c = 1#1) : Scalar.select c a b = b := by
  rw [select_eq_ite, if_neg h]

/-- The diagonal test of the overwrite: the line points to itself, is valid, and the column is the line's own. -/
theorem diag_cond (lab : BitVec 32) (mk : BitVec 1) (R k : Fin 1024) :
    IntOp.andi (IntOp.andi (IntOp.cmpi .eq lab 4294967295#32) mk)
        (IntOp.cmpi .eq (IntOp.addi (BitVec.ofNat 32 R.val) 0#32) (BitVec.ofNat 32 k.val)) = 1#1
      ↔ (lab = 4294967295#32 ∧ mk = 1#1 ∧ k = R) := by
  rw [IntOp.andi_eq_one, IntOp.andi_eq_one, IntOp.cmpi_eq, IntOp.cmpi_eq]
  have hk : IntOp.addi (BitVec.ofNat 32 R.val) 0#32 = BitVec.ofNat 32 k.val ↔ k = R := by
    unfold IntOp.addi
    rw [BitVec.add_zero]
    constructor
    · intro h
      have h' := congrArg BitVec.toNat h
      simp only [BitVec.toNat_ofNat] at h'
      have hR := R.isLt
      have hk := k.isLt
      exact Fin.ext (by omega)
    · rintro rfl; rfl
  rw [hk, and_assoc]

/-- A word in [0, 1023] read signed is its unsigned reading. -/
theorem toInt_toNat_of_nonneg (W : BitVec 32) (h : 0 ≤ W.toInt) : W.toInt.toNat = W.toNat := by
  rw [BitVec.toInt_eq_toNat_cond] at h ⊢
  have hlt := W.isLt
  by_cases hc : 2 * W.toNat < 2 ^ 32
  · rw [if_pos hc]; simp
  · rw [if_neg hc] at h; omega

/-! ## The unread stages -/

theorem hred : S64x1024x1024.Reduces [2] S64x1024 := by decide

theorem lift_eq (B : Fin 64) (R : Fin 1024) (k : Fin 1024) : hred.lift (ix2 B R) k = ix3 B R k := by
  funext a
  refine Fin.ext ?_
  match a with
  | ⟨0, _⟩ => rfl
  | ⟨1, _⟩ => rfl
  | ⟨2, _⟩ => rfl

/-- The host's max-reduce over the last axis, from −∞, at (B, R): the row's maximum. -/
theorem hostMax_apply (x : S64x1024x1024.Idx → EReal) (B : Fin 64) (R : Fin 1024) :
    Host.reduce (FloatOps.maximumf (F := Ideal) (φ := .f32)) x (constant (F := Ideal) S_ .f32 0xFF800000#32)
        reducesTo_S64x1024x1024_S64x1024_d2 h_S_ (ix2 B R)
      = RowLoss.rmax (fun k => x (ix3 B R k)) := by
  rw [Host.reduce_eq_fold_single _ x _ reducesTo_S64x1024x1024_S64x1024_d2 hred h_S_]
  unfold RowLoss.rmax
  exact congrArg (fun f => (Finset.univ : Finset (Fin 1024)).fold max RowLoss.negInf f)
    (funext fun k => congrArg x (lift_eq B R k))

/-- An and-reduce over a unit axis of an array of ones, from one, is one. -/
theorem hostAnd_one (x : S64x1024x1x1.Idx → BitVec 1) (hx : ∀ i, x i = 1#1) (j : S64x1024x1.Idx) :
    Host.reduce IntOp.andi x (constantI S_ 1 1#1) reducesTo_S64x1024x1x1_S64x1024x1_d3 h_S_ j = 1#1 := by
  rw [Host.reduce_eq_foldl]
  generalize (((List.finRange S64x1024x1x1.numel).map S64x1024x1x1.rowMajor.symm).filter
    fun i => reducesTo_S64x1024x1x1_S64x1024x1_d3.drop i = j) = l
  show l.foldl (fun r i => IntOp.andi r (x i)) 1#1 = 1#1
  induction l with
  | nil => rfl
  | cons a l ih => rw [List.foldl_cons, hx a]; exact ih

abbrev gd := gather_S64x1024x1024_S64x1024x1x1_S64x1024x1_n_2_01_01_2_3_111

/-- The gather along the last axis at (B, R): the operand at (B, R, the start index read signed and clamped). -/
theorem gather_apply {α : Type} (x : S64x1024x1024.Idx → α) (idx : IVec S64x1024x1x1 32) (B : Fin 64) (R : Fin 1024)
    (z : Fin 1) :
    Host.gather gd x idx (ix3 B R z) = x (ix3 B R ⟨min (idx (ix4 B R 0 0)).toInt.toNat 1023, by omega⟩) := by
  unfold Host.gather
  congr 1
  funext a
  refine Fin.ext ?_
  match a with
  | ⟨0, _⟩ =>
    show gd.start (ix3 B R z) idx 0 + gd.batchCoord (ix3 B R z) 0 + gd.offCoord (ix3 B R z) 0 = B.val
    rw [GatherDims.start_batching _ _ _ _ (by decide), GatherDims.offCoord_eq_zero _ _ _ (by rw [GatherDims.mem_sKept]; decide)]
    simp only [Nat.zero_add, Nat.add_zero]
    unfold GatherDims.batchCoord
    rw [dif_pos (by decide)]
    rfl
  | ⟨1, _⟩ =>
    show gd.start (ix3 B R z) idx 1 + gd.batchCoord (ix3 B R z) 1 + gd.offCoord (ix3 B R z) 1 = R.val
    rw [GatherDims.start_batching _ _ _ _ (by decide), GatherDims.offCoord_eq_zero _ _ _ (by rw [GatherDims.mem_sKept]; decide)]
    simp only [Nat.zero_add, Nat.add_zero]
    unfold GatherDims.batchCoord
    rw [dif_pos (by decide)]
    rfl
  | ⟨2, _⟩ =>
    show gd.start (ix3 B R z) idx 2 + gd.batchCoord (ix3 B R z) 2 + gd.offCoord (ix3 B R z) 2
      = min (idx (ix4 B R 0 0)).toInt.toNat 1023
    rw [GatherDims.batchCoord_eq_zero _ _ _ (by decide), GatherDims.offCoord_eq_zero _ _ _ (by rw [GatherDims.mem_sKept]; decide)]
    simp only [Nat.add_zero]
    unfold GatherDims.start
    rw [dif_pos (by decide)]
    have hsi : gd.siIdx (ix3 B R z) ⟨List.idxOf (2 : Fin 3) gd.startIndexMap, List.idxOf_lt_length_iff.2 (by decide)⟩
        = ix4 B R 0 0 := by
      funext b; refine Fin.ext ?_
      match b with
      | ⟨0, _⟩ => rfl
      | ⟨1, _⟩ => rfl
      | ⟨2, _⟩ => (have : z = 0 := Subsingleton.elim _ _); subst this; rfl
      | ⟨3, _⟩ => rfl
    rw [hsi]
    rfl

/-! ## The stages, at line (B, R) -/

section Stages

variable (x0 : (⟨S64x1024x1024, .f32⟩ : BufTy).Contents (Elt Ideal)) (x1 : (⟨S64x1024, .i32⟩ : BufTy).Contents (Elt Ideal))
  (x4 : (⟨S64x1024, .i1⟩ : BufTy).Contents (Elt Ideal))

/-- Line (B, R)'s row of logits, -/
abbrev row (B : Fin 64) (R : Fin 1024) : Fin 1024 → EReal := fun k => (x0 (ix3 B R k) : EReal)
/-- and the row after the diagonal overwrite. -/
abbrev yrow (B : Fin 64) (R : Fin 1024) : Fin 1024 → EReal :=
  RowLoss.adj (row x0 B R) (x1 (ix2 B R)) (x4 (ix2 B R)) R
/-- The maximum the reference's log-softmax subtracts: the overwritten row's, taken once more against −∞. -/
abbrev mrow (B : Fin 64) (R : Fin 1024) : EReal := max RowLoss.negInf (RowLoss.rmax (yrow x0 x1 x4 B R))

/-- `%5`: the row maximum of the logits as given. -/
theorem v5_apply (B : Fin 64) (R : Fin 1024) : val_main_v5 (F := Ideal) x0 (ix2 B R) = RowLoss.rmax (row x0 B R) :=
  hostMax_apply x0 B R

/-- `%20`: the overwritten row. -/
theorem v20_apply (B : Fin 64) (R k : Fin 1024) :
    val_main_v20 (F := Ideal) x0 x1 x4 (ix3 B R k) = yrow x0 x1 x4 B R k := by
  have e12 : idx_main_v12 (idx_main_v14 (ix3 B R k)) = ix2 B R := by
    funext a; refine Fin.ext ?_
    match a with
    | ⟨0, _⟩ => rfl
    | ⟨1, _⟩ => rfl
  have e13 : idx_main_v13 (idx_main_v15 (ix3 B R k)) = ix2 R k := by
    funext a; refine Fin.ext ?_
    match a with
    | ⟨0, _⟩ => rfl
    | ⟨1, _⟩ => rfl
  have e19 : idx_main_v19 (idx_main_call1_v0 (ix3 B R k)) = ix2 B R := by
    funext a; refine Fin.ext ?_
    match a with
    | ⟨0, _⟩ => rfl
    | ⟨1, _⟩ => rfl
  rw [val_main_v20_apply, val_main_v16_apply, val_main_v14_apply, val_main_v12_apply, e12, val_main_v6_apply,
    val_main_v1_apply, val_main_v0_apply, val_main_c_apply, val_main_v15_apply, val_main_v13_apply, e13,
    val_main_v11_apply, val_main_v10_apply, val_main_v7_apply, val_main_v9_apply, val_main_c_0_apply, val_main_v8_apply,
    val_main_call1_v0_apply, val_main_v19_apply, e19, val_main_v18_apply, v5_apply, val_main_v17_apply,
    val_main_cst_1_apply]
  show (if IntOp.andi (IntOp.andi (IntOp.cmpi .eq (x1 (ix2 B R)) 4294967295#32) (x4 (ix2 B R)))
            (IntOp.cmpi .eq (IntOp.addi (BitVec.ofNat 32 R.val) 0#32) (BitVec.ofNat 32 k.val)) = 1#1
          then RowLoss.rmax (row x0 B R) + RowLoss.one else (x0 (ix3 B R k) : EReal))
      = (if x1 (ix2 B R) = 4294967295#32 ∧ x4 (ix2 B R) = 1#1 ∧ k = R
          then RowLoss.rmax (row x0 B R) + RowLoss.one else (x0 (ix3 B R k) : EReal))
  by_cases h : x1 (ix2 B R) = 4294967295#32 ∧ x4 (ix2 B R) = 1#1 ∧ k = R
  · rw [if_pos ((diag_cond _ _ R k).mpr h), if_pos h]
  · rw [if_neg (fun h' => h ((diag_cond _ _ R k).mp h')), if_neg h]

/-- log-softmax's `%2`: the subtracted maximum. -/
theorem c2v2_apply (B : Fin 64) (R : Fin 1024) :
    val_main_call2_v2 (F := Ideal) x0 x1 x4 (ix2 B R) = mrow x0 x1 x4 B R := by
  rw [val_main_call2_v2_apply, val_main_call2_v1_apply, val_main_call2_cst_0_apply]
  have h0 : val_main_call2_v0 (F := Ideal) x0 x1 x4 (ix2 B R)
      = RowLoss.rmax (fun k => (val_main_v20 (F := Ideal) x0 x1 x4 (ix3 B R k) : EReal)) :=
    hostMax_apply (val_main_v20 (F := Ideal) x0 x1 x4) B R
  rw [h0, show (fun k => (val_main_v20 (F := Ideal) x0 x1 x4 (ix3 B R k) : EReal)) = yrow x0 x1 x4 B R from
    funext fun k => v20_apply x0 x1 x4 B R k]
  rfl

/-- The exponentials the log-softmax sums. -/
theorem c2v6_apply (B : Fin 64) (R k : Fin 1024) :
    val_main_call2_v6 (F := Ideal) x0 x1 x4 (ix3 B R k) = Ideal.exp (yrow x0 x1 x4 B R k - mrow x0 x1 x4 B R) := by
  have e3 : idx_main_call2_v3 (idx_main_call2_v4 (ix3 B R k)) = ix2 B R := by
    funext a; refine Fin.ext ?_
    match a with
    | ⟨0, _⟩ => rfl
    | ⟨1, _⟩ => rfl
  rw [val_main_call2_v6_apply, val_main_call2_v5_apply, v20_apply, val_main_call2_v4_apply, val_main_call2_v3_apply, e3,
    c2v2_apply]
  rfl

/-- `%21`: the log-probabilities of line (B, R). -/
theorem v21_apply (B : Fin 64) (R k : Fin 1024) :
    val_main_v21 (F := Ideal) x0 x1 x4 (ix3 B R k)
      = (yrow x0 x1 x4 B R k - mrow x0 x1 x4 B R)
          - Ideal.log (RowLoss.zero + ∑ k' : Fin 1024, Ideal.exp (yrow x0 x1 x4 B R k' - mrow x0 x1 x4 B R)) := by
  have e3 : idx_main_call2_v3 (idx_main_call2_v4 (ix3 B R k)) = ix2 B R := by
    funext a; refine Fin.ext ?_
    match a with
    | ⟨0, _⟩ => rfl
    | ⟨1, _⟩ => rfl
  have e8 : idx_main_call2_v8 (idx_main_call2_v10 (ix3 B R k)) = ix2 B R := by
    funext a; refine Fin.ext ?_
    match a with
    | ⟨0, _⟩ => rfl
    | ⟨1, _⟩ => rfl
  have e7 : ∀ k' : Fin 1024, idx_main_call2_v7 (ix2 B R) k' = ix3 B R k' := by
    intro k'; funext a; refine Fin.ext ?_
    match a with
    | ⟨0, _⟩ => rfl
    | ⟨1, _⟩ => rfl
    | ⟨2, _⟩ => rfl
  rw [val_main_v21_apply, val_main_call2_v5_apply, v20_apply, val_main_call2_v4_apply, val_main_call2_v3_apply, e3,
    c2v2_apply, val_main_call2_v10_apply, val_main_call2_v9_apply, val_main_call2_v8_apply, e8, val_main_call2_v7_apply,
    val_main_call2_cst_1_apply]
  have hs : ∀ k' : Fin 1024, val_main_call2_v6 (F := Ideal) x0 x1 x4 (idx_main_call2_v7 (ix2 B R) k')
      = Ideal.exp (yrow x0 x1 x4 B R k' - mrow x0 x1 x4 B R) := fun k' => by rw [e7, c2v6_apply]
  simp only [hs]
  rfl

end Stages

end Cert.ReferenceIdeal.Loss

end
-- ==== Proof.RefWords.lean ====
/-
  The reference's label words, read at coordinates: the word its clip leaves at line (B, R) is the clipped label of the
  shared specification; the start index its gather reads at (B, R) is the same word (the clipped label is never
  negative, so the wrap-around of a negative index does nothing); and both range tests of the gather pass everywhere.
-/
import proofs.«413489_j17179869184487_2_alg».proof.Proof.RefRead
import proofs.«413489_j17179869184487_2_alg».proof.Proof.RowLoss
import proofs.«413489_j17179869184487_2_alg».proof.Proof.RowLossLaws
import Idealize.ShloMosaic.Lib.ValueIdx
import Idealize.ShloMosaic.Lib.Affine

noncomputable section

namespace Cert.ReferenceIdeal.Words

open Idealize.ShloMosaic Idealize.ShloMosaic.ValueIdx Cert.ReferenceIdeal Cert.ReferenceIdeal.Gen Cert.ReferenceIdeal.ReadP

/-- A select on an equality test is the choice on the equality. -/
theorem select_cmpi_eq {α : Type} (x y : BitVec 32) (a b : α) :
    Scalar.select (IntOp.cmpi .eq x y) a b = if x = y then a else b := by
  unfold Scalar.select
  by_cases h : x = y
  · rw [if_pos h]; exact if_pos (IntOp.cmpi_eq.2 h)
  · rw [if_neg h]; exact if_neg (fun hc => h (IntOp.cmpi_eq.1 hc))

/-- A select whose condition is not 1 keeps its second value. -/
theorem select_of_ne_one {α : Type} (c : BitVec 1) (a b : α) (h : ¬ c = 1#1) : Scalar.select c a b = b := by
  unfold Scalar.select
  exact if_neg h

/-- The line index the row-position table is read at, from (B, R): the position R. -/
theorem iota_idx (B : Fin 64) (R : Fin 1024) :
    ((idx_main_v3 (idx_main_call0_v0 (ix2 B R))) 0).val = R.val := rfl

/-- The reshape (64, 1024, 1) → (64, 1024, 1, 1) read back at (B, R, 0, 0), then dropped to (64, 1024): the line (B, R). -/
theorem start_idx (B : Fin 64) (R : Fin 1024) :
    idx_main_v23 (idx_main_call4_v5 (ix4 B R (0 : Fin 1) (0 : Fin 1))) = ix2 B R := by
  funext a
  refine Fin.ext ?_
  have hB := B.isLt
  have hR := R.isLt
  match a with
  | ⟨0, _⟩ => show ((((B.val * 1024 + R.val) * 1 + 0) * 1 + 0) / 1024 : ℕ) = B.val; omega
  | ⟨1, _⟩ => show ((((B.val * 1024 + R.val) * 1 + 0) * 1 + 0) / 1 % 1024 : ℕ) = R.val; omega

variable (x1 : (⟨S64x1024, .i32⟩ : BufTy).Contents (Elt Ideal)) (B : Fin 64) (R : Fin 1024)

/-- The word the reference's clip leaves at line (B, R) is the specification's clipped label. -/
theorem clip_apply : val_main_v22 (F := Ideal) x1 (ix2 B R) = RowLoss.clipW (x1 (ix2 B R)) R := by
  simp only [val_main_v22_apply, val_main_call3_v4_apply, val_main_call3_v3_apply, val_main_c_3_apply,
    val_main_call3_v2_apply, val_main_call3_v1_apply, val_main_call3_v0_apply, val_main_c_2_apply, val_main_v4_apply,
    val_main_v1_apply, val_main_v0_apply, val_main_c_apply, val_main_call0_v0_apply, val_main_v3_apply,
    val_main_v2_apply, select_cmpi_eq, iota_idx]
  rfl

/-- The start index the gather reads at (B, R): the clipped label again, since it is not negative. -/
theorem start_apply : val_main_call4_v5 (F := Ideal) x1 (ix4 B R 0 0) = RowLoss.clipW (x1 (ix2 B R)) R := by
  rw [val_main_call4_v5_apply, val_main_call4_v4_apply, val_main_call4_v1_apply, val_main_v23_apply, start_idx,
    clip_apply, val_main_call4_v0_apply, val_main_call4_c_apply]
  refine select_of_ne_one _ _ _ ?_
  rw [IntOp.cmpi_slt]
  have h := (RowLoss.clipW_toInt (x1 (ix2 B R)) R).1
  have h0 : (0#32 : BitVec 32).toInt = 0 := by decide
  omega

/-- Both range tests of the gather pass at every index: the start index is in [0, 1023]. -/
theorem inRange_apply (i : S64x1024x1x1.Idx) : val_main_call4_v11 (F := Ideal) x1 i = 1#1 := by
  obtain ⟨b, r, rfl⟩ : ∃ (b : Fin 64) (r : Fin 1024), i = ix4 b r (0 : Fin 1) (0 : Fin 1) := by
    refine ⟨i 0, i 1, ?_⟩
    funext a
    match a with
    | ⟨0, _⟩ => rfl
    | ⟨1, _⟩ => rfl
    | ⟨2, _⟩ => exact Subsingleton.elim (α := Fin 1) _ _
    | ⟨3, _⟩ => exact Subsingleton.elim (α := Fin 1) _ _
  rw [val_main_call4_v11_apply, val_main_call4_v7_apply, val_main_call4_v10_apply, start_apply,
    val_main_call4_v6_apply, val_main_call4_c_2_apply, val_main_call4_v9_apply, val_main_call4_v8_apply,
    val_main_call4_c_1_apply]
  have h := RowLoss.clipW_toInt (x1 (ix2 b r)) r
  have h0 : (0#32 : BitVec 32).toInt = 0 := by decide
  have h1 : (1023#32 : BitVec 32).toInt = 1023 := by decide
  refine IntOp.andi_eq_one.2 ⟨IntOp.cmpi_sge.2 ?_, IntOp.cmpi_sle.2 ?_⟩ <;> omega

end Cert.ReferenceIdeal.Words

end
-- ==== Proof.RefTotal.lean ====
/-
  The reference's direction sum is the direction's total of line terms: the gathered log-probability of line (B, R) is
  the one at the clipped label (the start index is in range, so the gather's clamp is idle and the out-of-range fill is
  never chosen), its negation times the validity bit is the line's term on a row of reals, and the reduce over both
  axes adds the 64 × 1024 terms to the literal zero. The second direction's stages are the first's at the other
  direction's logits and labels.
-/
import proofs.«413489_j17179869184487_2_alg».proof.Proof.RefLoss
import proofs.«413489_j17179869184487_2_alg».proof.Proof.RefWords

noncomputable section

open Idealize.ShloMosaic Idealize.ShloMosaic.ValueIdx

namespace Cert.ReferenceIdeal.Total

open Cert.ReferenceIdeal Cert.ReferenceIdeal.Gen Cert.ReferenceIdeal.ReadP Cert.ReferenceIdeal.Loss Cert.ReferenceIdeal.Words

variable (x0 : (⟨S64x1024x1024, .f32⟩ : BufTy).Contents (Elt Ideal)) (x1 : (⟨S64x1024, .i32⟩ : BufTy).Contents (Elt Ideal))
  (x4 : (⟨S64x1024, .i1⟩ : BufTy).Contents (Elt Ideal))

/-- `%24` at line (B, R): the log-probability at the clipped label. -/
theorem v24_apply (B : Fin 64) (R : Fin 1024) :
    val_main_v24 (F := Ideal) x0 x1 x4 (ix3 B R 0)
      = val_main_v21 (F := Ideal) x0 x1 x4 (ix3 B R (RowLoss.col (x1 (ix2 B R)) R)) := by
  have h12 : val_main_call4_v12 (F := Ideal) x1 (ix3 B R 0) = 1#1 :=
    hostAnd_one (val_main_call4_v11 (F := Ideal) x1) (inRange_apply x1) (ix3 B R 0)
  rw [val_main_v24_apply, h12, select_eq_ite, if_pos rfl]
  unfold val_main_call4_v13
  rw [gather_apply]
  refine congrArg (fun j => val_main_v21 (F := Ideal) x0 x1 x4 (ix3 B R j)) (Fin.ext ?_)
  have hs := start_apply x1 B R
  show min (val_main_call4_v5 (F := Ideal) x1 (ix4 B R 0 0)).toInt.toNat 1023 = (RowLoss.col (x1 (ix2 B R)) R).val
  rw [hs, RowLoss.col_val, toInt_toNat_of_nonneg _ (RowLoss.clipW_toInt _ _).1]
  have := RowLoss.clipW_lt (x1 (ix2 B R)) R
  omega

/-- `%30` at line (B, R): the line's term, on a row of reals. -/
theorem v30_apply (B : Fin 64) (R : Fin 1024) (hx : ∀ k, ∃ r : ℝ, row x0 B R k = (r : EReal)) :
    val_main_v30 (F := Ideal) x0 x1 x4 (ix2 B R) = RowLoss.term (row x0 B R) (x1 (ix2 B R)) (x4 (ix2 B R)) R := by
  have e25 : idx_main_v25 (ix2 B R) = ix3 B R 0 := by
    funext a; refine Fin.ext ?_
    have hR := R.isLt
    match a with
    | ⟨0, _⟩ => show (B.val * 1024 + R.val) / 1024 = B.val; omega
    | ⟨1, _⟩ => show (B.val * 1024 + R.val) / 1 % 1024 = R.val; omega
    | ⟨2, _⟩ => rfl
  rw [val_main_v30_apply, val_main_v26_apply, val_main_v25_apply, e25, v24_apply, v21_apply, val_main_v27_apply,
    RowLoss.term_eq_neg _ _ _ _ hx]
  rfl

/-- `%31`: the direction's total, when every logit is a real. -/
theorem v31_apply (hx : ∀ i, ∃ r : ℝ, (x0 i : EReal) = (r : EReal)) (i : S_.Idx) :
    val_main_v31 (F := Ideal) x0 x1 x4 i
      = RowLoss.total (fun B R k => (x0 (ix3 B R k) : EReal)) (fun B R => x1 (ix2 B R)) (fun B R => x4 (ix2 B R)) := by
  rw [val_main_v31_apply, val_main_cst_6_apply, sum_idx2]
  have ht : ∀ (B : Fin 64) (R : Fin 1024), val_main_v30 (F := Ideal) x0 x1 x4 (ix2 B R)
      = RowLoss.term (row x0 B R) (x1 (ix2 B R)) (x4 (ix2 B R)) R := fun B R => v30_apply x0 x1 x4 B R (fun k => hx _)
  simp only [ht]
  show RowLoss.zero + _ = _
  rw [RowLoss.zero_eq, zero_add]
  rfl

end Cert.ReferenceIdeal.Total

/-! ## The second direction is the first at the other logits and labels -/

namespace Cert.ReferenceIdeal.Total

open Cert.ReferenceIdeal Cert.ReferenceIdeal.Gen Cert.ReferenceIdeal.ReadP

variable {F : FTy → Type} [FloatOps F]

theorem v64_eq (x2 : (⟨S64x1024x1024, .f32⟩ : BufTy).Contents (Elt F)) (x3 : (⟨S64x1024, .i32⟩ : BufTy).Contents (Elt F))
    (x4 : (⟨S64x1024, .i1⟩ : BufTy).Contents (Elt F)) :
    val_main_v64 (F := F) x2 x3 x4 = val_main_v31 (F := F) x2 x3 x4 := rfl

theorem v62_eq (x4 : (⟨S64x1024, .i1⟩ : BufTy).Contents (Elt F)) : val_main_v62 (F := F) x4 = val_main_v29 (F := F) x4 := rfl

end Cert.ReferenceIdeal.Total

end
-- ==== Proof.Bridge.lean ====
/-
  The two programs' results, side by side at the ideal values.

  Per direction both programs hold the same quotient: the direction's total of line terms (the kernel's accumulator
  chain by the grid regrouping, the reference's reduce by its stages read at a line, on logits that are reals) over the
  same denominator, the number of valid lines but at least 1. The combined loss is the first quotient plus the weight
  times the second in both, and the count of valid lines is one and the same integer sum.
-/
import proofs.«413489_j17179869184487_2_alg».proof.Defs
import proofs.«413489_j17179869184487_2_alg».proof.Proof.Results
import proofs.«413489_j17179869184487_2_alg».proof.Proof.Tail
import proofs.«413489_j17179869184487_2_alg».proof.Proof.KTotal
import proofs.«413489_j17179869184487_2_alg».proof.Proof.RefTotal
import proofs.«413489_j17179869184487_2_alg».proof.Proof.Finite

noncomputable section

open Idealize.ShloMosaic Idealize.ShloMosaic.TcCoe Idealize.SL.Sem Idealize.ShloMosaic.ValueIdx

namespace Cert.Proof.Bridge

open Cert.ReferenceIdeal.ReadP

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The successor direction: the reference's quotient over the kernel's arrays is the kernel's. -/
theorem dir0 (hx : ∀ i, ∃ r : ℝ, ((m ((c.tc : Thread Cert.KernelIdeal.nD Cert.KernelIdeal.τ).loc Cert.KernelIdeal.main_arg0)) i : EReal) = (r : EReal)) :
    val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4))
      = Cert.KernelIdeal.Tail.loss0 (F := Ideal) m ρ c := by
  funext i
  rw [Cert.KernelIdeal.KTotal.loss0_apply, val_main_v32_apply, Cert.ReferenceIdeal.Total.v31_apply _ _ _ hx]
  rfl

/-- The predecessor direction likewise: its stages are the first direction's at the other logits and labels. -/
theorem dir1 (hx : ∀ i, ∃ r : ℝ, ((m ((c.tc : Thread Cert.KernelIdeal.nD Cert.KernelIdeal.τ).loc Cert.KernelIdeal.main_arg2)) i : EReal) = (r : EReal)) :
    val_main_v65 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = Cert.KernelIdeal.Tail.loss1 (F := Ideal) m ρ c := by
  funext i
  rw [Cert.KernelIdeal.KTotal.loss1_apply, val_main_v65_apply, Cert.ReferenceIdeal.Total.v64_eq, Cert.ReferenceIdeal.Total.v62_eq,
    Cert.ReferenceIdeal.Total.v31_apply _ _ _ hx]
  rfl

/-- The combined loss: the first quotient plus the weight times the second, in both programs. -/
theorem total (hx0 : ∀ i, ∃ r : ℝ, ((m ((c.tc : Thread Cert.KernelIdeal.nD Cert.KernelIdeal.τ).loc Cert.KernelIdeal.main_arg0)) i : EReal) = (r : EReal))
    (hx2 : ∀ i, ∃ r : ℝ, ((m ((c.tc : Thread Cert.KernelIdeal.nD Cert.KernelIdeal.τ).loc Cert.KernelIdeal.main_arg2)) i : EReal) = (r : EReal)) :
    val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = addf (F := Ideal) (s := Cert.KernelIdeal.S_) (φ := .f32) (Cert.KernelIdeal.Tail.loss0 (F := Ideal) m ρ c)
          (mulf (F := Ideal) (s := Cert.KernelIdeal.S_) (φ := .f32) (m ((c.tc : Thread Cert.KernelIdeal.nD Cert.KernelIdeal.τ).loc Cert.KernelIdeal.main_arg5)) (Cert.KernelIdeal.Tail.loss1 (F := Ideal) m ρ c)) := by
  unfold val_main_v67 val_main_v66
  rw [dir0 m ρ c hx0, dir1 m ρ c hx2]

end Cert.Proof.Bridge

end
-- ==== Proof.lean ====
/-
  The certificate: the masked-diagonal relabelled softmax cross entropy of two directions, summed over the valid lines
  and divided by their number, computed by two accumulating launches over an 8 × 8 grid of (8, 128, 1024) blocks, is
  the reference's log-softmax / take-along-axis computation at the ideal values.

  Frames: the kernel program's (at the word level and at the ideal values) are the launch theorem over its two
  regions' accumulator runs; the reference's is its run with the results dropped. The ideal pass rewrote nothing.
  Values: per direction both programs hold (the direction's total of line terms) / max (number of valid lines, 1): the
  kernel's accumulator chain over the 64 grid points adds every line's term once, the reference's stages read at a
  line give the same term when the line's logits are reals (which the precondition says), and the two spellings of
  the cross entropy, (M + log Σ exp (y − M)) − y_l and −((y_l − M) − log Σ exp (y − M)), agree on the extended
  reals once y_l and M are real.
-/
import proofs.«413489_j17179869184487_2_alg».proof.Defs
import proofs.«413489_j17179869184487_2_alg».proof.Proof.Gen.Kernel
import proofs.«413489_j17179869184487_2_alg».proof.Proof.Gen.Kernel.Frame
import proofs.«413489_j17179869184487_2_alg».proof.Proof.Gen.KernelIdeal
import proofs.«413489_j17179869184487_2_alg».proof.Proof.Gen.KernelIdeal.Frame
import proofs.«413489_j17179869184487_2_alg».proof.Proof.Gen.ReferenceIdeal
import proofs.«413489_j17179869184487_2_alg».proof.Proof.Gen.Pre_finite_inputs
import proofs.«413489_j17179869184487_2_alg».proof.Proof.RefRun
import proofs.«413489_j17179869184487_2_alg».proof.Proof.Results
import proofs.«413489_j17179869184487_2_alg».proof.Proof.Tail
import proofs.«413489_j17179869184487_2_alg».proof.Proof.Finite
import proofs.«413489_j17179869184487_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

theorem preserves : Cert.preserves_Kernel_KernelIdeal := trivial

/-- At the ideal values, from memories that agree on the arguments, both programs end with the same four results:
    the kernel's are the host tail over its two accumulator chains, the reference's its stages of the arguments; the
    bridge joins them on logits that are reals. -/
theorem algebraic : Cert.algebraic_KernelIdeal_ReferenceIdeal := by
  intro m ρ m' ρ' hpre hagree
  refine ⟨fun c => Cert.KernelIdeal.Gen.W5 m ρ c (Proc.devRef .tc Cert.KernelIdeal.main_v10),
    fun c => Cert.KernelIdeal.Gen.W5 m ρ c (Proc.devRef .tc Cert.KernelIdeal.main_v7),
    fun c => Cert.KernelIdeal.Gen.W5 m ρ c (Proc.devRef .tc Cert.KernelIdeal.main_v8),
    fun c => Cert.KernelIdeal.Gen.W5 m ρ c (Proc.devRef .tc Cert.KernelIdeal.main_v12),
    Cert.KernelIdeal.Results.run (F := Ideal) m ρ, ?_⟩
  refine (θ_run Cert.ReferenceIdeal.defs _ _).mono (fun _ h c => ?_) (Cert.ReferenceIdeal.ValueP.run (F := Ideal) m' ρ')
  obtain ⟨h0, h1, h2, h3, h4, h5⟩ := hagree c
  have hreal := Cert.Finite.reals_of_pre _ _ _ _ _ _ (hpre c)
  refine ⟨(h c).1.trans ?_, (h c).2.1.trans ?_, (h c).2.2.1.trans ?_, (h c).2.2.2.1.trans ?_, (h c).2.2.2.2⟩
  · show _ = Cert.KernelIdeal.Gen.W5 m ρ c (Proc.devRef .tc Cert.KernelIdeal.main_v10)
    rw [h0, h1, h2, h3, h4, h5, Cert.KernelIdeal.Tail.W5_main_v10]
    exact Bridge.total m ρ c hreal.1 hreal.2
  · show _ = Cert.KernelIdeal.Gen.W5 m ρ c (Proc.devRef .tc Cert.KernelIdeal.main_v7)
    rw [h0, h1, h4, Cert.KernelIdeal.Tail.W5_main_v7]
    exact Bridge.dir0 m ρ c hreal.1
  · show _ = Cert.KernelIdeal.Gen.W5 m ρ c (Proc.devRef .tc Cert.KernelIdeal.main_v8)
    rw [h2, h3, h4, Cert.KernelIdeal.Tail.W5_main_v8]
    exact Bridge.dir1 m ρ c hreal.2
  · show _ = Cert.KernelIdeal.Gen.W5 m ρ c (Proc.devRef .tc Cert.KernelIdeal.main_v12)
    rw [h4, Cert.KernelIdeal.Tail.W5_main_v12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
